-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x8x512 : Shape := ⟨4, ![16, 64, 8, 512]⟩
abbrev S16x64x8x8 : Shape := ⟨4, ![16, 64, 8, 8]⟩
abbrev S512x512 : Shape := ⟨2, ![512, 512]⟩
abbrev S512 : Shape := ⟨1, ![512]⟩
abbrev S1024x64 : Shape := ⟨2, ![1024, 64]⟩
abbrev S_ : Shape := ⟨0, ![]⟩

class Facts : Prop where
  bcast_S_S16x64x8x512 : S_.BroadcastsInDim S16x64x8x512 (![] : Fin 0 → Fin S16x64x8x512.rank)
  reducesTo_S16x64x8x512_S_d0_1_2_3 : S16x64x8x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x64 : S_.BroadcastsInDim S1024x64 (![] : Fin 0 → Fin S1024x64.rank)
  reducesTo_S1024x64_S_d0_1 : S1024x64.ReducesTo [0, 1] S_
  bcast_S_S16x64x8x8 : S_.BroadcastsInDim S16x64x8x8 (![] : Fin 0 → Fin S16x64x8x8.rank)
  reducesTo_S16x64x8x8_S_d0_1_2_3 : S16x64x8x8.ReducesTo [0, 1, 2, 3] S_

variable [Facts]

def fn_part1 {F : FTy → Type} [FloatOps F] (main_arg1 : IVec S16x64x8x8 32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_c_6 : IVec S_ 32 := constantI S_ 32 0#32
  let main_v19 : IVec S16x64x8x8 32 := broadcastInDim S16x64x8x8 ![] bcast_S_S16x64x8x8 main_c_6
  let main_v20 : IVec S16x64x8x8 1 := cmpi .sge main_arg1 main_v19
  let main_c_7 : IVec S_ 1 := constantI S_ 1 1#1
  let main_v21 : IVec S_ 1 := (fun x v => Host.reduce IntOp.andi x v reducesTo_S16x64x8x8_S_d0_1_2_3 h_S_) main_v20 main_c_7
  let main_v22 : IVec S_ 1 := andi main_v18 main_v21
  let main_c_8 : IVec S_ 32 := constantI S_ 32 1024#32
  let main_v23 : IVec S16x64x8x8 32 := broadcastInDim S16x64x8x8 ![] bcast_S_S16x64x8x8 main_c_8
  let main_v24 : IVec S16x64x8x8 1 := cmpi .slt main_arg1 main_v23
  let main_c_9 : IVec S_ 1 := constantI S_ 1 1#1
  let main_v25 : IVec S_ 1 := (fun x v => Host.reduce IntOp.andi x v reducesTo_S16x64x8x8_S_d0_1_2_3 h_S_) main_v24 main_c_9
  let main_v26 : IVec S_ 1 := andi main_v22 main_v25
  main_v26

def fn {F : FTy → Type} [FloatOps F] (main_arg0 : FVec F S16x64x8x512 .f32) (main_arg1 : IVec S16x64x8x8 32) (main_arg2 : FVec F S512x512 .f32) (main_arg3 : FVec F S512 .f32) (main_arg4 : FVec F S1024x64 .f32) : IVec S_ 1 :=
  let main_v0 : FVec F S16x64x8x512 .f32 := Host.absf main_arg0
  let main_cst : FVec F S_ .f32 := constant S_ .f32 0x7F800000#32
  let main_v1 : FVec F S16x64x8x512 .f32 := broadcastInDim S16x64x8x512 ![] bcast_S_S16x64x8x512 main_cst
  let main_v2 : IVec S16x64x8x512 1 := cmpf .olt main_v0 main_v1
  let main_c : IVec S_ 1 := constantI S_ 1 1#1
  let main_v3 : IVec S_ 1 := (fun x v => Host.reduce IntOp.andi x v reducesTo_S16x64x8x512_S_d0_1_2_3 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x64 .f32 := Host.absf main_arg4
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg1 main_v13 main_v16
-- ==== Kernel.lean ====
abbrev S16x64x8x512 : Shape := ⟨4, ![16, 64, 8, 512]⟩
abbrev S16x64x8x8 : Shape := ⟨4, ![16, 64, 8, 8]⟩
abbrev S512x512 : Shape := ⟨2, ![512, 512]⟩
abbrev S512 : Shape := ⟨1, ![512]⟩
abbrev S1024x64 : Shape := ⟨2, ![1024, 64]⟩
abbrev S8192x512 : Shape := ⟨2, ![8192, 512]⟩
abbrev S8192x8 : Shape := ⟨2, ![8192, 8]⟩
abbrev S64x1024 : Shape := ⟨2, ![64, 1024]⟩
abbrev S_ : Shape := ⟨0, ![]⟩
abbrev S1024 : Shape := ⟨1, ![1024]⟩
abbrev S8192x1 : Shape := ⟨2, ![8192, 1]⟩
abbrev S512x8 : Shape := ⟨2, ![512, 8]⟩
abbrev S512x1 : Shape := ⟨2, ![512, 1]⟩
abbrev S1x512 : Shape := ⟨2, ![1, 512]⟩
abbrev S512x64 : Shape := ⟨2, ![512, 64]⟩
abbrev S512x1024 : Shape := ⟨2, ![512, 1024]⟩
abbrev S1x1024 : Shape := ⟨2, ![1, 1024]⟩
abbrev S16x64x8 : Shape := ⟨3, ![16, 64, 8]⟩
abbrev S16x64x8x8x1 : Shape := ⟨5, ![16, 64, 8, 8, 1]⟩
abbrev S16x64x8x8x64 : Shape := ⟨5, ![16, 64, 8, 8, 64]⟩

abbrev nBuf : Space → Nat
  | .hbm => 26
  | .vmem => 12
  | .smem => 0
  | _ => 0

abbrev bufTy : (tb : Table) → Fin (tcTables nBuf tb) → BufTy
  | .hbm, ⟨0, _⟩ => ⟨S16x64x8x512, .f32⟩
  | .hbm, ⟨1, _⟩ => ⟨S16x64x8x8, .i32⟩
  | .hbm, ⟨2, _⟩ => ⟨S512x512, .f32⟩
  | .hbm, ⟨3, _⟩ => ⟨S512, .f32⟩
  | .hbm, ⟨4, _⟩ => ⟨S1024x64, .f32⟩
  | .hbm, ⟨5, _⟩ => ⟨S8192x512, .f32⟩
  | .hbm, ⟨6, _⟩ => ⟨S8192x8, .i32⟩
  | .hbm, ⟨7, _⟩ => ⟨S512x512, .f32⟩
  | .hbm, ⟨8, _⟩ => ⟨S64x1024, .f32⟩
  | .hbm, ⟨9, _⟩ => ⟨S1024x64, .f32⟩
  | .hbm, ⟨10, _⟩ => ⟨S_, .f32⟩
  | .hbm, ⟨11, _⟩ => ⟨S1024, .f32⟩
  | .hbm, ⟨12, _⟩ => ⟨S8192x1, .f32⟩
  | .hbm, ⟨13, _⟩ => ⟨S8192x1, .f32⟩
  | .hbm, ⟨14, _⟩ => ⟨S16x64x8, .f32⟩
  | .hbm, ⟨15, _⟩ => ⟨S16x64x8, .f32⟩
  | .hbm, ⟨16, _⟩ => ⟨S_, .i32⟩
  | .hbm, ⟨17, _⟩ => ⟨S16x64x8x8, .i32⟩
  | .hbm, ⟨18, _⟩ => ⟨S16x64x8x8, .i1⟩
  | .hbm, ⟨19, _⟩ => ⟨S_, .i32⟩
  | .hbm, ⟨20, _⟩ => ⟨S16x64x8x8, .i32⟩
  | .hbm, ⟨21, _⟩ => ⟨S16x64x8x8, .i32⟩
  | .hbm, ⟨22, _⟩ => ⟨S16x64x8x8, .i32⟩
  | .hbm, ⟨23, _⟩ => ⟨S16x64x8x8x1, .i32⟩
  | .hbm, ⟨24, _⟩ => ⟨S16x64x8x8x64, .f32⟩
  | .hbm, ⟨25, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x8, .i32⟩
  | .local _ .vmem, ⟨3, _⟩ => ⟨S512x8, .i32⟩
  | .local _ .vmem, ⟨4, _⟩ => ⟨S512x512, .f32⟩
  | .local _ .vmem, ⟨5, _⟩ => ⟨S512, .f32⟩
  | .local _ .vmem, ⟨6, _⟩ => ⟨S64x1024, .f32⟩
  | .local _ .vmem, ⟨7, _⟩ => ⟨S1024, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S16x64x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x64x8x512_S8192x512 : S16x64x8x512.ShapeCasts S8192x512
  shapeCasts_S16x64x8x8_S8192x8 : S16x64x8x8.ShapeCasts S8192x8
  transposes_S512x512_S512x512_1_0 : S512x512.Transposes [1, 0] S512x512
  transposes_S1024x64_S64x1024_1_0 : S1024x64.Transposes [1, 0] S64x1024
  reducesTo_S1024x64_S1024_d1 : S1024x64.ReducesTo [1] S1024
  h_S_ : 0 < S_.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024_S1024_0 : ∀ a, (![0] : Fin 1 → Nat) a + S1024.size a ≤ S1024.size a
  h_S1024 : 0 < S1024.numel
  shapeCasts_S1024_S1024 : S1024.ShapeCasts S1024
  slices_S512x512_o0_0_S512x64 : S512x512.Slices ![0, 0] S512x64
  reduces_S512x64_S512 : S512x64.Reduces [1] S512
  shapeCasts_S512_S512x1 : S512.ShapeCasts S512x1
  shapeCasts_S1024_S1x1024 : S1024.ShapeCasts S1x1024
  broadcasts_S512x1_S512x1024 : S512x1.Broadcasts S512x1024
  broadcasts_S1x1024_S512x1024 : S1x1024.Broadcasts S512x1024
  reduces_S512x1024_S512 : S512x1024.Reduces [1] S512
  inb_S512x8_S512x1_0_0 : ∀ a, (![0, 0] : Fin 2 → Nat) a + S512x1.size a ≤ S512x8.size a
  h_S512x1 : 0 < S512x1.numel
  shapeCasts_S512x1_S512x1 : S512x1.ShapeCasts S512x1
  iota_S512x1024_d1_w32 : S512x1024.Iotas .tc 32 [1]
  slices_S512x512_o0_64_S512x64 : S512x512.Slices ![0, 64] S512x64
  inb_S512x8_S512x1_0_1 : ∀ a, (![0, 1] : Fin 2 → Nat) a + S512x1.size a ≤ S512x8.size a
  slices_S512x512_o0_128_S512x64 : S512x512.Slices ![0, 128] S512x64
  inb_S512x8_S512x1_0_2 : ∀ a, (![0, 2] : Fin 2 → Nat) a + S512x1.size a ≤ S512x8.size a
  slices_S512x512_o0_192_S512x64 : S512x512.Slices ![0, 192] S512x64
  inb_S512x8_S512x1_0_3 : ∀ a, (![0, 3] : Fin 2 → Nat) a + S512x1.size a ≤ S512x8.size a
  slices_S512x512_o0_256_S512x64 : S512x512.Slices ![0, 256] S512x64
  inb_S512x8_S512x1_0_4 : ∀ a, (![0, 4] : Fin 2 → Nat) a + S512x1.size a ≤ S512x8.size a
  slices_S512x512_o0_320_S512x64 : S512x512.Slices ![0, 320] S512x64
  inb_S512x8_S512x1_0_5 : ∀ a, (![0, 5] : Fin 2 → Nat) a + S512x1.size a ≤ S512x8.size a
  slices_S512x512_o0_384_S512x64 : S512x512.Slices ![0, 384] S512x64
  inb_S512x8_S512x1_0_6 : ∀ a, (![0, 6] : Fin 2 → Nat) a + S512x1.size a ≤ S512x8.size a
  slices_S512x512_o0_448_S512x64 : S512x512.Slices ![0, 448] S512x64
  inb_S512x8_S512x1_0_7 : ∀ a, (![0, 7] : Fin 2 → Nat) a + S512x1.size a ≤ S512x8.size a
  inb_S512x1_S512x1_0_0 : ∀ a, (![0, 0] : Fin 2 → Nat) a + S512x1.size a ≤ S512x1.size a
  shapeCasts_S8192x1_S16x64x8 : S8192x1.ShapeCasts S16x64x8
  bcast_S_S16x64x8x8 : S_.BroadcastsInDim S16x64x8x8 (![] : Fin 0 → Fin S16x64x8x8.rank)
  bcast_S16x64x8x8_S16x64x8x8x1_0_1_2_3 : S16x64x8x8.BroadcastsInDim S16x64x8x8x1 (![0, 1, 2, 3] : Fin 4 → Fin S16x64x8x8x1.rank)
  shapeCasts_S16x64x8x8x64_S8192x512 : S16x64x8x8x64.ShapeCasts S8192x512
  dot_S512x512_S512x512_S512x512_1_0_0_1_n_n_wf : DotDims.WF S512x512 S512x512 S512x512 [1] [0] [0] [1] [] []
  dot_S512x64_S64x1024_S512x1024_1_0_0_1_n_n_wf : DotDims.WF S512x64 S64x1024 S512x1024 [1] [0] [0] [1] [] []
  gather_S1024x64_S16x64x8x8x1_S16x64x8x8x64_4_0_n_n_0_4_164_wf : GatherDims.WF S1024x64 S16x64x8x8x1 S16x64x8x8x64 [4] [0] [] [0] [] 4 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S8192x8.size a
  hwx0_1 : ∀ i : grid0.Coords, EltTy.bits .i32 = 32 ∨ (Rect.block (s := S8192x8) S512x8.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x1024.size a
  hwx0_4 : ∀ i : grid0.Coords, EltTy.bits .f32 = 32 ∨ (Rect.block (s := S64x1024) S64x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S8192x1.size a
  hwx0_7 : ∀ i : grid0.Coords, EltTy.bits .f32 = 32 ∨ (Rect.block (s := S8192x1) S512x1.size (cc0_transform_7 i) (hinb0_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def gather_S1024x64_S16x64x8x8x1_S16x64x8x8x64_4_0_n_n_0_4_164 : GatherDims S1024x64 S16x64x8x8x1 S16x64x8x8x64 where
  offsetDims := [4]
  collapsedSliceDims := [0]
  operandBatchingDims := []
  startIndicesBatchingDims := []
  startIndexMap := [0]
  indexVectorDim := 4
  sliceSizes := ![1, 64]
  wf := gather_S1024x64_S16x64x8x8x1_S16x64x8x8x64_4_0_n_n_0_4_164_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x64x8x512 : Shape := ⟨4, ![16, 64, 8, 512]⟩
abbrev S16x64x8x8 : Shape := ⟨4, ![16, 64, 8, 8]⟩
abbrev S512x512 : Shape := ⟨2, ![512, 512]⟩
abbrev S512 : Shape := ⟨1, ![512]⟩
abbrev S1024x64 : Shape := ⟨2, ![1024, 64]⟩
abbrev S1x1x1x512 : Shape := ⟨4, ![1, 1, 1, 512]⟩
abbrev S16x64x8x8x64 : Shape := ⟨5, ![16, 64, 8, 8, 64]⟩
abbrev S_ : Shape := ⟨0, ![]⟩
abbrev S16x64x8x8x1 : Shape := ⟨5, ![16, 64, 8, 8, 1]⟩
abbrev S1024 : Shape := ⟨1, ![1024]⟩
abbrev S1x1x1x1x1024 : Shape := ⟨5, ![1, 1, 1, 1, 1024]⟩
abbrev S16x64x8x8x1024 : Shape := ⟨5, ![16, 64, 8, 8, 1024]⟩
abbrev S16x64x8x8x1x1 : Shape := ⟨6, ![16, 64, 8, 8, 1, 1]⟩
abbrev S1 : Shape := ⟨1, ![1]⟩
abbrev S1x1x1x1x1x1 : Shape := ⟨6, ![1, 1, 1, 1, 1, 1]⟩
abbrev S16x64x8 : Shape := ⟨3, ![16, 64, 8]⟩
abbrev S8192x512 : Shape := ⟨2, ![8192, 512]⟩

abbrev nBuf : Space → Nat
  | .hbm => 93
  | .vmem => 0
  | .smem => 0
  | _ => 0

abbrev bufTy : (tb : Table) → Fin (tcTables nBuf tb) → BufTy
  | .hbm, ⟨0, _⟩ => ⟨S16x64x8x512, .f32⟩
  | .hbm, ⟨1, _⟩ => ⟨S16x64x8x8, .i32⟩
  | .hbm, ⟨2, _⟩ => ⟨S512x512, .f32⟩
  | .hbm, ⟨3, _⟩ => ⟨S512, .f32⟩
  | .hbm, ⟨4, _⟩ => ⟨S1024x64, .f32⟩
  | .hbm, ⟨5, _⟩ => ⟨S16x64x8x512, .f32⟩
  | .hbm, ⟨6, _⟩ => ⟨S1x1x1x512, .f32⟩
  | .hbm, ⟨7, _⟩ => ⟨S16x64x8x512, .f32⟩
  | .hbm, ⟨8, _⟩ => ⟨S16x64x8x512, .f32⟩
  | .hbm, ⟨9, _⟩ => ⟨S16x64x8x512, .f32⟩
  | .hbm, ⟨10, _⟩ => ⟨S16x64x8x8x64, .f32⟩
  | .hbm, ⟨11, _⟩ => ⟨S16x64x8x8x64, .f32⟩
  | .hbm, ⟨12, _⟩ => ⟨S_, .f32⟩
  | .hbm, ⟨13, _⟩ => ⟨S16x64x8x8, .f32⟩
  | .hbm, ⟨14, _⟩ => ⟨S16x64x8x8x1, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1x1x1x1x1024, .f32⟩
  | .hbm, ⟨19, _⟩ => ⟨S16x64x8x8x1024, .f32⟩
  | .hbm, ⟨20, _⟩ => ⟨S16x64x8x8x1024, .f32⟩
  | .hbm, ⟨21, _⟩ => ⟨S16x64x8x8x1024, .f32⟩
  | .hbm, ⟨22, _⟩ => ⟨S16x64x8x8x1024, .f32⟩
  | .hbm, ⟨23, _⟩ => ⟨S_, .f32⟩
  | .hbm, ⟨24, _⟩ => ⟨S16x64x8x8x1024, .f32⟩
  | .hbm, ⟨25, _⟩ => ⟨S16x64x8x8x1024, .f32⟩
  | .hbm, ⟨26, _⟩ => ⟨S16x64x8x8x1024, .f32⟩
  | .hbm, ⟨27, _⟩ => ⟨S_, .f32⟩
  | .hbm, ⟨28, _⟩ => ⟨S16x64x8x8x1024, .f32⟩
  | .hbm, ⟨29, _⟩ => ⟨S16x64x8x8x1024, .f32⟩
  | .hbm, ⟨30, _⟩ => ⟨S16x64x8x8x1024, .f32⟩
  | .hbm, ⟨31, _⟩ => ⟨S16x64x8x8x1024, .f32⟩
  | .hbm, ⟨32, _⟩ => ⟨S_, .f32⟩
  | .hbm, ⟨33, _⟩ => ⟨S16x64x8x8, .f32⟩
  | .hbm, ⟨34, _⟩ => ⟨S_, .f32⟩
  | .hbm, ⟨35, _⟩ => ⟨S16x64x8x8, .f32⟩
  | .hbm, ⟨36, _⟩ => ⟨S16x64x8x8, .f32⟩
  | .hbm, ⟨37, _⟩ => ⟨S16x64x8x8x1, .f32⟩
  | .hbm, ⟨38, _⟩ => ⟨S16x64x8x8x1024, .f32⟩
  | .hbm, ⟨39, _⟩ => ⟨S16x64x8x8x1024, .f32⟩
  | .hbm, ⟨40, _⟩ => ⟨S16x64x8x8x1024, .f32⟩
  | .hbm, ⟨41, _⟩ => ⟨S_, .f32⟩
  | .hbm, ⟨42, _⟩ => ⟨S16x64x8x8, .f32⟩
  | .hbm, ⟨43, _⟩ => ⟨S16x64x8x8x1, .f32⟩
  | .hbm, ⟨44, _⟩ => ⟨S16x64x8x8x1, .f32⟩
  | .hbm, ⟨45, _⟩ => ⟨S16x64x8x8x1024, .f32⟩
  | .hbm, ⟨46, _⟩ => ⟨S16x64x8x8x1024, .f32⟩
  | .hbm, ⟨47, _⟩ => ⟨S16x64x8x8x1, .i32⟩
  | .hbm, ⟨48, _⟩ => ⟨S_, .i32⟩
  | .hbm, ⟨49, _⟩ => ⟨S16x64x8x8x1, .i32⟩
  | .hbm, ⟨50, _⟩ => ⟨S16x64x8x8x1, .i1⟩
  | .hbm, ⟨51, _⟩ => ⟨S_, .i32⟩
  | .hbm, ⟨52, _⟩ => ⟨S16x64x8x8x1, .i32⟩
  | .hbm, ⟨53, _⟩ => ⟨S16x64x8x8x1, .i32⟩
  | .hbm, ⟨54, _⟩ => ⟨S16x64x8x8x1, .i32⟩
  | .hbm, ⟨55, _⟩ => ⟨S16x64x8x8x1x1, .i32⟩
  | .hbm, ⟨56, _⟩ => ⟨S1, .i32⟩
  | .hbm, ⟨57, _⟩ => ⟨S_, .i32⟩
  | .hbm, ⟨58, _⟩ => ⟨S16x64x8x8x1x1, .i32⟩
  | .hbm, ⟨59, _⟩ => ⟨S16x64x8x8x1x1, .i1⟩
  | .hbm, ⟨60, _⟩ => ⟨S1x1x1x1x1x1, .i32⟩
  | .hbm, ⟨61, _⟩ => ⟨S16x64x8x8x1x1, .i32⟩
  | .hbm, ⟨62, _⟩ => ⟨S16x64x8x8x1x1, .i1⟩
  | .hbm, ⟨63, _⟩ => ⟨S16x64x8x8x1x1, .i1⟩
  | .hbm, ⟨64, _⟩ => ⟨S_, .i1⟩
  | .hbm, ⟨65, _⟩ => ⟨S16x64x8x8x1, .i1⟩
  | .hbm, ⟨66, _⟩ => ⟨S16x64x8x8x1, .f32⟩
  | .hbm, ⟨67, _⟩ => ⟨S_, .f32⟩
  | .hbm, ⟨68, _⟩ => ⟨S16x64x8x8x1, .f32⟩
  | .hbm, ⟨69, _⟩ => ⟨S16x64x8x8x1, .f32⟩
  | .hbm, ⟨70, _⟩ => ⟨S16x64x8x8, .f32⟩
  | .hbm, ⟨71, _⟩ => ⟨S_, .f32⟩
  | .hbm, ⟨72, _⟩ => ⟨S16x64x8, .f32⟩
  | .hbm, ⟨73, _⟩ => ⟨S16x64x8x8x1024, .f32⟩
  | .hbm, ⟨74, _⟩ => ⟨S16x64x8x8x1024, .f32⟩
  | .hbm, ⟨75, _⟩ => ⟨S_, .f32⟩
  | .hbm, ⟨76, _⟩ => ⟨S16x64x8x8, .f32⟩
  | .hbm, ⟨77, _⟩ => ⟨S16x64x8x8, .f32⟩
  | .hbm, ⟨78, _⟩ => ⟨S_, .f32⟩
  | .hbm, ⟨79, _⟩ => ⟨S16x64x8, .f32⟩
  | .hbm, ⟨80, _⟩ => ⟨S_, .i32⟩
  | .hbm, ⟨81, _⟩ => ⟨S16x64x8x8, .i32⟩
  | .hbm, ⟨82, _⟩ => ⟨S16x64x8x8, .i1⟩
  | .hbm, ⟨83, _⟩ => ⟨S_, .i32⟩
  | .hbm, ⟨84, _⟩ => ⟨S16x64x8x8, .i32⟩
  | .hbm, ⟨85, _⟩ => ⟨S16x64x8x8, .i32⟩
  | .hbm, ⟨86, _⟩ => ⟨S16x64x8x8, .i32⟩
  | .hbm, ⟨87, _⟩ => ⟨S16x64x8x8x1, .i32⟩
  | .hbm, ⟨88, _⟩ => ⟨S16x64x8x8x64, .f32⟩
  | .hbm, ⟨89, _⟩ => ⟨S16x64x8x8x64, .f32⟩
  | .hbm, ⟨90, _⟩ => ⟨S16x64x8x8x64, .f32⟩
  | .hbm, ⟨91, _⟩ => ⟨S16x64x8x8x64, .f32⟩
  | .hbm, ⟨92, _⟩ => ⟨S8192x512, .f32⟩
  | _, _ => ⟨S16x64x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_call0_cst_0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_cst_1 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_v23 : Ref sig .tc := ⟨.hbm, 46, rfl⟩
abbrev main_v24 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_cst : Ref sig .tc := ⟨.hbm, 67, rfl⟩
abbrev main_call1_v14 : Ref sig .tc := ⟨.hbm, 68, rfl⟩
abbrev main_v25 : Ref sig .tc := ⟨.hbm, 69, rfl⟩
abbrev main_v26 : Ref sig .tc := ⟨.hbm, 70, rfl⟩
abbrev main_cst_3 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_4 : Ref sig .tc := ⟨.hbm, 75, rfl⟩
abbrev main_v30 : Ref sig .tc := ⟨.hbm, 76, rfl⟩
abbrev main_v31 : Ref sig .tc := ⟨.hbm, 77, rfl⟩
abbrev main_cst_5 : Ref sig .tc := ⟨.hbm, 78, rfl⟩
abbrev main_v32 : Ref sig .tc := ⟨.hbm, 79, rfl⟩
abbrev main_c : Ref sig .tc := ⟨.hbm, 80, rfl⟩
abbrev main_v33 : Ref sig .tc := ⟨.hbm, 81, rfl⟩
abbrev main_v34 : Ref sig .tc := ⟨.hbm, 82, rfl⟩
abbrev main_c_6 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S16x64x8x512_0_1_2_3 : S1x1x1x512.BroadcastsInDim S16x64x8x512 (![0, 1, 2, 3] : Fin 4 → Fin S16x64x8x512.rank)
  shapeCasts_S16x64x8x512_S16x64x8x8x64 : S16x64x8x512.ShapeCasts S16x64x8x8x64
  reducesTo_S16x64x8x8x64_S16x64x8x8_d4 : S16x64x8x8x64.ReducesTo [4] S16x64x8x8
  h_S_ : 0 < S_.numel
  bcast_S16x64x8x8_S16x64x8x8x1_0_1_2_3 : S16x64x8x8.BroadcastsInDim S16x64x8x8x1 (![0, 1, 2, 3] : Fin 4 → Fin S16x64x8x8x1.rank)
  reducesTo_S1024x64_S1024_d1 : S1024x64.ReducesTo [1] S1024
  bcast_S1024_S1x1x1x1x1024_4 : S1024.BroadcastsInDim S1x1x1x1x1024 (![4] : Fin 1 → Fin S1x1x1x1x1024.rank)
  bcast_S16x64x8x8x1_S16x64x8x8x1024_0_1_2_3_4 : S16x64x8x8x1.BroadcastsInDim S16x64x8x8x1024 (![0, 1, 2, 3, 4] : Fin 5 → Fin S16x64x8x8x1024.rank)
  bcast_S1x1x1x1x1024_S16x64x8x8x1024_0_1_2_3_4 : S1x1x1x1x1024.BroadcastsInDim S16x64x8x8x1024 (![0, 1, 2, 3, 4] : Fin 5 → Fin S16x64x8x8x1024.rank)
  bcast_S_S16x64x8x8x1024 : S_.BroadcastsInDim S16x64x8x8x1024 (![] : Fin 0 → Fin S16x64x8x8x1024.rank)
  reducesTo_S16x64x8x8x1024_S16x64x8x8_d4 : S16x64x8x8x1024.ReducesTo [4] S16x64x8x8
  bcast_S_S16x64x8x8 : S_.BroadcastsInDim S16x64x8x8 (![] : Fin 0 → Fin S16x64x8x8.rank)
  bcast_S_S16x64x8x8x1 : S_.BroadcastsInDim S16x64x8x8x1 (![] : Fin 0 → Fin S16x64x8x8x1.rank)
  shapeCasts_S16x64x8x8x1_S16x64x8x8x1x1 : S16x64x8x8x1.ShapeCasts S16x64x8x8x1x1
  bcast_S_S16x64x8x8x1x1 : S_.BroadcastsInDim S16x64x8x8x1x1 (![] : Fin 0 → Fin S16x64x8x8x1x1.rank)
  bcast_S1_S1x1x1x1x1x1_5 : S1.BroadcastsInDim S1x1x1x1x1x1 (![5] : Fin 1 → Fin S1x1x1x1x1x1.rank)
  bcast_S1x1x1x1x1x1_S16x64x8x8x1x1_0_1_2_3_4_5 : S1x1x1x1x1x1.BroadcastsInDim S16x64x8x8x1x1 (![0, 1, 2, 3, 4, 5] : Fin 6 → Fin S16x64x8x8x1x1.rank)
  reducesTo_S16x64x8x8x1x1_S16x64x8x8x1_d5 : S16x64x8x8x1x1.ReducesTo [5] S16x64x8x8x1
  shapeCasts_S16x64x8x8x1_S16x64x8x8 : S16x64x8x8x1.ShapeCasts S16x64x8x8
  reducesTo_S16x64x8x8_S16x64x8_d3 : S16x64x8x8.ReducesTo [3] S16x64x8
  shapeCasts_S16x64x8x8x64_S8192x512 : S16x64x8x8x64.ShapeCasts S8192x512
  dot_S16x64x8x512_S512x512_S16x64x8x512_3_1_012_0_n_n_wf : DotDims.WF S16x64x8x512 S512x512 S16x64x8x512 [3] [1] [0, 1, 2] [0] [] []
  dot_S16x64x8x8x64_S1024x64_S16x64x8x8x1024_4_1_0123_0_n_n_wf : DotDims.WF S16x64x8x8x64 S1024x64 S16x64x8x8x1024 [4] [1] [0, 1, 2, 3] [0] [] []
  gather_S16x64x8x8x1024_S16x64x8x8x1x1_S16x64x8x8x1_n_4_0123_0123_4_5_11111_wf : GatherDims.WF S16x64x8x8x1024 S16x64x8x8x1x1 S16x64x8x8x1 [] [4] [0, 1, 2, 3] [4] [0, 1, 2, 3] 5 ![1, 1, 1, 1, 1]
  gather_S1024x64_S16x64x8x8x1_S16x64x8x8x64_4_0_n_n_0_4_164_wf : GatherDims.WF S1024x64 S16x64x8x8x1 S16x64x8x8x64 [4] [0] [] [0] [] 4 ![1, 64]
  dot_S16x64x8x8x1024_S1024x64_S16x64x8x8x64_4_0_0123_1_n_n_wf : DotDims.WF S16x64x8x8x1024 S1024x64 S16x64x8x8x64 [4] [0] [0, 1, 2, 3] [1] [] []

variable [Facts₀]

def dot_S16x64x8x512_S512x512_S16x64x8x512_3_1_012_0_n_n : DotDims S16x64x8x512 S512x512 S16x64x8x512 where
  lhsContracting := [3]
  rhsContracting := [1]
  lhsNonContracting := [0, 1, 2]
  rhsNonContracting := [0]
  lhsBatch := []
  rhsBatch := []
  wf := dot_S16x64x8x512_S512x512_S16x64x8x512_3_1_012_0_n_n_wf
def dot_S16x64x8x8x64_S1024x64_S16x64x8x8x1024_4_1_0123_0_n_n : DotDims S16x64x8x8x64 S1024x64 S16x64x8x8x1024 where
  lhsContracting := [4]
  rhsContracting := [1]
  lhsNonContracting := [0, 1, 2, 3]
  rhsNonContracting := [0]
  lhsBatch := []
  rhsBatch := []
  wf := dot_S16x64x8x8x64_S1024x64_S16x64x8x8x1024_4_1_0123_0_n_n_wf
def gather_S16x64x8x8x1024_S16x64x8x8x1x1_S16x64x8x8x1_n_4_0123_0123_4_5_11111 : GatherDims S16x64x8x8x1024 S16x64x8x8x1x1 S16x64x8x8x1 where
  offsetDims := []
  collapsedSliceDims := [4]
  operandBatchingDims := [0, 1, 2, 3]
  startIndicesBatchingDims := [0, 1, 2, 3]
  startIndexMap := [4]
  indexVectorDim := 5
  sliceSizes := ![1, 1, 1, 1, 1]
  wf := gather_S16x64x8x8x1024_S16x64x8x8x1x1_S16x64x8x8x1_n_4_0123_0123_4_5_11111_wf
def gather_S1024x64_S16x64x8x8x1_S16x64x8x8x64_4_0_n_n_0_4_164 : GatherDims S1024x64 S16x64x8x8x1 S16x64x8x8x64 where
  offsetDims := [4]
  collapsedSliceDims := [0]
  operandBatchingDims := []
  startIndicesBatchingDims := []
  startIndexMap := [0]
  indexVectorDim := 4
  sliceSizes := ![1, 64]
  wf := gather_S1024x64_S16x64x8x8x1_S16x64x8x8x64_4_0_n_n_0_4_164_wf
def dot_S16x64x8x8x1024_S1024x64_S16x64x8x8x64_4_0_0123_1_n_n : DotDims S16x64x8x8x1024 S1024x64 S16x64x8x8x64 where
  lhsContracting := [4]
  rhsContracting := [0]
  lhsNonContracting := [0, 1, 2, 3]
  rhsNonContracting := [1]
  lhsBatch := []
  rhsBatch := []
  wf := dot_S16x64x8x8x1024_S1024x64_S16x64x8x8x64_4_0_0123_1_n_n_wf

class Facts : Prop extends Facts₀ where

variable [Facts]
-- ==== Proof.Spec.lean ====
/-
  The mathematics both programs compute, one row at a time, on the extended reals.

  A row of 512 inputs is projected to 512 features (a dot product with a row of the weight matrix, plus a bias, through
  tanh); the features are read as 8 slots of 64; each slot's vector is compared with the 1024 codewords: the logit of
  codeword v is minus the Euclidean distance, written as the root of (|l|² + |c_v|²) − 2·⟨l, c_v⟩ clipped below at 0; the
  logits are normalised by a log-softmax (shifted by their maximum); the row's first result adds, over the 8 slots, the
  log-probability of the slot's given codeword, the second adds the slots' entropies.
-/
import Idealize.ShloMosaic.PureOps.Ideal
import Idealize.ShloMosaic.PureOps.Ideal.Laws

noncomputable section

open scoped BigOperators

namespace Cert.VQ

open Idealize.ShloMosaic

/-- The factor 2 in front of the cross term, as the word both programs carry. -/
abbrev two : EReal := Ideal.ofBits .f32 0x40000000#32

/-- Feature `64·k + d`: entry `d` of slot `k`. -/
abbrev col (k : Fin 8) (d : Fin 64) : Fin 512 := ⟨k.val * 64 + d.val, by have := k.isLt; have := d.isLt; omega⟩

/-- One feature of a row: tanh of the row's dot product with the feature's weights, plus the feature's bias. -/
def feat (xr : Fin 512 → EReal) (W : Fin 512 → Fin 512 → EReal) (bb : Fin 512 → EReal) (o : Fin 512) : EReal :=
  Ideal.tanh ((∑ h : Fin 512, xr h * W o h) + bb o)

/-- Slot `k` of a row's features. -/
def slot (xr : Fin 512 → EReal) (W : Fin 512 → Fin 512 → EReal) (bb : Fin 512 → EReal) (k : Fin 8) : Fin 64 → EReal :=
  fun d => feat xr W bb (col k d)

/-- A codeword's squared norm. -/
def sqn (c : Fin 1024 → Fin 64 → EReal) (v : Fin 1024) : EReal := ∑ d : Fin 64, c v d * c v d

/-- The logit of codeword `v` for the slot vector `l`: minus the root of the clipped squared distance, `c2` the
    codewords' squared norms. -/
def logit (l : Fin 64 → EReal) (c : Fin 1024 → Fin 64 → EReal) (c2 : Fin 1024 → EReal) (v : Fin 1024) : EReal :=
  -(Ideal.sqrt (max (((∑ d : Fin 64, l d * l d) + c2 v) - two * (∑ d : Fin 64, l d * c v d)) 0))

/-- The largest of 1024 logits (the fold of max from −∞). -/
def top (g : Fin 1024 → EReal) : EReal := (Finset.univ : Finset (Fin 1024)).fold max ⊥ g

/-- Log-softmax of 1024 logits, shifted by their maximum. -/
def logp (g : Fin 1024 → EReal) (v : Fin 1024) : EReal :=
  (g v - top g) - Ideal.log (∑ u : Fin 1024, Ideal.exp (g u - top g))

/-- The entropy term of a slot: minus the sum of p·log p. -/
def ent (g : Fin 1024 → EReal) : EReal := -(∑ v : Fin 1024, Ideal.exp (logp g v) * logp g v)

/-- The entry of `lp` whose number is the word `i`, as the sum that keeps the one matching lane. -/
def pick (lp : Fin 1024 → EReal) (i : BitVec 32) : EReal :=
  ∑ v : Fin 1024, if BitVec.ofNat 32 v.val = i then lp v else 0

/-- A row's log-probability term for slot `k`. -/
def lpTerm (xr : Fin 512 → EReal) (W : Fin 512 → Fin 512 → EReal) (bb : Fin 512 → EReal)
    (c : Fin 1024 → Fin 64 → EReal) (c2 : Fin 1024 → EReal) (cm : Fin 8 → BitVec 32) (k : Fin 8) : EReal :=
  pick (logp (logit (slot xr W bb k) c c2)) (cm k)

/-- A row's entropy term for slot `k`. -/
def entTerm (xr : Fin 512 → EReal) (W : Fin 512 → Fin 512 → EReal) (bb : Fin 512 → EReal)
    (c : Fin 1024 → Fin 64 → EReal) (c2 : Fin 1024 → EReal) (k : Fin 8) : EReal :=
  ent (logit (slot xr W bb k) c c2)

/-- Eight terms added one after the other onto zero, left to right. -/
def acc8 (f : Fin 8 → EReal) : EReal := (((((((0 + f 0) + f 1) + f 2) + f 3) + f 4) + f 5) + f 6) + f 7

/-- Added left to right onto zero, eight terms are their sum. -/
theorem acc8_eq_sum (f : Fin 8 → EReal) : acc8 f = ∑ k : Fin 8, f k := by
  unfold acc8
  rw [Fin.sum_univ_eight, zero_add]

/-- A word below 1024 picks exactly its own lane: every other lane contributes zero. -/
theorem pick_of_lt (lp : Fin 1024 → EReal) (i : BitVec 32) (h : i.toNat < 1024) : pick lp i = lp ⟨i.toNat, h⟩ := by
  unfold pick
  rw [Finset.sum_eq_single (⟨i.toNat, h⟩ : Fin 1024)]
  · rw [if_pos]
    exact BitVec.eq_of_toNat_eq (by rw [BitVec.toNat_ofNat]; show i.toNat % 2 ^ 32 = i.toNat; omega)
  · intro v _ hv
    rw [if_neg]
    intro e
    apply hv
    apply Fin.ext
    have hv' : v.val < 1024 := v.isLt
    have h2 : (BitVec.ofNat 32 v.val).toNat = i.toNat := congrArg BitVec.toNat e
    rw [BitVec.toNat_ofNat] at h2
    show v.val = i.toNat
    omega
  · intro hn; exact absurd (Finset.mem_univ _) hn

end Cert.VQ

end
-- ==== Proof.RefStages.lean ====
/-
  The reference program's 88 host operations, folded over any buffer contents, leave in each of the three result
  buffers the value of that buffer's stage function at the five argument buffers' contents: proved a stretch of
  operations at a time (each operation writes one buffer once, and a later stretch reads what an earlier one left).
-/
import proofs.«421140_j13005160973101_2_alg».proof.Proof.RefRead
import Idealize.ShloMosaic.Lib.Pipeline.Frame

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents of TensorCore buffer `b` in the valuation `W`. -/
local notation:max W "⟦" b "⟧" => W (Proc.devRef Proc.tc b)

/-- The contents of buffer `b` in `W`, read at the tensor type `ty` through the typed reference to `b`. -/
local notation:max W "⟪" b "; " ty "⟫" => TRef.ofBuf (TRef.of (T := ty) b) (W (Proc.devRef Proc.tc b))

/-- Contents moved to a typed reference's buffer type and back are unchanged. -/
theorem ofBuf_toBuf {T : BufTy} (r : Ref sig .tc) (h : r.ty = T) (h2 : r.space ≠ .host) (h3 : r.isScoped = false)
    (v : T.Contents (Elt F)) :
    (TRef.mk r h h2 h3).ofBuf ((TRef.mk r h h2 h3).toBuf v) = v := by
  subst h; rfl

/-! ## The operation list, cut into thirteen stretches

A cut falls wherever a buffer written through a typed reference is next read as the bare buffer, or the other way
round, so that inside a stretch every transport to a buffer's own type meets the transport back. -/

/-- Operations 1 to 10: the linear layer, `tanh`, the split of the last axis into eight groups of 64, and each group's squared norm. -/
abbrev sA : List (HloOp τ sig (Elt F)) :=
  [ binary main_arg0 main_arg2 main_v0 ((fun l r => Host.dotGeneral dot_S16x64x8x512_S512x512_S16x64x8x512_3_1_012_0_n_n none l r) : (⟨S16x64x8x512, .f32⟩ : BufTy).Contents (Elt F) → (⟨S512x512, .f32⟩ : BufTy).Contents (Elt F) → (⟨S16x64x8x512, .f32⟩ : BufTy).Contents (Elt F)),
    unary main_arg3 main_v1 (broadcastInDim S1x1x1x512 ![3] bcast_S512_S1x1x1x512_3 : (⟨S512, .f32⟩ : BufTy).Contents (Elt F) → (⟨S1x1x1x512, .f32⟩ : BufTy).Contents (Elt F)),
    unary main_v1 main_v2 (broadcastInDim S16x64x8x512 ![0, 1, 2, 3] bcast_S1x1x1x512_S16x64x8x512_0_1_2_3 : (⟨S1x1x1x512, .f32⟩ : BufTy).Contents (Elt F) → (⟨S16x64x8x512, .f32⟩ : BufTy).Contents (Elt F)),
    binary main_v0 main_v2 main_v3 (addf : (⟨S16x64x8x512, .f32⟩ : BufTy).Contents (Elt F) → (⟨S16x64x8x512, .f32⟩ : BufTy).Contents (Elt F) → (⟨S16x64x8x512, .f32⟩ : BufTy).Contents (Elt F)),
    unary main_v3 main_v4 (Host.tanh : (⟨S16x64x8x512, .f32⟩ : BufTy).Contents (Elt F) → (⟨S16x64x8x512, .f32⟩ : BufTy).Contents (Elt F)),
    reshape main_v4 main_v5 rfl shapeCasts_S16x64x8x512_S16x64x8x8x64,
    binary main_v5 main_v5 main_v6 (mulf : (⟨S16x64x8x8x64, .f32⟩ : BufTy).Contents (Elt F) → (⟨S16x64x8x8x64, .f32⟩ : BufTy).Contents (Elt F) → (⟨S16x64x8x8x64, .f32⟩ : BufTy).Contents (Elt F)),
    nullary main_cst (constant S_ .f32 0x00000000#32),
    binary main_v6 main_cst main_v7 ((fun x v => Host.reduceAdd x v reducesTo_S16x64x8x8x64_S16x64x8x8_d4 h_S_) : (⟨S16x64x8x8x64, .f32⟩ : BufTy).Contents (Elt F) → (⟨S_, .f32⟩ : BufTy).Contents (Elt F) → (⟨S16x64x8x8, .f32⟩ : BufTy).Contents (Elt F)),
    unary main_v7 main_v8 (broadcastInDim S16x64x8x8x1 ![0, 1, 2, 3] bcast_S16x64x8x8_S16x64x8x8x1_0_1_2_3 : (⟨S16x64x8x8, .f32⟩ : BufTy).Contents (Elt F) → (⟨S16x64x8x8x1, .f32⟩ : BufTy).Contents (Elt F)) ]

/-- Operations 11 to 18: the codebook rows' squared norms, the two norms broadcast and added, and the latent-by-codebook products. -/
abbrev sB : List (HloOp τ sig (Elt F)) :=
  [ binary main_arg4 main_arg4 main_v9 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v9 main_cst_0 main_v10 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v10 main_v11 (broadcastInDim S1x1x1x1x1024 ![4] bcast_S1024_S1x1x1x1x1024_4 : (⟨S1024, .f32⟩ : BufTy).Contents (Elt F) → (⟨S1x1x1x1x1024, .f32⟩ : BufTy).Contents (Elt F)),
    unary main_v8 main_v12 (broadcastInDim S16x64x8x8x1024 ![0, 1, 2, 3, 4] bcast_S16x64x8x8x1_S16x64x8x8x1024_0_1_2_3_4 : (⟨S16x64x8x8x1, .f32⟩ : BufTy).Contents (Elt F) → (⟨S16x64x8x8x1024, .f32⟩ : BufTy).Contents (Elt F)),
    unary main_v11 main_v13 (broadcastInDim S16x64x8x8x1024 ![0, 1, 2, 3, 4] bcast_S1x1x1x1x1024_S16x64x8x8x1024_0_1_2_3_4 : (⟨S1x1x1x1x1024, .f32⟩ : BufTy).Contents (Elt F) → (⟨S16x64x8x8x1024, .f32⟩ : BufTy).Contents (Elt F)),
    binary main_v12 main_v13 main_v14 (addf : (⟨S16x64x8x8x1024, .f32⟩ : BufTy).Contents (Elt F) → (⟨S16x64x8x8x1024, .f32⟩ : BufTy).Contents (Elt F) → (⟨S16x64x8x8x1024, .f32⟩ : BufTy).Contents (Elt F)),
    binary main_v5 main_arg4 main_v15 ((fun l r => Host.dotGeneral dot_S16x64x8x8x64_S1024x64_S16x64x8x8x1024_4_1_0123_0_n_n none l r) : (⟨S16x64x8x8x64, .f32⟩ : BufTy).Contents (Elt F) → (⟨S1024x64, .f32⟩ : BufTy).Contents (Elt F) → (⟨S16x64x8x8x1024, .f32⟩ : BufTy).Contents (Elt F)) ]

/-- Operations 19 to 27: the squared distance clamped at zero, its square root, negated: the logits. -/
abbrev sC : List (HloOp τ sig (Elt F)) :=
  [ nullary main_cst_1 (constant S_ .f32 0x40000000#32),
    unary main_cst_1 main_v16 (broadcastInDim S16x64x8x8x1024 ![] bcast_S_S16x64x8x8x1024 : (⟨S_, .f32⟩ : BufTy).Contents (Elt F) → (⟨S16x64x8x8x1024, .f32⟩ : BufTy).Contents (Elt F)),
    binary main_v16 main_v15 main_v17 (mulf : (⟨S16x64x8x8x1024, .f32⟩ : BufTy).Contents (Elt F) → (⟨S16x64x8x8x1024, .f32⟩ : BufTy).Contents (Elt F) → (⟨S16x64x8x8x1024, .f32⟩ : BufTy).Contents (Elt F)),
    binary main_v14 main_v17 main_v18 (subf : (⟨S16x64x8x8x1024, .f32⟩ : BufTy).Contents (Elt F) → (⟨S16x64x8x8x1024, .f32⟩ : BufTy).Contents (Elt F) → (⟨S16x64x8x8x1024, .f32⟩ : BufTy).Contents (Elt F)),
    nullary main_cst_2 (constant S_ .f32 0x00000000#32),
    unary main_cst_2 main_v19 (broadcastInDim S16x64x8x8x1024 ![] bcast_S_S16x64x8x8x1024 : (⟨S_, .f32⟩ : BufTy).Contents (Elt F) → (⟨S16x64x8x8x1024, .f32⟩ : BufTy).Contents (Elt F)),
    binary main_v18 main_v19 main_v20 (maximumf : (⟨S16x64x8x8x1024, .f32⟩ : BufTy).Contents (Elt F) → (⟨S16x64x8x8x1024, .f32⟩ : BufTy).Contents (Elt F) → (⟨S16x64x8x8x1024, .f32⟩ : BufTy).Contents (Elt F)),
    unary main_v20 main_v21 (Host.sqrt : (⟨S16x64x8x8x1024, .f32⟩ : BufTy).Contents (Elt F) → (⟨S16x64x8x8x1024, .f32⟩ : BufTy).Contents (Elt F)),
    unary main_v21 main_v22 (Host.negf : (⟨S16x64x8x8x1024, .f32⟩ : BufTy).Contents (Elt F) → (⟨S16x64x8x8x1024, .f32⟩ : BufTy).Contents (Elt F)) ]

/-- Operations 28 to 35: the first half of `log_softmax` — the maximum over the last axis subtracted from the logits. -/
abbrev sD : List (HloOp τ sig (Elt F)) :=
  [ TRef.nullary (TRef.of (T := ⟨S_, .f32⟩) main_call0_cst) (constant S_ .f32 0xFF800000#32),
    TRef.binary (TRef.of (T := ⟨S16x64x8x8x1024, .f32⟩) main_v22) (TRef.of (T := ⟨S_, .f32⟩) main_call0_cst) (TRef.of (T := ⟨S16x64x8x8, .f32⟩) main_call0_v0) (fun x v => Host.reduce FloatOps.maximumf x v reducesTo_S16x64x8x8x1024_S16x64x8x8_d4 h_S_),
    TRef.nullary (TRef.of (T := ⟨S_, .f32⟩) main_call0_cst_0) (constant S_ .f32 0xFF800000#32),
    TRef.unary (TRef.of (T := ⟨S_, .f32⟩) main_call0_cst_0) (TRef.of (T := ⟨S16x64x8x8, .f32⟩) main_call0_v1) (broadcastInDim S16x64x8x8 ![] bcast_S_S16x64x8x8),
    TRef.binary (TRef.of (T := ⟨S16x64x8x8, .f32⟩) main_call0_v1) (TRef.of (T := ⟨S16x64x8x8, .f32⟩) main_call0_v0) (TRef.of (T := ⟨S16x64x8x8, .f32⟩) main_call0_v2) maximumf,
    TRef.unary (TRef.of (T := ⟨S16x64x8x8, .f32⟩) main_call0_v2) (TRef.of (T := ⟨S16x64x8x8x1, .f32⟩) main_call0_v3) (broadcastInDim S16x64x8x8x1 ![0, 1, 2, 3] bcast_S16x64x8x8_S16x64x8x8x1_0_1_2_3),
    TRef.unary (TRef.of (T := ⟨S16x64x8x8x1, .f32⟩) main_call0_v3) (TRef.of (T := ⟨S16x64x8x8x1024, .f32⟩) main_call0_v4) (broadcastInDim S16x64x8x8x1024 ![0, 1, 2, 3, 4] bcast_S16x64x8x8x1_S16x64x8x8x1024_0_1_2_3_4),
    TRef.binary (TRef.of (T := ⟨S16x64x8x8x1024, .f32⟩) main_v22) (TRef.of (T := ⟨S16x64x8x8x1024, .f32⟩) main_call0_v4) (TRef.of (T := ⟨S16x64x8x8x1024, .f32⟩) main_call0_v5) subf ]

/-- Operations 36 to 43: the second half of `log_softmax` — minus the logarithm of the sum of exponentials — and the integer argument with a trailing unit axis. -/
abbrev sE : List (HloOp τ sig (Elt F)) :=
  [ TRef.unary (TRef.of (T := ⟨S16x64x8x8x1024, .f32⟩) main_call0_v5) (TRef.of (T := ⟨S16x64x8x8x1024, .f32⟩) main_call0_v6) Host.exp,
    TRef.nullary (TRef.of (T := ⟨S_, .f32⟩) main_call0_cst_1) (constant S_ .f32 0x00000000#32),
    TRef.binary (TRef.of (T := ⟨S16x64x8x8x1024, .f32⟩) main_call0_v6) (TRef.of (T := ⟨S_, .f32⟩) main_call0_cst_1) (TRef.of (T := ⟨S16x64x8x8, .f32⟩) main_call0_v7) (fun x v => Host.reduceAdd x v reducesTo_S16x64x8x8x1024_S16x64x8x8_d4 h_S_),
    TRef.unary (TRef.of (T := ⟨S16x64x8x8, .f32⟩) main_call0_v7) (TRef.of (T := ⟨S16x64x8x8x1, .f32⟩) main_call0_v8) (broadcastInDim S16x64x8x8x1 ![0, 1, 2, 3] bcast_S16x64x8x8_S16x64x8x8x1_0_1_2_3),
    TRef.unary (TRef.of (T := ⟨S16x64x8x8x1, .f32⟩) main_call0_v8) (TRef.of (T := ⟨S16x64x8x8x1, .f32⟩) main_call0_v9) Host.log,
    TRef.unary (TRef.of (T := ⟨S16x64x8x8x1, .f32⟩) main_call0_v9) (TRef.of (T := ⟨S16x64x8x8x1024, .f32⟩) main_call0_v10) (broadcastInDim S16x64x8x8x1024 ![0, 1, 2, 3, 4] bcast_S16x64x8x8x1_S16x64x8x8x1024_0_1_2_3_4),
    TRef.binary (TRef.of (T := ⟨S16x64x8x8x1024, .f32⟩) main_call0_v5) (TRef.of (T := ⟨S16x64x8x8x1024, .f32⟩) main_call0_v10) (TRef.of (T := ⟨S16x64x8x8x1024, .f32⟩) main_v23) subf,
    unary main_arg1 main_v24 (broadcastInDim S16x64x8x8x1 ![0, 1, 2, 3] bcast_S16x64x8x8_S16x64x8x8x1_0_1_2_3 : (⟨S16x64x8x8, .i32⟩ : BufTy).Contents (Elt F) → (⟨S16x64x8x8x1, .i32⟩ : BufTy).Contents (Elt F)) ]

/-- Operations 44 to 50: `take_along_axis`'s index, a negative one moved up by the axis length. -/
abbrev sF : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S16x64x8x8x1, .i32⟩) main_call1_v0) (broadcastInDim S16x64x8x8x1 ![] bcast_S_S16x64x8x8x1),
    TRef.binary (TRef.of (T := ⟨S16x64x8x8x1, .i32⟩) main_v24) (TRef.of (T := ⟨S16x64x8x8x1, .i32⟩) main_call1_v0) (TRef.of (T := ⟨S16x64x8x8x1, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S16x64x8x8x1, .i32⟩) main_call1_v2) (broadcastInDim S16x64x8x8x1 ![] bcast_S_S16x64x8x8x1),
    TRef.binary (TRef.of (T := ⟨S16x64x8x8x1, .i32⟩) main_v24) (TRef.of (T := ⟨S16x64x8x8x1, .i32⟩) main_call1_v2) (TRef.of (T := ⟨S16x64x8x8x1, .i32⟩) main_call1_v3) addi,
    TRef.ternary (TRef.of (T := ⟨S16x64x8x8x1, .i1⟩) main_call1_v1) (TRef.of (T := ⟨S16x64x8x8x1, .i32⟩) main_call1_v3) (TRef.of (T := ⟨S16x64x8x8x1, .i32⟩) main_v24) (TRef.of (T := ⟨S16x64x8x8x1, .i32⟩) main_call1_v4) select ]

/-- Operation 51: the index given one more trailing unit axis. -/
abbrev sG : List (HloOp τ sig (Elt F)) :=
  [ TRef.reshape (TRef.of (T := ⟨S16x64x8x8x1, .i32⟩) main_call1_v4) (TRef.of (T := ⟨S16x64x8x8x1x1, .i32⟩) main_call1_v5) rfl shapeCasts_S16x64x8x8x1_S16x64x8x8x1x1 ]

/-- Operations 52 to 61: whether the index lies in the axis's range. -/
abbrev sH : List (HloOp τ sig (Elt F)) :=
  [ TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S16x64x8x8x1x1, .i32⟩) main_call1_v6) (broadcastInDim S16x64x8x8x1x1 ![] bcast_S_S16x64x8x8x1x1),
    TRef.binary (TRef.of (T := ⟨S16x64x8x8x1x1, .i32⟩) main_call1_v5) (TRef.of (T := ⟨S16x64x8x8x1x1, .i32⟩) main_call1_v6) (TRef.of (T := ⟨S16x64x8x8x1x1, .i1⟩) main_call1_v7) (cmpi .sge),
    TRef.unary (TRef.of (T := ⟨S1, .i32⟩) main_call1_c_1) (TRef.of (T := ⟨S1x1x1x1x1x1, .i32⟩) main_call1_v8) (broadcastInDim S1x1x1x1x1x1 ![5] bcast_S1_S1x1x1x1x1x1_5),
    TRef.unary (TRef.of (T := ⟨S1x1x1x1x1x1, .i32⟩) main_call1_v8) (TRef.of (T := ⟨S16x64x8x8x1x1, .i32⟩) main_call1_v9) (broadcastInDim S16x64x8x8x1x1 ![0, 1, 2, 3, 4, 5] bcast_S1x1x1x1x1x1_S16x64x8x8x1x1_0_1_2_3_4_5),
    TRef.binary (TRef.of (T := ⟨S16x64x8x8x1x1, .i32⟩) main_call1_v5) (TRef.of (T := ⟨S16x64x8x8x1x1, .i32⟩) main_call1_v9) (TRef.of (T := ⟨S16x64x8x8x1x1, .i1⟩) main_call1_v10) (cmpi .sle),
    TRef.binary (TRef.of (T := ⟨S16x64x8x8x1x1, .i1⟩) main_call1_v7) (TRef.of (T := ⟨S16x64x8x8x1x1, .i1⟩) main_call1_v10) (TRef.of (T := ⟨S16x64x8x8x1x1, .i1⟩) main_call1_v11) andi,
    TRef.nullary (TRef.of (T := ⟨S_, .i1⟩) main_call1_c_3) (constantI S_ 1 1#1),
    TRef.binary (TRef.of (T := ⟨S16x64x8x8x1x1, .i1⟩) main_call1_v11) (TRef.of (T := ⟨S_, .i1⟩) main_call1_c_3) (TRef.of (T := ⟨S16x64x8x8x1, .i1⟩) main_call1_v12) (fun x v => Host.reduce IntOp.andi x v reducesTo_S16x64x8x8x1x1_S16x64x8x8x1_d5 h_S_) ]

/-- Operations 62 to 65: the gathered log-probability where the index is in range, the fill value elsewhere. -/
abbrev sI : List (HloOp τ sig (Elt F)) :=
  [ TRef.binary (TRef.of (T := ⟨S16x64x8x8x1024, .f32⟩) main_v23) (TRef.of (T := ⟨S16x64x8x8x1x1, .i32⟩) main_call1_v5) (TRef.of (T := ⟨S16x64x8x8x1, .f32⟩) main_call1_v13) (fun x i => Host.gather gather_S16x64x8x8x1024_S16x64x8x8x1x1_S16x64x8x8x1_n_4_0123_0123_4_5_11111 x i),
    TRef.nullary (TRef.of (T := ⟨S_, .f32⟩) main_call1_cst) (constant S_ .f32 0x7FC00000#32),
    TRef.unary (TRef.of (T := ⟨S_, .f32⟩) main_call1_cst) (TRef.of (T := ⟨S16x64x8x8x1, .f32⟩) main_call1_v14) (broadcastInDim S16x64x8x8x1 ![] bcast_S_S16x64x8x8x1),
    TRef.ternary (TRef.of (T := ⟨S16x64x8x8x1, .i1⟩) main_call1_v12) (TRef.of (T := ⟨S16x64x8x8x1, .f32⟩) main_call1_v13) (TRef.of (T := ⟨S16x64x8x8x1, .f32⟩) main_call1_v14) (TRef.of (T := ⟨S16x64x8x8x1, .f32⟩) main_v25) select ]

/-- Operations 66 to 68: the trailing unit axis dropped and the sum over the eight groups: the second result. -/
abbrev sJ : List (HloOp τ sig (Elt F)) :=
  [ reshape main_v25 main_v26 rfl shapeCasts_S16x64x8x8x1_S16x64x8x8,
    nullary main_cst_3 (constant S_ .f32 0x00000000#32),
    binary main_v26 main_cst_3 main_v27 ((fun x v => Host.reduceAdd x v reducesTo_S16x64x8x8_S16x64x8_d3 h_S_) : (⟨S16x64x8x8, .f32⟩ : BufTy).Contents (Elt F) → (⟨S_, .f32⟩ : BufTy).Contents (Elt F) → (⟨S16x64x8, .f32⟩ : BufTy).Contents (Elt F)) ]

/-- Operations 69 to 75: the probabilities, the entropy of each group and its sum over the groups: the third result. -/
abbrev sK : List (HloOp τ sig (Elt F)) :=
  [ unary main_v23 main_v28 (Host.exp : (⟨S16x64x8x8x1024, .f32⟩ : BufTy).Contents (Elt F) → (⟨S16x64x8x8x1024, .f32⟩ : BufTy).Contents (Elt F)),
    binary main_v28 main_v23 main_v29 (mulf : (⟨S16x64x8x8x1024, .f32⟩ : BufTy).Contents (Elt F) → (⟨S16x64x8x8x1024, .f32⟩ : BufTy).Contents (Elt F) → (⟨S16x64x8x8x1024, .f32⟩ : BufTy).Contents (Elt F)),
    nullary main_cst_4 (constant S_ .f32 0x00000000#32),
    binary main_v29 main_cst_4 main_v30 ((fun x v => Host.reduceAdd x v reducesTo_S16x64x8x8x1024_S16x64x8x8_d4 h_S_) : (⟨S16x64x8x8x1024, .f32⟩ : BufTy).Contents (Elt F) → (⟨S_, .f32⟩ : BufTy).Contents (Elt F) → (⟨S16x64x8x8, .f32⟩ : BufTy).Contents (Elt F)),
    unary main_v30 main_v31 (Host.negf : (⟨S16x64x8x8, .f32⟩ : BufTy).Contents (Elt F) → (⟨S16x64x8x8, .f32⟩ : BufTy).Contents (Elt F)),
    nullary main_cst_5 (constant S_ .f32 0x00000000#32),
    binary main_v31 main_cst_5 main_v32 ((fun x v => Host.reduceAdd x v reducesTo_S16x64x8x8_S16x64x8_d3 h_S_) : (⟨S16x64x8x8, .f32⟩ : BufTy).Contents (Elt F) → (⟨S_, .f32⟩ : BufTy).Contents (Elt F) → (⟨S16x64x8, .f32⟩ : BufTy).Contents (Elt F)) ]

/-- Operations 76 to 83: the codebook row index, a negative one moved up by the number of rows. -/
abbrev sL : List (HloOp τ sig (Elt F)) :=
  [ nullary main_c (constantI S_ 32 0#32),
    unary main_c main_v33 (broadcastInDim S16x64x8x8 ![] bcast_S_S16x64x8x8 : (⟨S_, .i32⟩ : BufTy).Contents (Elt F) → (⟨S16x64x8x8, .i32⟩ : BufTy).Contents (Elt F)),
    binary main_arg1 main_v33 main_v34 (cmpi .slt : (⟨S16x64x8x8, .i32⟩ : BufTy).Contents (Elt F) → (⟨S16x64x8x8, .i32⟩ : BufTy).Contents (Elt F) → (⟨S16x64x8x8, .i1⟩ : BufTy).Contents (Elt F)),
    nullary main_c_6 (constantI S_ 32 1024#32),
    unary main_c_6 main_v35 (broadcastInDim S16x64x8x8 ![] bcast_S_S16x64x8x8 : (⟨S_, .i32⟩ : BufTy).Contents (Elt F) → (⟨S16x64x8x8, .i32⟩ : BufTy).Contents (Elt F)),
    binary main_arg1 main_v35 main_v36 (addi : (⟨S16x64x8x8, .i32⟩ : BufTy).Contents (Elt F) → (⟨S16x64x8x8, .i32⟩ : BufTy).Contents (Elt F) → (⟨S16x64x8x8, .i32⟩ : BufTy).Contents (Elt F)),
    ternary main_v34 main_v36 main_arg1 main_v37 (select : (⟨S16x64x8x8, .i1⟩ : BufTy).Contents (Elt F) → (⟨S16x64x8x8, .i32⟩ : BufTy).Contents (Elt F) → (⟨S16x64x8x8, .i32⟩ : BufTy).Contents (Elt F) → (⟨S16x64x8x8, .i32⟩ : BufTy).Contents (Elt F)),
    unary main_v37 main_v38 (broadcastInDim S16x64x8x8x1 ![0, 1, 2, 3] bcast_S16x64x8x8_S16x64x8x8x1_0_1_2_3 : (⟨S16x64x8x8, .i32⟩ : BufTy).Contents (Elt F) → (⟨S16x64x8x8x1, .i32⟩ : BufTy).Contents (Elt F)) ]

/-- Operations 84 to 88: the selected codebook rows, the probability-weighted rows, their combination, and the merge of the axes: the first result. -/
abbrev sM : List (HloOp τ sig (Elt F)) :=
  [ binary main_arg4 main_v38 main_v39 ((fun x i => Host.gather gather_S1024x64_S16x64x8x8x1_S16x64x8x8x64_4_0_n_n_0_4_164 x i) : (⟨S1024x64, .f32⟩ : BufTy).Contents (Elt F) → (⟨S16x64x8x8x1, .i32⟩ : BufTy).Contents (Elt F) → (⟨S16x64x8x8x64, .f32⟩ : BufTy).Contents (Elt F)),
    binary main_v28 main_arg4 main_v40 ((fun l r => Host.dotGeneral dot_S16x64x8x8x1024_S1024x64_S16x64x8x8x64_4_0_0123_1_n_n none l r) : (⟨S16x64x8x8x1024, .f32⟩ : BufTy).Contents (Elt F) → (⟨S1024x64, .f32⟩ : BufTy).Contents (Elt F) → (⟨S16x64x8x8x64, .f32⟩ : BufTy).Contents (Elt F)),
    binary main_v39 main_v40 main_v41 (subf : (⟨S16x64x8x8x64, .f32⟩ : BufTy).Contents (Elt F) → (⟨S16x64x8x8x64, .f32⟩ : BufTy).Contents (Elt F) → (⟨S16x64x8x8x64, .f32⟩ : BufTy).Contents (Elt F)),
    binary main_v40 main_v41 main_v42 (addf : (⟨S16x64x8x8x64, .f32⟩ : BufTy).Contents (Elt F) → (⟨S16x64x8x8x64, .f32⟩ : BufTy).Contents (Elt F) → (⟨S16x64x8x8x64, .f32⟩ : BufTy).Contents (Elt F)),
    reshape main_v42 main_v43 rfl shapeCasts_S16x64x8x8x64_S8192x512 ]

/-- The stretches in order are the whole list. -/
theorem ops_eq : (ops (F := F)) = sA ++ (sB ++ (sC ++ (sD ++ (sE ++ (sF ++ (sG ++ (sH ++ (sI ++ (sJ ++ (sK ++ (sL ++ sM))))))))))) :=
  rfl

/-! ## What holds between two stretches

`InvN W`: the buffers still to be read hold their stage functions of `x0 … x4`, the five arguments' contents at the
start. Each stretch carries one to the next, from ANY valuation `W`: it writes each of its buffers once, reads only
what it wrote or what the previous statement gives, and leaves the other buffers named there alone. -/

section Invariants

variable (x0 : (⟨S16x64x8x512, .f32⟩ : BufTy).Contents (Elt F)) (x1 : (⟨S16x64x8x8, .i32⟩ : BufTy).Contents (Elt F))
  (x2 : (⟨S512x512, .f32⟩ : BufTy).Contents (Elt F)) (x3 : (⟨S512, .f32⟩ : BufTy).Contents (Elt F))
  (x4 : (⟨S1024x64, .f32⟩ : BufTy).Contents (Elt F))

/-- At the start: the argument buffers hold `x0 … x4`. -/
structure Inv0 (W : Valuation τ sig (Elt F)) : Prop where
  a0 : W⟦main_arg0⟧ = x0
  a1 : W⟦main_arg1⟧ = x1
  a2 : W⟦main_arg2⟧ = x2
  a3 : W⟦main_arg3⟧ = x3
  a4 : W⟦main_arg4⟧ = x4

/-- After operation 10. -/
structure InvA (W : Valuation τ sig (Elt F)) : Prop where
  v5 : W⟦main_v5⟧ = val_main_v5 (F := F) x0 x2 x3
  v8 : W⟦main_v8⟧ = val_main_v8 (F := F) x0 x2 x3
  a1 : W⟦main_arg1⟧ = x1
  a4 : W⟦main_arg4⟧ = x4

/-- After operation 18. -/
structure InvB (W : Valuation τ sig (Elt F)) : Prop where
  v14 : W⟦main_v14⟧ = val_main_v14 (F := F) x0 x2 x3 x4
  v15 : W⟦main_v15⟧ = val_main_v15 (F := F) x0 x2 x3 x4
  a1 : W⟦main_arg1⟧ = x1
  a4 : W⟦main_arg4⟧ = x4

/-- After operation 27. -/
structure InvC (W : Valuation τ sig (Elt F)) : Prop where
  v22 : W⟦main_v22⟧ = val_main_v22 (F := F) x0 x2 x3 x4
  a1 : W⟦main_arg1⟧ = x1
  a4 : W⟦main_arg4⟧ = x4

/-- After operation 35. -/
structure InvD (W : Valuation τ sig (Elt F)) : Prop where
  c0v5 : W⟦main_call0_v5⟧ = val_main_call0_v5 (F := F) x0 x2 x3 x4
  a1 : W⟦main_arg1⟧ = x1
  a4 : W⟦main_arg4⟧ = x4

/-- After operation 43. -/
structure InvE (W : Valuation τ sig (Elt F)) : Prop where
  v23 : W⟦main_v23⟧ = val_main_v23 (F := F) x0 x2 x3 x4
  v24 : W⟦main_v24⟧ = val_main_v24 (F := F) x1
  a1 : W⟦main_arg1⟧ = x1
  a4 : W⟦main_arg4⟧ = x4

/-- After operation 50. -/
structure InvF (W : Valuation τ sig (Elt F)) : Prop where
  v23 : W⟦main_v23⟧ = val_main_v23 (F := F) x0 x2 x3 x4
  c1v4 : W⟦main_call1_v4⟧ = val_main_call1_v4 (F := F) x1
  a1 : W⟦main_arg1⟧ = x1
  a4 : W⟦main_arg4⟧ = x4

/-- After operation 51. -/
structure InvG (W : Valuation τ sig (Elt F)) : Prop where
  v23 : W⟦main_v23⟧ = val_main_v23 (F := F) x0 x2 x3 x4
  c1v5 : W⟦main_call1_v5⟧ = val_main_call1_v5 (F := F) x1
  a1 : W⟦main_arg1⟧ = x1
  a4 : W⟦main_arg4⟧ = x4

/-- After operation 61. -/
structure InvH (W : Valuation τ sig (Elt F)) : Prop where
  v23 : W⟦main_v23⟧ = val_main_v23 (F := F) x0 x2 x3 x4
  c1v5 : W⟦main_call1_v5⟧ = val_main_call1_v5 (F := F) x1
  c1v12 : W⟦main_call1_v12⟧ = val_main_call1_v12 (F := F) x1
  a1 : W⟦main_arg1⟧ = x1
  a4 : W⟦main_arg4⟧ = x4

/-- After operation 65. -/
structure InvI (W : Valuation τ sig (Elt F)) : Prop where
  v23 : W⟦main_v23⟧ = val_main_v23 (F := F) x0 x2 x3 x4
  v25 : W⟦main_v25⟧ = val_main_v25 (F := F) x0 x1 x2 x3 x4
  a1 : W⟦main_arg1⟧ = x1
  a4 : W⟦main_arg4⟧ = x4

/-- After operation 68: the second result is in place. -/
structure InvJ (W : Valuation τ sig (Elt F)) : Prop where
  v23 : W⟦main_v23⟧ = val_main_v23 (F := F) x0 x2 x3 x4
  v27 : W⟦main_v27⟧ = val_main_v27 (F := F) x0 x1 x2 x3 x4
  a1 : W⟦main_arg1⟧ = x1
  a4 : W⟦main_arg4⟧ = x4

/-- After operation 75: the third result is in place. -/
structure InvK (W : Valuation τ sig (Elt F)) : Prop where
  v27 : W⟦main_v27⟧ = val_main_v27 (F := F) x0 x1 x2 x3 x4
  v32 : W⟦main_v32⟧ = val_main_v32 (F := F) x0 x2 x3 x4
  v28 : W⟦main_v28⟧ = val_main_v28 (F := F) x0 x2 x3 x4
  a1 : W⟦main_arg1⟧ = x1
  a4 : W⟦main_arg4⟧ = x4

/-- After operation 83. -/
structure InvL (W : Valuation τ sig (Elt F)) : Prop where
  v27 : W⟦main_v27⟧ = val_main_v27 (F := F) x0 x1 x2 x3 x4
  v32 : W⟦main_v32⟧ = val_main_v32 (F := F) x0 x2 x3 x4
  v28 : W⟦main_v28⟧ = val_main_v28 (F := F) x0 x2 x3 x4
  v38 : W⟦main_v38⟧ = val_main_v38 (F := F) x1
  a4 : W⟦main_arg4⟧ = x4

/-- After operation 88: the three results are in place. -/
structure InvM (W : Valuation τ sig (Elt F)) : Prop where
  v43 : W⟦main_v43⟧ = val_main_v43 (F := F) x0 x1 x2 x3 x4
  v27 : W⟦main_v27⟧ = val_main_v27 (F := F) x0 x1 x2 x3 x4
  v32 : W⟦main_v32⟧ = val_main_v32 (F := F) x0 x2 x3 x4

variable {x0 x1 x2 x3 x4} {W : Valuation τ sig (Elt F)}

theorem stepA (h : Inv0 x0 x1 x2 x3 x4 W) : InvA x0 x1 x2 x3 x4 (after sA W) where
  v5 := by after_results_simp; rw [h.a0, h.a2, h.a3]; rfl
  v8 := by after_results_simp; rw [h.a0, h.a2, h.a3]; rfl
  a1 := by after_results_simp; exact h.a1
  a4 := by after_results_simp; exact h.a4

theorem stepB (h : InvA x0 x1 x2 x3 x4 W) : InvB x0 x1 x2 x3 x4 (after sB W) where
  v14 := by after_results_simp; rw [h.v8, h.a4]; rfl
  v15 := by after_results_simp; rw [h.v5, h.a4]; rfl
  a1 := by after_results_simp; exact h.a1
  a4 := by after_results_simp; exact h.a4

theorem stepC (h : InvB x0 x1 x2 x3 x4 W) : InvC x0 x1 x2 x3 x4 (after sC W) where
  v22 := by after_results_simp; rw [h.v14, h.v15]; rfl
  a1 := by after_results_simp; exact h.a1
  a4 := by after_results_simp; exact h.a4

theorem stepD (h : InvC x0 x1 x2 x3 x4 W) : InvD x0 x1 x2 x3 x4 (after sD W) where
  c0v5 := by
    have t22 : W⟪main_v22; ⟨S16x64x8x8x1024, .f32⟩⟫ = val_main_v22 (F := F) x0 x2 x3 x4 := h.v22
    show (after sD W)⟪main_call0_v5; ⟨S16x64x8x8x1024, .f32⟩⟫ = _
    after_results_simp; simp only [ofBuf_toBuf]; rw [t22]; rfl
  a1 := by after_results_simp; exact h.a1
  a4 := by after_results_simp; exact h.a4

theorem stepE (h : InvD x0 x1 x2 x3 x4 W) : InvE x0 x1 x2 x3 x4 (after sE W) where
  v23 := by
    have t5 : W⟪main_call0_v5; ⟨S16x64x8x8x1024, .f32⟩⟫ = val_main_call0_v5 (F := F) x0 x2 x3 x4 := h.c0v5
    show (after sE W)⟪main_v23; ⟨S16x64x8x8x1024, .f32⟩⟫ = _
    after_results_simp; simp only [ofBuf_toBuf]; rw [t5]; rfl
  v24 := by after_results_simp; rw [h.a1]; rfl
  a1 := by after_results_simp; exact h.a1
  a4 := by after_results_simp; exact h.a4

theorem stepF (h : InvE x0 x1 x2 x3 x4 W) : InvF x0 x1 x2 x3 x4 (after sF W) where
  v23 := by after_results_simp; exact h.v23
  c1v4 := by
    have t24 : W⟪main_v24; ⟨S16x64x8x8x1, .i32⟩⟫ = val_main_v24 (F := F) x1 := h.v24
    show (after sF W)⟪main_call1_v4; ⟨S16x64x8x8x1, .i32⟩⟫ = _
    after_results_simp; simp only [ofBuf_toBuf]; rw [t24]; rfl
  a1 := by after_results_simp; exact h.a1
  a4 := by after_results_simp; exact h.a4

theorem stepG (h : InvF x0 x1 x2 x3 x4 W) : InvG x0 x1 x2 x3 x4 (after sG W) where
  v23 := by after_results_simp; exact h.v23
  c1v5 := by after_results_simp; rw [h.c1v4]; rfl
  a1 := by after_results_simp; exact h.a1
  a4 := by after_results_simp; exact h.a4

theorem stepH (h : InvG x0 x1 x2 x3 x4 W) : InvH x0 x1 x2 x3 x4 (after sH W) where
  v23 := by after_results_simp; exact h.v23
  c1v5 := by after_results_simp; exact h.c1v5
  c1v12 := by
    have t5 : W⟪main_call1_v5; ⟨S16x64x8x8x1x1, .i32⟩⟫ = val_main_call1_v5 (F := F) x1 := h.c1v5
    show (after sH W)⟪main_call1_v12; ⟨S16x64x8x8x1, .i1⟩⟫ = _
    after_results_simp; simp only [ofBuf_toBuf]; rw [t5]; rfl
  a1 := by after_results_simp; exact h.a1
  a4 := by after_results_simp; exact h.a4

theorem stepI (h : InvH x0 x1 x2 x3 x4 W) : InvI x0 x1 x2 x3 x4 (after sI W) where
  v23 := by after_results_simp; exact h.v23
  v25 := by
    have t23 : W⟪main_v23; ⟨S16x64x8x8x1024, .f32⟩⟫ = val_main_v23 (F := F) x0 x2 x3 x4 := h.v23
    have t5 : W⟪main_call1_v5; ⟨S16x64x8x8x1x1, .i32⟩⟫ = val_main_call1_v5 (F := F) x1 := h.c1v5
    have t12 : W⟪main_call1_v12; ⟨S16x64x8x8x1, .i1⟩⟫ = val_main_call1_v12 (F := F) x1 := h.c1v12
    show (after sI W)⟪main_v25; ⟨S16x64x8x8x1, .f32⟩⟫ = _
    after_results_simp; simp only [ofBuf_toBuf]; rw [t23, t5, t12]; rfl
  a1 := by after_results_simp; exact h.a1
  a4 := by after_results_simp; exact h.a4

theorem stepJ (h : InvI x0 x1 x2 x3 x4 W) : InvJ x0 x1 x2 x3 x4 (after sJ W) where
  v23 := by after_results_simp; exact h.v23
  v27 := by after_results_simp; rw [h.v25]; rfl
  a1 := by after_results_simp; exact h.a1
  a4 := by after_results_simp; exact h.a4

theorem stepK (h : InvJ x0 x1 x2 x3 x4 W) : InvK x0 x1 x2 x3 x4 (after sK W) where
  v27 := by after_results_simp; exact h.v27
  v32 := by after_results_simp; rw [h.v23]; rfl
  v28 := by after_results_simp; rw [h.v23]; rfl
  a1 := by after_results_simp; exact h.a1
  a4 := by after_results_simp; exact h.a4

theorem stepL (h : InvK x0 x1 x2 x3 x4 W) : InvL x0 x1 x2 x3 x4 (after sL W) where
  v27 := by after_results_simp; exact h.v27
  v32 := by after_results_simp; exact h.v32
  v28 := by after_results_simp; exact h.v28
  v38 := by after_results_simp; rw [h.a1]; rfl
  a4 := by after_results_simp; exact h.a4

theorem stepM (h : InvL x0 x1 x2 x3 x4 W) : InvM x0 x1 x2 x3 x4 (after sM W) where
  v43 := by after_results_simp; rw [h.v28, h.a4, h.v38]; rfl
  v27 := by after_results_simp; exact h.v27
  v32 := by after_results_simp; exact h.v32

end Invariants

/-- After all the operations the three result buffers hold their stage functions of the arguments' contents at the
    start: the thirteen stretches one after the other. -/
theorem inv_ops (V : Valuation τ sig (Elt F)) :
    InvM (V⟦main_arg0⟧) (V⟦main_arg1⟧) (V⟦main_arg2⟧) (V⟦main_arg3⟧) (V⟦main_arg4⟧) (after (ops (F := F)) V) := by
  rw [ops_eq]
  simp only [after_append]
  exact stepM (stepL (stepK (stepJ (stepI (stepH (stepG (stepF (stepE (stepD (stepC (stepB (stepA
    ⟨rfl, rfl, rfl, rfl, rfl⟩))))))))))))

/-- After all the operations, the first result buffer holds its stage function of the arguments. -/
theorem after_main_v43 (V : Valuation τ sig (Elt F)) :
    after (ops (F := F)) V (Proc.devRef .tc main_v43)
      = val_main_v43 (F := F) (V (Proc.devRef .tc main_arg0)) (V (Proc.devRef .tc main_arg1)) (V (Proc.devRef .tc main_arg2))
          (V (Proc.devRef .tc main_arg3)) (V (Proc.devRef .tc main_arg4)) :=
  (inv_ops V).v43

/-- The second result buffer likewise. -/
theorem after_main_v27 (V : Valuation τ sig (Elt F)) :
    after (ops (F := F)) V (Proc.devRef .tc main_v27)
      = val_main_v27 (F := F) (V (Proc.devRef .tc main_arg0)) (V (Proc.devRef .tc main_arg1)) (V (Proc.devRef .tc main_arg2))
          (V (Proc.devRef .tc main_arg3)) (V (Proc.devRef .tc main_arg4)) :=
  (inv_ops V).v27

/-- The third result buffer likewise (it does not depend on the integer argument). -/
theorem after_main_v32 (V : Valuation τ sig (Elt F)) :
    after (ops (F := F)) V (Proc.devRef .tc main_v32)
      = val_main_v32 (F := F) (V (Proc.devRef .tc main_arg0)) (V (Proc.devRef .tc main_arg2))
          (V (Proc.devRef .tc main_arg3)) (V (Proc.devRef .tc main_arg4)) :=
  (inv_ops V).v32

/-- The reference's run with each result at its stage function of the launch contents of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = val_main_v43 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v27) = val_main_v27 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v32) = val_main_v32 (F := F) (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (after_main_v43 _),
      (h c).2.1.trans (after_main_v27 _),
      (h c).2.2.1.trans (after_main_v32 _),
      (h c).2.2.2⟩)
    (ValueP.run m ρ)

end Cert.ReferenceIdeal.Stages

end
-- ==== Proof.PreDecode.lean ====
/-
  What the precondition says, element by element: every entry of the codebook is a real number (neither infinity),
  and every given codeword number lies in [0, 1024) as a signed 32-bit word.
-/
import proofs.«421140_j13005160973101_2_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate
import Idealize.ShloMosaic.Lib.WordArith

noncomputable section

namespace Cert.PreDecode

open Idealize.ShloMosaic Cert.Pre_finite_inputs

variable [Cert.Pre_finite_inputs.Facts]

/-- The scalar shape has one index. -/
private instance : Subsingleton S_.Idx := ⟨fun a b => funext fun d => d.elim0⟩

/-- The f32 pattern 0x7F800000 (sign 0, exponent all ones, fraction 0) denotes +∞. -/
private theorem ofBits_inf : Ideal.ofBits .f32 0x7F800000#32 = (⊤ : EReal) := by
  simp [Ideal.ofBits, Ideal.ieee]

/-- An extended real whose absolute value max x (−x) lies below +∞ is neither infinity, so it is a real number. -/
private theorem real_of_abs_lt_top (x : EReal) (hx : max x (-x) < ⊤) : ∃ r : ℝ, x = (r : EReal) := by
  induction x using EReal.rec with
  | bot => simp at hx
  | coe r => exact ⟨r, rfl⟩
  | top => simp at hx

/-- A comparison's one-bit word is 1 exactly when the comparison holds. -/
private theorem ofBool_eq_one (b : Bool) : BitVec.ofBool b = 1#1 ↔ b = true := by cases b <;> decide

/-- Under the precondition every codebook entry is a real number. -/
theorem codebook_real (x0 : FVec Ideal S16x64x8x512 .f32) (x1 : IVec S16x64x8x8 32) (x2 : FVec Ideal S512x512 .f32)
    (x3 : FVec Ideal S512 .f32) (x4 : FVec Ideal S1024x64 .f32)
    (h : Cert.Pre_finite_inputs.fn (F := Ideal) x0 x1 x2 x3 x4 = fun _ => 1#1) (i : S1024x64.Idx) :
    ∃ r : ℝ, x4 i = (r : EReal) := by
  -- the precondition's one entry, with its two cuts of the chain opened
  have e := congrFun h ValueIdx.ix0
  dsimp only [Cert.Pre_finite_inputs.fn, Cert.Pre_finite_inputs.fn_part1] at e
  -- a conjunction of one-bit words is 1 exactly when each conjunct is
  simp only [andi, IntOp.andi_eq_one] at e
  obtain ⟨⟨⟨⟨⟨-, -⟩, -⟩, h4⟩, -⟩, -⟩ := e
  -- the all-reduction over the codebook came out 1, so its comparison is 1 at entry i
  have hi := Host.reduce_andi_all _ _ _ _ _ h4 i
  -- at entry i the comparison reads |x4 i| < (the pattern 0x7F800000), on the extended reals
  have hc : Ideal.cmp .olt (max (x4 i) (-(x4 i))) (Ideal.ofBits .f32 0x7F800000#32) = 1#1 := hi
  rw [ofBits_inf] at hc
  simp only [Ideal.cmp, ofBool_eq_one, decide_eq_true_eq] at hc
  exact real_of_abs_lt_top _ hc

/-- Under the precondition every given codeword number is, read signed, at least 0 and below 1024. -/
theorem comms_range (x0 : FVec Ideal S16x64x8x512 .f32) (x1 : IVec S16x64x8x8 32) (x2 : FVec Ideal S512x512 .f32)
    (x3 : FVec Ideal S512 .f32) (x4 : FVec Ideal S1024x64 .f32)
    (h : Cert.Pre_finite_inputs.fn (F := Ideal) x0 x1 x2 x3 x4 = fun _ => 1#1) (i : S16x64x8x8.Idx) :
    0 ≤ (x1 i).toInt ∧ (x1 i).toInt < 1024 := by
  -- the precondition's one entry, with its two cuts of the chain opened
  have e := congrFun h ValueIdx.ix0
  dsimp only [Cert.Pre_finite_inputs.fn, Cert.Pre_finite_inputs.fn_part1] at e
  -- a conjunction of one-bit words is 1 exactly when each conjunct is
  simp only [andi, IntOp.andi_eq_one] at e
  obtain ⟨⟨-, hge⟩, hlt⟩ := e
  -- both all-reductions over the codeword numbers came out 1, so both comparisons are 1 at entry i
  have h0 := Host.reduce_andi_all _ _ _ _ _ hge i
  have h1 := Host.reduce_andi_all _ _ _ _ _ hlt i
  -- at entry i they compare the word x1 i, signed, with the broadcast scalars 0 and 1024
  have h0' : IntOp.cmpi .sge (x1 i) 0#32 = 1#1 := h0
  have h1' : IntOp.cmpi .slt (x1 i) 1024#32 = 1#1 := h1
  have a := IntOp.cmpi_sge.1 h0'
  have b := IntOp.cmpi_slt.1 h1'
  have z0 : (0#32 : BitVec 32).toInt = 0 := by decide
  have z1 : (1024#32 : BitVec 32).toInt = 1024 := by decide
  rw [z0] at a
  rw [z1] at b
  exact ⟨a, b⟩

end Cert.PreDecode

end
-- ==== Proof.KVec.lean ====
/-
  One slot's arithmetic on a block of 512 rows, as whole-block functions, and what each computes at an index.

  The kernel body repeats the same steps for each of the 8 slots of a row: cut the slot's 64 features out of the
  512-feature block, form the logits against the 1024 codewords (shifted by the row's largest logit), normalise them
  to log-probabilities, keep the log-probability of the row's given codeword by comparing a lane counter with it,
  and form the entropy term. Here each step is ONE function of blocks, and each is read at a (row, lane) index as
  the row quantity of the specification.
-/
import proofs.«421140_j13005160973101_2_alg».proof.Proof.Gen.KernelIdeal.Skeleton
import proofs.«421140_j13005160973101_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KVec

open Idealize.ShloMosaic Idealize.ShloMosaic.ValueIdx Cert.KernelIdeal Cert.KernelIdeal.Gen

variable {F : FTy → Type} [FloatOps F]

/-- The logits of a block of slot vectors (512 rows of 64 features) against the transposed codebook (64 × 1024),
    `c2` the codewords' squared norms, each row shifted by its largest logit. -/
def shiftV (lat : FVec F S512x64 .f32) (cbt : FVec F S64x1024 .bf16) (c2 : FVec F S1024 .f32) : FVec F S512x1024 .f32 :=
  have sq : FVec F S512x64 .f32 := mulf lat lat
  have ss : FVec F S512 .f32 := multiReduction .add [1] S512 sq 0x00000000#32 reduces_S512x64_S512 (.inl rfl) rfl
  have ss1 : FVec F S512x1 .f32 := shapeCast S512x1 ss shapeCasts_S512_S512x1
  have lb : FVec F S512x64 .bf16 := truncf .bf16 lat bitsLt_bf16_f32
  have cst0 : FVec F S512x1024 .f32 := constant S512x1024 .f32 0x00000000#32
  have cr : FVec F S512x1024 .f32 := matmul dot_S512x64_S64x1024_S512x1024_1_0_0_1_n_n none lb cbt cst0
  have c2r : FVec F S1x1024 .f32 := shapeCast S1x1024 c2 shapeCasts_S1024_S1x1024
  have a1 : FVec F S512x1024 .f32 := broadcastTo S512x1024 ss1 broadcasts_S512x1_S512x1024
  have a2 : FVec F S512x1024 .f32 := broadcastTo S512x1024 c2r broadcasts_S1x1024_S512x1024
  have a : FVec F S512x1024 .f32 := addf a1 a2
  have two : F .f32 := Scalar.ofBits .f32 0x40000000#32
  have twoV : FVec F S512x1024 .f32 := broadcast S512x1024 two
  have tc : FVec F S512x1024 .f32 := mulf twoV cr
  have d2 : FVec F S512x1024 .f32 := subf a tc
  have z : F .f32 := Scalar.ofBits .f32 0x00000000#32
  have zV : FVec F S512x1024 .f32 := broadcast S512x1024 z
  have cl : FVec F S512x1024 .f32 := maximumf d2 zV
  have rt : FVec F S512x1024 .f32 := sqrt cl
  have z' : F .f32 := Scalar.ofBits .f32 0x00000000#32
  have zV' : FVec F S512x1024 .f32 := broadcast S512x1024 z'
  have lg : FVec F S512x1024 .f32 := subf zV' rt
  have mx : FVec F S512 .f32 := multiReduction .maximumf [1] S512 lg 0xFF800000#32 reduces_S512x1024_S512 (.inl rfl) rfl
  have mx1 : FVec F S512x1 .f32 := shapeCast S512x1 mx shapeCasts_S512_S512x1
  have mxb : FVec F S512x1024 .f32 := broadcastTo S512x1024 mx1 broadcasts_S512x1_S512x1024
  subf lg mxb

/-- The row sums of a block (of exponentials). -/
def rowSumV (e : FVec F S512x1024 .f32) : FVec F S512 .f32 :=
  multiReduction .add [1] S512 e 0x00000000#32 reduces_S512x1024_S512 (.inl rfl) rfl

/-- The logarithm of the row sums, as a column. -/
def lseV (se : FVec F S512 .f32) : FVec F S512x1 .f32 :=
  log (shapeCast S512x1 se shapeCasts_S512_S512x1)

/-- Log-probabilities from shifted logits and the column of log-sums. -/
def logpV (s : FVec F S512x1024 .f32) (l : FVec F S512x1 .f32) : FVec F S512x1024 .f32 :=
  subf s (broadcastTo S512x1024 l broadcasts_S512x1_S512x1024)

/-- The lane mask "lane number = the row's given word", from the column of words. -/
def maskV (col : IVec S512x1 32) : IVec S512x1024 1 :=
  cmpi .eq (iota .tc S512x1024 32 [1] iota_S512x1024_d1_w32) (broadcastTo S512x1024 col broadcasts_S512x1_S512x1024)

/-- The masked row sum: each row's log-probability at its given word, as a column. -/
def pickV (lp : FVec F S512x1024 .f32) (mk : IVec S512x1024 1) : FVec F S512x1 .f32 :=
  shapeCast S512x1 (multiReduction .add [1] S512 (select mk lp (broadcast S512x1024 (Scalar.ofBits .f32 0x00000000#32)))
    0x00000000#32 reduces_S512x1024_S512 (.inl rfl) rfl) shapeCasts_S512_S512x1

/-- The entropy term of each row, as a column: zero minus the row sum of p · log p. -/
def entV (lp : FVec F S512x1024 .f32) : FVec F S512x1 .f32 :=
  subf (broadcast S512x1 (Scalar.ofBits .f32 0x00000000#32))
    (shapeCast S512x1 (multiReduction .add [1] S512 (mulf (exp lp) lp) 0x00000000#32 reduces_S512x1024_S512 (.inl rfl) rfl)
      shapeCasts_S512_S512x1)

/-! ## Each of them at an index, at the ideal instance -/

/-! ### Layout: the keepdims column forms, and a reduced index with its lane put back -/

section Layout
variable {α : Type}

/-- An [a] array cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- Row p of a 512 × 1024 block with lane k put back on the reduced axis is the index (p, k). -/
theorem lift1024 (h : S512x1024.Reduces [1] S512) (p : Fin 512) (k : Fin 1024) : h.lift (ix1 p) k = ix2 p k :=
  funext fun a => Fin.ext (by match a with | ⟨0, _⟩ => rfl | ⟨1, _⟩ => rfl)

/-- The same for a 512 × 64 block. -/
theorem lift64 (h : S512x64.Reduces [1] S512) (p : Fin 512) (k : Fin 64) : h.lift (ix1 p) k = ix2 p k :=
  funext fun a => Fin.ext (by match a with | ⟨0, _⟩ => rfl | ⟨1, _⟩ => rfl)

/-- A lane sum of a 512 × 1024 block at row p: the sum of the row's 1024 entries. -/
theorem rowSum1024_apply (e : FVec Ideal S512x1024 .f32) (p : Fin 512) :
    multiReduction .add [1] S512 e 0x00000000#32 reduces_S512x1024_S512 (.inl rfl) rfl (ix1 p) = ∑ u : Fin 1024, e (ix2 p u) := by
  refine (Ideal.multiReduction_add_single e _ reduces_S512x1024_S512 (.inl rfl) rfl (ix1 p)).trans ?_
  show ∑ k : Fin 1024, e (reduces_S512x1024_S512.lift (ix1 p) k) = _
  exact Finset.sum_congr rfl fun k _ => congrArg e (lift1024 _ p k)

/-- A lane sum of a 512 × 64 block at row p: the sum of the row's 64 entries. -/
theorem rowSum64_apply (e : FVec Ideal S512x64 .f32) (p : Fin 512) :
    multiReduction .add [1] S512 e 0x00000000#32 reduces_S512x64_S512 (.inl rfl) rfl (ix1 p) = ∑ d : Fin 64, e (ix2 p d) := by
  refine (Ideal.multiReduction_add_single e _ reduces_S512x64_S512 (.inl rfl) rfl (ix1 p)).trans ?_
  show ∑ k : Fin 64, e (reduces_S512x64_S512.lift (ix1 p) k) = _
  exact Finset.sum_congr rfl fun k _ => congrArg e (lift64 _ p k)

/-- The accumulator word of a lane maximum is −∞. -/
theorem ofBits_negInf_f32 : Ideal.ofBits .f32 0xFF800000#32 = ⊥ := by simp [Ideal.ofBits, Ideal.ieee]

/-- A lane maximum of a 512 × 1024 block at row p: the fold of max from −∞ over the row's 1024 entries. -/
theorem rowMax1024_apply (e : FVec Ideal S512x1024 .f32) (p : Fin 512) :
    multiReduction .maximumf [1] S512 e 0xFF800000#32 reduces_S512x1024_S512 (.inl rfl) rfl (ix1 p)
      = (Finset.univ : Finset (Fin 1024)).fold max ⊥ (fun u => e (ix2 p u)) := by
  refine (Ideal.multiReduction_maximumf_single e _ reduces_S512x1024_S512 (.inl rfl) rfl (ix1 p)).trans ?_
  show (Finset.univ : Finset (Fin 1024)).fold max (Ideal.ofBits .f32 0xFF800000#32) (e ∘ reduces_S512x1024_S512.lift (ix1 p)) = _
  rw [ofBits_negInf_f32]
  exact congrArg (fun g => (Finset.univ : Finset (Fin 1024)).fold max ⊥ g) (funext fun k => congrArg e (lift1024 _ p k))

/-! ### The two products -/

theorem lhs_slot_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem lhs_slot_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem rhs_slot_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem rhs_slot_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- The slot product into the zero splat at (row p, codeword v): the sum over the 64 features of row p of the left block
    times column v of the right block. -/
theorem matmul_slot_apply (lhs : FVec Ideal S512x64 .bf16) (rhs : FVec Ideal S64x1024 .bf16) (p : Fin 512) (v : Fin 1024) :
    matmul dot_S512x64_S64x1024_S512x1024_1_0_0_1_n_n none lhs rhs (constant (F := Ideal) S512x1024 .f32 0x00000000#32) (ix2 p v)
      = ∑ k : Fin 64, lhs (ix2 p k) * rhs (ix2 k v) := by
  refine (Ideal.matmul_constant_zero_apply dot_S512x64_S64x1024_S512x1024_1_0_0_1_n_n none lhs rhs (ix2 p v)).trans ?_
  rw [← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 p v) ((contrEquiv1 dot_S512x64_S64x1024_S512x1024_1_0_0_1_n_n 64 rfl rfl).symm k) = ix2 p k := funext fun a => Fin.ext (by
    match a with
    | ⟨0, _⟩ => exact lhs_slot_0 _ _
    | ⟨1, _⟩ => exact (lhs_slot_1 _ _).trans hk)
  have er : dot_S512x64_S64x1024_S512x1024_1_0_0_1_n_n.rhsIdx (ix2 p v) ((contrEquiv1 dot_S512x64_S64x1024_S512x1024_1_0_0_1_n_n 64 rfl rfl).symm k) = ix2 k v := funext fun a => Fin.ext (by
    match a with
    | ⟨0, _⟩ => exact (rhs_slot_0 _ _).trans hk
    | ⟨1, _⟩ => exact rhs_slot_1 _ _)
  rw [el, er]

theorem lhs_proj_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_proj_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_proj_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_proj_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The projection's product into the zero splat at (row p, feature o): the sum over the 512 inputs of row p of the left
    block times column o of the right block. -/
theorem matmul_proj_apply (lhs : FVec Ideal S512x512 .bf16) (rhs : FVec Ideal S512x512 .bf16) (p o : Fin 512) :
    matmul dot_S512x512_S512x512_S512x512_1_0_0_1_n_n none lhs rhs (constant (F := Ideal) S512x512 .f32 0x00000000#32) (ix2 p o)
      = ∑ k : Fin 512, lhs (ix2 p k) * rhs (ix2 k o) := by
  refine (Ideal.matmul_constant_zero_apply dot_S512x512_S512x512_S512x512_1_0_0_1_n_n none lhs rhs (ix2 p o)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p o) ((contrEquiv1 dot_S512x512_S512x512_S512x512_1_0_0_1_n_n 512 rfl rfl).symm k) = ix2 p k := funext fun a => Fin.ext (by
    match a with
    | ⟨0, _⟩ => exact lhs_proj_0 _ _
    | ⟨1, _⟩ => exact (lhs_proj_1 _ _).trans hk)
  have er : dot_S512x512_S512x512_S512x512_1_0_0_1_n_n.rhsIdx (ix2 p o) ((contrEquiv1 dot_S512x512_S512x512_S512x512_1_0_0_1_n_n 512 rfl rfl).symm k) = ix2 k o := funext fun a => Fin.ext (by
    match a with
    | ⟨0, _⟩ => exact (rhs_proj_0 _ _).trans hk
    | ⟨1, _⟩ => exact rhs_proj_1 _ _)
  rw [el, er]

/-! ### The projection, the unshifted logits, and the mask's select, as functions of blocks -/

/-- The projection's arithmetic on float blocks at (row p, feature o). -/
theorem proj_apply (x w : FVec Ideal S512x512 .f32) (b : FVec Ideal S512 .f32) (p o : Fin 512) :
    (tanh (addf (matmul dot_S512x512_S512x512_S512x512_1_0_0_1_n_n none (truncf .bf16 x bitsLt_bf16_f32) (truncf .bf16 w bitsLt_bf16_f32)
        (constant (F := Ideal) S512x512 .f32 0x00000000#32))
      (broadcastTo S512x512 (shapeCast S1x512 b shapeCasts_S512_S1x512) broadcasts_S1x512_S512x512)) : FVec Ideal S512x512 .f32) (ix2 p o)
    = Ideal.tanh ((∑ h : Fin 512, x (ix2 p h) * w (ix2 h o)) + b (ix1 o)) := by
  have h1 : matmul dot_S512x512_S512x512_S512x512_1_0_0_1_n_n none (truncf .bf16 x bitsLt_bf16_f32) (truncf .bf16 w bitsLt_bf16_f32)
      (constant (F := Ideal) S512x512 .f32 0x00000000#32) (ix2 p o) = ∑ h : Fin 512, x (ix2 p h) * w (ix2 h o) :=
    matmul_proj_apply _ _ p o
  have h2 : broadcastTo S512x512 (shapeCast S1x512 b shapeCasts_S512_S1x512) broadcasts_S1x512_S512x512 (ix2 p o) = b (ix1 o) :=
    (broadcastTo_1b_ab_apply _ broadcasts_S1x512_S512x512 p o).trans (shapeCast_a_1a_apply b shapeCasts_S512_S1x512 0 o)
  exact congrArg Ideal.tanh (congrArg₂ (· + ·) h1 h2)

/-- The logits of a block before the shift by the row's largest. -/
def lgV (lat : FVec F S512x64 .f32) (cbt : FVec F S64x1024 .bf16) (c2 : FVec F S1024 .f32) : FVec F S512x1024 .f32 :=
  subf (broadcast S512x1024 (Scalar.ofBits .f32 0x00000000#32 : F .f32))
    (sqrt (maximumf
      (subf
        (addf
          (broadcastTo S512x1024
            (shapeCast S512x1 (multiReduction .add [1] S512 (mulf lat lat) 0x00000000#32 reduces_S512x64_S512 (.inl rfl) rfl)
              shapeCasts_S512_S512x1) broadcasts_S512x1_S512x1024)
          (broadcastTo S512x1024 (shapeCast S1x1024 c2 shapeCasts_S1024_S1x1024) broadcasts_S1x1024_S512x1024))
        (mulf (broadcast S512x1024 (Scalar.ofBits .f32 0x40000000#32 : F .f32))
          (matmul dot_S512x64_S64x1024_S512x1024_1_0_0_1_n_n none (truncf .bf16 lat bitsLt_bf16_f32) cbt (constant S512x1024 .f32 0x00000000#32))))
      (broadcast S512x1024 (Scalar.ofBits .f32 0x00000000#32 : F .f32))))

/-- The shifted logits are the logits minus each row's largest, spread over the row. -/
theorem shiftV_eq (lat : FVec F S512x64 .f32) (cbt : FVec F S64x1024 .bf16) (c2 : FVec F S1024 .f32) :
    shiftV lat cbt c2 = subf (lgV lat cbt c2)
      (broadcastTo S512x1024
        (shapeCast S512x1 (multiReduction .maximumf [1] S512 (lgV lat cbt c2) 0xFF800000#32 reduces_S512x1024_S512 (.inl rfl) rfl)
          shapeCasts_S512_S512x1) broadcasts_S512x1_S512x1024) := rfl

/-- The unshifted logits at (row p, codeword v): the row's logit. -/
theorem lgV_apply (lat : FVec Ideal S512x64 .f32) (cbt : FVec Ideal S64x1024 .bf16) (c2 : FVec Ideal S1024 .f32)
    (p : Fin 512) (v : Fin 1024) :
    lgV lat cbt c2 (ix2 p v)
      = VQ.logit (fun d => lat (ix2 p d)) (fun u d => cbt (ix2 d u)) (fun u => c2 (ix1 u)) v := by
  have h1 : broadcastTo S512x1024
      (shapeCast S512x1 (multiReduction .add [1] S512 (mulf lat lat) 0x00000000#32 reduces_S512x64_S512 (.inl rfl) rfl)
        shapeCasts_S512_S512x1) broadcasts_S512x1_S512x1024 (ix2 p v) = ∑ d : Fin 64, lat (ix2 p d) * lat (ix2 p d) :=
    (broadcastTo_a1_ab_apply _ broadcasts_S512x1_S512x1024 p v).trans
      ((shapeCast_a_a1_apply _ shapeCasts_S512_S512x1 p 0).trans (rowSum64_apply (mulf lat lat) p))
  have h2 : broadcastTo S512x1024 (shapeCast S1x1024 c2 shapeCasts_S1024_S1x1024) broadcasts_S1x1024_S512x1024 (ix2 p v)
      = c2 (ix1 v) :=
    (broadcastTo_1b_ab_apply _ broadcasts_S1x1024_S512x1024 p v).trans (shapeCast_a_1a_apply c2 shapeCasts_S1024_S1x1024 0 v)
  have h3 : matmul dot_S512x64_S64x1024_S512x1024_1_0_0_1_n_n none (truncf .bf16 lat bitsLt_bf16_f32) cbt
      (constant (F := Ideal) S512x1024 .f32 0x00000000#32) (ix2 p v) = ∑ d : Fin 64, lat (ix2 p d) * cbt (ix2 d v) :=
    matmul_slot_apply _ cbt p v
  have h0 : Ideal.ofBits .f32 0x00000000#32 = 0 := Ideal.ofBits_zero_f32
  unfold VQ.logit
  refine Eq.trans ?_ (zero_sub _)
  exact congrArg₂ (· - ·) h0
    (congrArg Ideal.sqrt (congrArg₂ max (congrArg₂ (· - ·) (congrArg₂ (· + ·) h1 h2) (congrArg (VQ.two * ·) h3)) h0))

/-- A select on the comparison "x = y" of two words is the choice on that equation. -/
theorem select_cmpi_eq {α : Type} {w : Nat} (x y : BitVec w) (a b : α) :
    Scalar.select (IntOp.cmpi .eq x y) a b = if x = y then a else b := by
  have hb : ∀ c : Bool, (BitVec.ofBool c = 1) ↔ c = true := fun c => by cases c <;> decide
  unfold Scalar.select IntOp.cmpi
  by_cases h : x = y
  · rw [if_pos h, if_pos ((hb _).2 (beq_iff_eq.2 h))]
  · rw [if_neg h, if_neg fun e => h (beq_iff_eq.1 ((hb _).1 e))]

/-- The projected, squashed features of a block at (row `p`, feature `o`): the row's feature. The weights block holds
    the TRANSPOSED weight matrix (input feature `h` in its rows). -/
theorem pay3_apply (v0 : Vec Ideal S512x512 .f32) (v3 : Vec Ideal S512x512 .f32) (v7 : Vec Ideal S512 .f32) (p o : Fin 512) :
    k0_pay3 (F := Ideal) v0 v3 v7 (ix2 p o)
      = VQ.feat (fun h => v0 (ix2 p h)) (fun o' h => v3 (ix2 h o')) (fun o' => v7 (ix1 o')) o := by
  unfold k0_pay3 VQ.feat
  simp only [shapeCast_self]
  exact proj_apply v0 v3 v7 p o

/-- Slot `k`'s 64 columns cut out of a 512-column block, at (row `p`, entry `d`). -/
theorem slice_apply (off : Nat) (k : Fin 8) (hk : off = k.val * 64) (v11 : FVec Ideal S512x512 .f32)
    (h : S512x512.Slices ![0, off] S512x64) (p : Fin 512) (d : Fin 64) :
    extractStridedSlice S512x64 ![0, off] v11 h (ix2 p d) = v11 (ix2 p (VQ.col k d)) :=
  slice2_axis1_apply off v11 h p d (VQ.col k d) (by show k.val * 64 + d.val = off + d.val; rw [hk])

/-- The shifted logits at (row `p`, codeword `v`): the row's logit minus the row's largest. -/
theorem shiftV_apply (lat : FVec Ideal S512x64 .f32) (cbt : FVec Ideal S64x1024 .bf16) (c2 : FVec Ideal S1024 .f32)
    (p : Fin 512) (v : Fin 1024) :
    shiftV lat cbt c2 (ix2 p v)
      = VQ.logit (fun d => lat (ix2 p d)) (fun u d => cbt (ix2 d u)) (fun u => c2 (ix1 u)) v
        - VQ.top (VQ.logit (fun d => lat (ix2 p d)) (fun u d => cbt (ix2 d u)) (fun u => c2 (ix1 u))) := by
  have hm : broadcastTo S512x1024
      (shapeCast S512x1 (multiReduction .maximumf [1] S512 (lgV lat cbt c2) 0xFF800000#32 reduces_S512x1024_S512 (.inl rfl) rfl)
        shapeCasts_S512_S512x1) broadcasts_S512x1_S512x1024 (ix2 p v)
      = VQ.top (VQ.logit (fun d => lat (ix2 p d)) (fun u d => cbt (ix2 d u)) (fun u => c2 (ix1 u))) :=
    (broadcastTo_a1_ab_apply _ broadcasts_S512x1_S512x1024 p v).trans
      ((shapeCast_a_a1_apply _ shapeCasts_S512_S512x1 p 0).trans
        ((rowMax1024_apply (lgV lat cbt c2) p).trans (congrArg VQ.top (funext fun u => lgV_apply lat cbt c2 p u))))
  rw [shiftV_eq]
  exact congrArg₂ (· - ·) (lgV_apply lat cbt c2 p v) hm

/-- A block's row sum at row `p`. -/
theorem rowSumV_apply (e : FVec Ideal S512x1024 .f32) (p : Fin 512) :
    rowSumV e (ix1 p) = ∑ u : Fin 1024, e (ix2 p u) :=
  rowSum1024_apply e p

/-- The column of logarithms at row `p`. -/
theorem lseV_apply (se : FVec Ideal S512 .f32) (p : Fin 512) :
    lseV se (ix2 p (0 : Fin 1)) = Ideal.log (se (ix1 p)) :=
  congrArg Ideal.log (shapeCast_a_a1_apply se shapeCasts_S512_S512x1 p 0)

/-- Log-probabilities at (row `p`, codeword `v`). -/
theorem logpV_apply (s : FVec Ideal S512x1024 .f32) (l : FVec Ideal S512x1 .f32) (p : Fin 512) (v : Fin 1024) :
    logpV s l (ix2 p v) = s (ix2 p v) - l (ix2 p (0 : Fin 1)) :=
  congrArg (s (ix2 p v) - ·) (broadcastTo_a1_ab_apply l broadcasts_S512x1_S512x1024 p v)

/-- The exponential of a block at an index. -/
theorem exp_apply (s : FVec Ideal S512x1024 .f32) (p : Fin 512) (v : Fin 1024) :
    (exp s : FVec Ideal S512x1024 .f32) (ix2 p v) = Ideal.exp (s (ix2 p v)) := rfl

/-- The masked row sum at row `p`: the sum over the lanes that keeps the lane whose number is the row's word. -/
theorem pickV_maskV_apply (lp : FVec Ideal S512x1024 .f32) (col : IVec S512x1 32) (p : Fin 512) :
    pickV lp (maskV col) (ix2 p (0 : Fin 1)) = VQ.pick (fun v => lp (ix2 p v)) (col (ix2 p (0 : Fin 1))) := by
  unfold pickV VQ.pick
  refine (shapeCast_a_a1_apply _ shapeCasts_S512_S512x1 p 0).trans ((rowSum1024_apply _ p).trans ?_)
  refine Finset.sum_congr rfl fun u _ => ?_
  have hi : iota .tc S512x1024 32 [1] iota_S512x1024_d1_w32 (ix2 p u) = BitVec.ofNat 32 u.val :=
    iota_single_apply .tc S512x1024 32 1 iota_S512x1024_d1_w32 (ix2 p u)
  have hc : broadcastTo S512x1024 col broadcasts_S512x1_S512x1024 (ix2 p u) = col (ix2 p (0 : Fin 1)) :=
    broadcastTo_a1_ab_apply col broadcasts_S512x1_S512x1024 p u
  show Scalar.select (IntOp.cmpi .eq (iota .tc S512x1024 32 [1] iota_S512x1024_d1_w32 (ix2 p u))
      (broadcastTo S512x1024 col broadcasts_S512x1_S512x1024 (ix2 p u))) (lp (ix2 p u)) (Ideal.ofBits .f32 0x00000000#32) = _
  rw [hi, hc, Ideal.ofBits_zero_f32, select_cmpi_eq]

/-- The entropy column at row `p`. -/
theorem entV_apply (lp : FVec Ideal S512x1024 .f32) (p : Fin 512) :
    entV lp (ix2 p (0 : Fin 1)) = -(∑ v : Fin 1024, Ideal.exp (lp (ix2 p v)) * lp (ix2 p v)) := by
  unfold entV
  show Ideal.ofBits .f32 0x00000000#32 - shapeCast S512x1 (multiReduction .add [1] S512 (mulf (exp lp) lp) 0x00000000#32 reduces_S512x1024_S512 (.inl rfl) rfl) shapeCasts_S512_S512x1 (ix2 p (0 : Fin 1)) = _
  rw [Ideal.ofBits_zero_f32, zero_sub]
  exact congrArg Neg.neg ((shapeCast_a_a1_apply _ shapeCasts_S512_S512x1 p 0).trans (rowSum1024_apply _ p))

end Cert.KernelIdeal.KVec

end
-- ==== Proof.KBody.lean ====
/-
  What the kernel body leaves in its two output blocks, read at a row: the eight slots' log-probability terms, and
  the eight slots' entropy terms, of that row of the input blocks, each added onto zero from slot 0 to slot 7.

  The body is the same slot pipeline written out eight times. Each slot's block of log-probabilities is one function
  `LP` of the slot's column offset; the two accumulators are, slot after slot, the accumulator before plus the slot's
  picked column (resp. entropy column). Read at row `p`, `LP` is the log-softmax of the logits of the row's slot
  against the codebook, and the accumulators are the left-to-right sums of the specification's terms.
-/
import proofs.«421140_j13005160973101_2_alg».proof.Proof.Gen.KernelIdeal.Frame
import proofs.«421140_j13005160973101_2_alg».proof.Proof.KVec
import Idealize.ShloMosaic.Lib.ValueIdx
import Idealize.ShloMosaic.Lib.Pipeline.Value
import Idealize.ShloMosaic.PureOps.Ideal.Laws
import Mathlib.Tactic.FinCases

noncomputable section

open scoped BigOperators

namespace Cert.KernelIdeal.KBody

open Idealize.ShloMosaic Idealize.ShloMosaic.ValueIdx Cert.KernelIdeal Cert.KernelIdeal.Gen Cert.KernelIdeal.KVec

/-! ## The payloads as compositions of the slot pipeline's block functions -/

section Blocks
variable {F : FTy → Type} [FloatOps F]

/-- One slot's block of log-probabilities: the slot's 64 columns (from column `off`) of the feature block, their
    shifted logits against the codebook, minus the logarithm of the row sums of their exponentials. -/
private def LP (off : Nat) (h : S512x512.Slices ![0, off] S512x64) (proto : FVec F S512x512 .f32)
    (cbt : FVec F S64x1024 .bf16) (c2 : FVec F S1024 .f32) : FVec F S512x1024 .f32 :=
  logpV (shiftV (extractStridedSlice S512x64 ![0, off] proto h) cbt c2)
    (lseV (rowSumV (exp (shiftV (extractStridedSlice S512x64 ![0, off] proto h) cbt c2))))

/-- A column of words as the kernel reads it (a cast to its own shape). -/
private abbrev colV (w : Vec F S512x1 .i32) : IVec S512x1 32 := shapeCast S512x1 w shapeCasts_S512x1_S512x1

/-- Slot 0's log-probabilities. -/
private theorem lp0_eq (v0 : Vec F S512x512 .f32) (v3 : Vec F S512x512 .f32) (v7 : Vec F S512 .f32)
    (v12 : Vec F S64x1024 .f32) (v15 : Vec F S1024 .f32) :
    k0_pay10 (k0_pay8 v0 v3 v7 v12 v15) (k0_pay9 v0 v3 v7 v12 v15)
      = LP 0 slices_S512x512_o0_0_S512x64 (k0_pay3 v0 v3 v7) (k0_pay4 v12) (k0_pay5 v15) := rfl

/-- Slot 1's. -/
private theorem lp1_eq (v11 : FVec F S512x512 .f32) (v14 : FVec F S64x1024 .bf16) (v16 : FVec F S1024 .f32) :
    k0_pay15 (k0_pay13 v11 v14 v16) (k0_pay14 v11 v14 v16) = LP 64 slices_S512x512_o0_64_S512x64 v11 v14 v16 := rfl

/-- Slot 2's. -/
private theorem lp2_eq (v11 : FVec F S512x512 .f32) (v14 : FVec F S64x1024 .bf16) (v16 : FVec F S1024 .f32) :
    k0_pay20 (k0_pay18 v11 v14 v16) (k0_pay19 v11 v14 v16) = LP 128 slices_S512x512_o0_128_S512x64 v11 v14 v16 := rfl

/-- Slot 3's. -/
private theorem lp3_eq (v11 : FVec F S512x512 .f32) (v14 : FVec F S64x1024 .bf16) (v16 : FVec F S1024 .f32) :
    k0_pay23 v11 v14 v16 = LP 192 slices_S512x512_o0_192_S512x64 v11 v14 v16 := rfl

/-- Slot 4's. -/
private theorem lp4_eq (v11 : FVec F S512x512 .f32) (v14 : FVec F S64x1024 .bf16) (v16 : FVec F S1024 .f32) :
    k0_pay26 v11 v14 v16 = LP 256 slices_S512x512_o0_256_S512x64 v11 v14 v16 := rfl

/-- Slot 5's. -/
private theorem lp5_eq (v11 : FVec F S512x512 .f32) (v14 : FVec F S64x1024 .bf16) (v16 : FVec F S1024 .f32) :
    k0_pay29 v11 v14 v16 = LP 320 slices_S512x512_o0_320_S512x64 v11 v14 v16 := rfl

/-- Slot 6's. -/
private theorem lp6_eq (v11 : FVec F S512x512 .f32) (v14 : FVec F S64x1024 .bf16) (v16 : FVec F S1024 .f32) :
    k0_pay33 v11 v14 v16 = LP 384 slices_S512x512_o0_384_S512x64 v11 v14 v16 := rfl

/-- Slot 7's. -/
private theorem lp7_eq (v11 : FVec F S512x512 .f32) (v14 : FVec F S64x1024 .bf16) (v16 : FVec F S1024 .f32) :
    k0_pay37 v11 v14 v16 = LP 448 slices_S512x512_o0_448_S512x64 v11 v14 v16 := rfl

/-! The log-probability accumulator after each slot: the accumulator before it plus the slot's picked column. -/

private theorem acc0_eq (v17 : FVec F S512x1 .f32) (v40 v41 : FVec F S512x1024 .f32) (v47 : Vec F S512x1 .i32) :
    k0_pay11 v17 v40 v41 v47 = addf v17 (pickV (k0_pay10 v40 v41) (maskV (colV v47))) := rfl

private theorem acc1_eq (v62 : FVec F S512x1 .f32) (v85 : FVec F S512x1024 .f32) (v87 : FVec F S512 .f32) (v92 : Vec F S512x1 .i32) :
    k0_pay16 v62 v85 v87 v92 = addf v62 (pickV (k0_pay15 v85 v87) (maskV (colV v92))) := rfl

private theorem acc2_eq (v107 : FVec F S512x1 .f32) (v130 : FVec F S512x1024 .f32) (v134 : FVec F S512x1 .f32) (v137 : Vec F S512x1 .i32) :
    k0_pay21 v107 v130 v134 v137 = addf v107 (pickV (k0_pay20 v130 v134) (maskV (colV v137))) := rfl

private theorem acc3_eq (v152 : FVec F S512x1 .f32) (v181 : FVec F S512x1024 .f32) (v182 : Vec F S512x1 .i32) :
    k0_pay24 v152 v181 v182 = addf v152 (pickV v181 (maskV (colV v182))) := rfl

private theorem acc4_eq (v197 : FVec F S512x1 .f32) (v226 : FVec F S512x1024 .f32) (v227 : Vec F S512x1 .i32) :
    k0_pay27 v197 v226 v227 = addf v197 (pickV v226 (maskV (colV v227))) := rfl

private theorem acc5_eq (v242 : FVec F S512x1 .f32) (v271 : FVec F S512x1024 .f32) (v272 : Vec F S512x1 .i32) :
    k0_pay31 v242 v271 (k0_pay30 v272) = addf v242 (pickV v271 (maskV (colV v272))) := rfl

private theorem acc6_eq (v287 : FVec F S512x1 .f32) (v316 : FVec F S512x1024 .f32) (v317 : Vec F S512x1 .i32) :
    k0_pay35 v287 v316 (iota .tc S512x1024 32 [1] iota_S512x1024_d1_w32) (k0_pay34 v317)
      = addf v287 (pickV v316 (maskV (colV v317))) := rfl

private theorem acc7_eq (v332 : FVec F S512x1 .f32) (v361 : FVec F S512x1024 .f32) (v362 : Vec F S512x1 .i32) :
    k0_pay1 v332 v361 (k0_pay38 v362) (Scalar.ofBits .f32 0x00000000#32)
      = addf v332 (pickV v361 (maskV (colV v362))) := rfl

/-! The entropy accumulator after each slot: the accumulator before it plus the slot's entropy column. -/

private theorem ent0_eq (v18 : FVec F S512x1 .f32) (v40 v41 : FVec F S512x1024 .f32) :
    k0_pay12 v18 v40 v41 = addf v18 (entV (k0_pay10 v40 v41)) := rfl

private theorem ent1_eq (v63 : FVec F S512x1 .f32) (v85 : FVec F S512x1024 .f32) (v87 : FVec F S512 .f32) :
    k0_pay17 v63 v85 v87 = addf v63 (entV (k0_pay15 v85 v87)) := rfl

private theorem ent2_eq (v108 : FVec F S512x1 .f32) (v130 : FVec F S512x1024 .f32) (v134 : FVec F S512x1 .f32) :
    k0_pay22 v108 v130 v134 = addf v108 (entV (k0_pay20 v130 v134)) := rfl

private theorem ent3_eq (v153 : FVec F S512x1 .f32) (v181 : FVec F S512x1024 .f32) :
    k0_pay25 v153 v181 = addf v153 (entV v181) := rfl

private theorem ent4_eq (v198 : FVec F S512x1 .f32) (v226 : FVec F S512x1024 .f32) :
    k0_pay28 v198 v226 = addf v198 (entV v226) := rfl

private theorem ent5_eq (v243 : FVec F S512x1 .f32) (v271 : FVec F S512x1024 .f32) :
    k0_pay32 v243 v271 = addf v243 (entV v271) := rfl

private theorem ent6_eq (v288 : FVec F S512x1 .f32) (v316 : FVec F S512x1024 .f32) :
    k0_pay36 v288 v316 = addf v288 (entV v316) := rfl

private theorem ent7_eq (v333 : FVec F S512x1 .f32) (v361 : FVec F S512x1024 .f32) :
    k0_pay2 v333 v361 = addf v333 (entV v361) := rfl

end Blocks

/-! ## At the ideal instance, at an index -/

/-- A slot's log-probabilities at (row `p`, codeword `v`): the log-softmax of the logits of the row's slot. -/
private theorem LP_apply (off : Nat) (k : Fin 8) (hk : off = k.val * 64) (h : S512x512.Slices ![0, off] S512x64)
    (proto : FVec Ideal S512x512 .f32) (cbt : FVec Ideal S64x1024 .bf16) (c2 : FVec Ideal S1024 .f32)
    (p : Fin 512) (v : Fin 1024) :
    LP off h proto cbt c2 (ix2 p v)
      = VQ.logp (VQ.logit (fun d => proto (ix2 p (VQ.col k d))) (fun u d => cbt (ix2 d u)) (fun u => c2 (ix1 u))) v := by
  unfold LP VQ.logp
  rw [logpV_apply, lseV_apply, rowSumV_apply, shiftV_apply]
  simp only [exp_apply, shiftV_apply, slice_apply off k hk]

/-- The log-probability accumulator's step at row `p`. -/
private theorem acc_apply (acc : FVec Ideal S512x1 .f32) (lp : FVec Ideal S512x1024 .f32) (w : Vec Ideal S512x1 .i32) (p : Fin 512) :
    (addf acc (pickV lp (maskV (colV (F := Ideal) w)))) (ix2 p (0 : Fin 1))
      = acc (ix2 p (0 : Fin 1)) + VQ.pick (fun v => lp (ix2 p v)) (w (ix2 p (0 : Fin 1))) := by
  rw [addf_apply, pickV_maskV_apply, show colV (F := Ideal) w = w from shapeCast_self _ _]

/-- The entropy accumulator's step at row `p`. -/
private theorem ent_apply (acc : FVec Ideal S512x1 .f32) (lp : FVec Ideal S512x1024 .f32) (p : Fin 512) :
    (addf acc (entV lp)) (ix2 p (0 : Fin 1))
      = acc (ix2 p (0 : Fin 1)) + -(∑ v : Fin 1024, Ideal.exp (lp (ix2 p v)) * lp (ix2 p v)) := by
  rw [addf_apply, entV_apply]

/-- Column `c` of the block of words, read through its own 512 × 1 rectangle, at row `p`. -/
private theorem ld_col (c : Nat) (hc : c < 8) (inb : ∀ a, (![0, c] : Fin 2 → Nat) a + S512x1.size a ≤ S512x8.size a)
    (x1 : Vec Ideal S512x8 .i32) (p : Fin 512) :
    (View.ld x1 (Rect.unit (s := S512x8) ![0, c] S512x1.size inb) : Vec Ideal S512x1 .i32) (ix2 p (0 : Fin 1))
      = x1 (ix2 p (⟨c, hc⟩ : Fin 8)) := by
  refine congrArg x1 (Shape.idx_ext₂ ?_ ?_)
  · show 0 + 1 * p.val = p.val
    omega
  · show c + 1 * 0 = c
    omega

/-- The codebook block as the kernel carries it (cast to its own shape, then to the narrower type: both keep the
    values). -/
private theorem pay4_apply (v12 : Vec Ideal S64x1024 .f32) (i : S64x1024.Idx) : k0_pay4 (F := Ideal) v12 i = v12 i := by
  show (shapeCast S64x1024 v12 shapeCasts_S64x1024_S64x1024) i = v12 i
  rw [shapeCast_self]

/-- The squared norms as the kernel carries them. -/
private theorem pay5_eq (v15 : Vec Ideal S1024 .f32) : k0_pay5 (F := Ideal) v15 = v15 := shapeCast_self _ _

/-- The two accumulators start at zero. -/
private theorem pay6_apply (i : S512x1.Idx) : k0_pay6 (F := Ideal) i = 0 := Ideal.ofBits_zero_f32
private theorem pay7_apply (i : S512x1.Idx) : k0_pay7 (F := Ideal) i = 0 := Ideal.ofBits_zero_f32

private theorem hz2 : (![0, 0] : Fin 2 → Nat) = fun _ => 0 := funext fun a => by fin_cases a <;> rfl
private theorem hz1 : (![0] : Fin 1 → Nat) = fun _ => 0 := funext fun a => by fin_cases a; rfl

/-- Slot `k`'s log-probabilities of the row `p` of the input blocks, as the specification's. -/
private theorem LP_row (off : Nat) (k : Fin 8) (hk : off = k.val * 64) (h : S512x512.Slices ![0, off] S512x64)
    (x0 : Vec Ideal S512x512 .f32) (x2 : Vec Ideal S512x512 .f32) (x3 : Vec Ideal S512 .f32)
    (x4 : Vec Ideal S64x1024 .f32) (x5 : Vec Ideal S1024 .f32) (p : Fin 512) :
    (fun v => LP off h (k0_pay3 x0 x2 x3) (k0_pay4 x4) (k0_pay5 x5) (ix2 p v))
      = VQ.logp (VQ.logit (VQ.slot (fun h => x0 (ix2 p h)) (fun o h => x2 (ix2 h o)) (fun o => x3 (ix1 o)) k)
          (fun u d => x4 (ix2 d u)) (fun u => x5 (ix1 u))) := by
  funext v
  rw [LP_apply off k hk]
  simp only [pay3_apply, pay4_apply, pay5_eq]
  rfl

/-- The first output block (512 × 1) at row `p`: the row's eight log-probability terms added onto zero in order.
    The blocks: `x0` the rows' inputs, `x1` the rows' eight given words, `x2` the transposed weights, `x3` the bias,
    `x4` the transposed codebook, `x5` the codewords' squared norms. -/
theorem out6_apply (x0 : Vec Ideal S512x512 .f32) (x1 : Vec Ideal S512x8 .i32) (x2 : Vec Ideal S512x512 .f32)
    (x3 : Vec Ideal S512 .f32) (x4 : Vec Ideal S64x1024 .f32) (x5 : Vec Ideal S1024 .f32) (p : Fin 512) :
    out0_6 (F := Ideal) x0 x1 x2 x3 x4 x5 (ix2 p (0 : Fin 1))
      = VQ.acc8 (VQ.lpTerm (fun h => x0 (ix2 p h)) (fun o h => x2 (ix2 h o)) (fun o => x3 (ix1 o))
          (fun u d => x4 (ix2 d u)) (fun u => x5 (ix1 u)) (fun k => x1 (ix2 p k))) := by
  unfold out0_6
  rw [View.canon_unit_zero hz2]
  simp only [View.ld_unit_zero (S := S512x512) hz2, View.ld_unit_zero (S := S512) hz1,
    View.ld_unit_zero (S := S64x1024) hz2, View.ld_unit_zero (S := S1024) hz1]
  rw [acc7_eq, acc_apply, acc6_eq, acc_apply, acc5_eq, acc_apply, acc4_eq, acc_apply, acc3_eq, acc_apply,
    acc2_eq, acc_apply, acc1_eq, acc_apply, acc0_eq, acc_apply, pay6_apply]
  rw [lp0_eq, lp1_eq, lp2_eq, lp3_eq, lp4_eq, lp5_eq, lp6_eq, lp7_eq]
  rw [LP_row 0 0 rfl, LP_row 64 1 rfl, LP_row 128 2 rfl, LP_row 192 3 rfl, LP_row 256 4 rfl, LP_row 320 5 rfl,
    LP_row 384 6 rfl, LP_row 448 7 rfl]
  rw [ld_col 0 (by decide), ld_col 1 (by decide), ld_col 2 (by decide), ld_col 3 (by decide), ld_col 4 (by decide),
    ld_col 5 (by decide), ld_col 6 (by decide), ld_col 7 (by decide)]
  rfl

/-- The same at one codeword. -/
private theorem LP_row_apply (off : Nat) (k : Fin 8) (hk : off = k.val * 64) (h : S512x512.Slices ![0, off] S512x64)
    (x0 : Vec Ideal S512x512 .f32) (x2 : Vec Ideal S512x512 .f32) (x3 : Vec Ideal S512 .f32)
    (x4 : Vec Ideal S64x1024 .f32) (x5 : Vec Ideal S1024 .f32) (p : Fin 512) (v : Fin 1024) :
    LP off h (k0_pay3 x0 x2 x3) (k0_pay4 x4) (k0_pay5 x5) (ix2 p v)
      = VQ.logp (VQ.logit (VQ.slot (fun h => x0 (ix2 p h)) (fun o h => x2 (ix2 h o)) (fun o => x3 (ix1 o)) k)
          (fun u d => x4 (ix2 d u)) (fun u => x5 (ix1 u))) v :=
  congrFun (LP_row off k hk h x0 x2 x3 x4 x5 p) v

/-- The second output block at row `p`: the row's eight entropy terms added onto zero in order. -/
theorem out7_apply (x0 : Vec Ideal S512x512 .f32) (x1 : Vec Ideal S512x8 .i32) (x2 : Vec Ideal S512x512 .f32)
    (x3 : Vec Ideal S512 .f32) (x4 : Vec Ideal S64x1024 .f32) (x5 : Vec Ideal S1024 .f32) (p : Fin 512) :
    out0_7 (F := Ideal) x0 x1 x2 x3 x4 x5 (ix2 p (0 : Fin 1))
      = VQ.acc8 (VQ.entTerm (fun h => x0 (ix2 p h)) (fun o h => x2 (ix2 h o)) (fun o => x3 (ix1 o))
          (fun u d => x4 (ix2 d u)) (fun u => x5 (ix1 u))) := by
  unfold out0_7
  rw [View.canon_unit_zero hz2]
  simp only [View.ld_unit_zero (S := S512x512) hz2, View.ld_unit_zero (S := S512) hz1,
    View.ld_unit_zero (S := S64x1024) hz2, View.ld_unit_zero (S := S1024) hz1]
  rw [ent7_eq, ent_apply, ent6_eq, ent_apply, ent5_eq, ent_apply, ent4_eq, ent_apply, ent3_eq, ent_apply,
    ent2_eq, ent_apply, ent1_eq, ent_apply, ent0_eq, ent_apply, pay7_apply]
  rw [lp0_eq, lp1_eq, lp2_eq, lp3_eq, lp4_eq, lp5_eq, lp6_eq, lp7_eq]
  simp only [LP_row_apply 0 0 rfl, LP_row_apply 64 1 rfl, LP_row_apply 128 2 rfl, LP_row_apply 192 3 rfl,
    LP_row_apply 256 4 rfl, LP_row_apply 320 5 rfl, LP_row_apply 384 6 rfl, LP_row_apply 448 7 rfl]
  rfl

end Cert.KernelIdeal.KBody
end
-- ==== Proof.KHost.lean ====
/-
  What the region finds in the arrays its windows stage, read at an index in terms of the program's arguments:
  the inputs flattened to 8192 rows, the given words flattened likewise, the weight matrix transposed, the
  codebook transposed, and the codewords' squared norms (the host computes these before the region).
-/
import proofs.«421140_j13005160973101_2_alg».proof.Proof.Gen.KernelIdeal.Frame
import proofs.«421140_j13005160973101_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KHost

open Idealize.ShloMosaic Idealize.ShloMosaic.ValueIdx Idealize.ShloMosaic.TcCoe Idealize.SL.Sem
open Cert.KernelIdeal Cert.KernelIdeal.Gen

/-- Row `r` of the flattened arrays is (b, t, n) = (r / 512, r / 8 mod 64, r mod 8) of the rank-4 arguments. -/
abbrev rb (r : Fin 8192) : Fin 16 := ⟨r.val / 512, by have := r.isLt; omega⟩
abbrev rt (r : Fin 8192) : Fin 64 := ⟨r.val / 8 % 64, by omega⟩
abbrev rn (r : Fin 8192) : Fin 8 := ⟨r.val % 8, by omega⟩

variable (m : (ℓ : Loc nD τ sig) → Buf (Elt Ideal) ℓ)

/-- The flattened inputs: entry (r, h) is the argument's entry (b, t, n, h). -/
theorem V_main_v0_apply (c : Dev nD) (r : Fin 8192) (h : Fin 512) :
    V (F := Ideal) m c main_v0 (ix2 r h) = m ((c : Thread nD τ).loc main_arg0) (ix4 (rb r) (rt r) (rn r) h) := by
  -- the flattening is a shape cast of the argument as launched
  have e : (V (F := Ideal) m c main_v0 : S8192x512.Idx → EReal) =
      shapeCast S8192x512 (m ((c : Thread nD τ).loc main_arg0) : S16x64x8x512.Idx → EReal)
        shapeCasts_S16x64x8x512_S8192x512 := by
    show StableHlo.after hostOps0 (fun b => m (c, b)) (Proc.devRef .tc main_v0) = _
    after_results
    rfl
  rw [e]
  -- both indices sit at row-major position r * 512 + h, since r = (b * 64 + t) * 8 + n
  refine shapeCast_apply _ _ _ _ ?_
  show (S16x64x8x512.rowMajor (ix4 (rb r) (rt r) (rn r) h)).val = (S8192x512.rowMajor (ix2 r h)).val
  rewrite [Shape.rowMajor_val_four, Shape.rowMajor_val_two]
  have hr : r.val < 8192 := r.isLt
  show ((r.val / 512 * 64 + r.val / 8 % 64) * 8 + r.val % 8) * 512 + h.val = r.val * 512 + h.val
  omega

/-- The flattened given words: entry (r, k) is the argument's entry (b, t, n, k). -/
theorem V_main_v1_apply (c : Dev nD) (r : Fin 8192) (k : Fin 8) :
    V (F := Ideal) m c main_v1 (ix2 r k) = m ((c : Thread nD τ).loc main_arg1) (ix4 (rb r) (rt r) (rn r) k) := by
  have e : (V (F := Ideal) m c main_v1 : S8192x8.Idx → BitVec 32) =
      shapeCast S8192x8 (m ((c : Thread nD τ).loc main_arg1) : S16x64x8x8.Idx → BitVec 32)
        shapeCasts_S16x64x8x8_S8192x8 := by
    show StableHlo.after hostOps0 (fun b => m (c, b)) (Proc.devRef .tc main_v1) = _
    after_results
    rfl
  rw [e]
  -- both indices sit at row-major position r * 8 + k
  refine shapeCast_apply _ _ _ _ ?_
  show (S16x64x8x8.rowMajor (ix4 (rb r) (rt r) (rn r) k)).val = (S8192x8.rowMajor (ix2 r k)).val
  rewrite [Shape.rowMajor_val_four, Shape.rowMajor_val_two]
  have hr : r.val < 8192 := r.isLt
  show ((r.val / 512 * 64 + r.val / 8 % 64) * 8 + r.val % 8) * 8 + k.val = r.val * 8 + k.val
  omega

/-- The transposed weights: entry (h, o) is the weight matrix's entry (o, h). -/
theorem V_main_v2_apply (c : Dev nD) (h o : Fin 512) :
    V (F := Ideal) m c main_v2 (ix2 h o) = m ((c : Thread nD τ).loc main_arg2) (ix2 o h) := by
  have e : (V (F := Ideal) m c main_v2 : S512x512.Idx → EReal) =
      transpose S512x512 [1, 0] (m ((c : Thread nD τ).loc main_arg2) : S512x512.Idx → EReal)
        transposes_S512x512_S512x512_1_0 := by
    show StableHlo.after hostOps0 (fun b => m (c, b)) (Proc.devRef .tc main_v2) = _
    after_results
  rw [e]
  -- result axis 0 is source axis 1 and result axis 1 is source axis 0
  exact transpose_apply _ _ _ _ (ix2 o h) (fun b => match b with | ⟨0, _⟩ => rfl | ⟨1, _⟩ => rfl)

/-- The transposed codebook: entry (d, u) is the codebook's entry (u, d). -/
theorem V_main_v3_apply (c : Dev nD) (d : Fin 64) (u : Fin 1024) :
    V (F := Ideal) m c main_v3 (ix2 d u) = m ((c : Thread nD τ).loc main_arg4) (ix2 u d) := by
  have e : (V (F := Ideal) m c main_v3 : S64x1024.Idx → EReal) =
      transpose S64x1024 [1, 0] (m ((c : Thread nD τ).loc main_arg4) : S1024x64.Idx → EReal)
        transposes_S1024x64_S64x1024_1_0 := by
    show StableHlo.after hostOps0 (fun b => m (c, b)) (Proc.devRef .tc main_v3) = _
    after_results
  rw [e]
  exact transpose_apply _ _ _ _ (ix2 u d) (fun b => match b with | ⟨0, _⟩ => rfl | ⟨1, _⟩ => rfl)

/-- Squaring a [1024, 64] array entrywise and summing each row from the f32 zero gives, at row u, the sum over d of
    the squared entries (u, d). -/
private theorem rowSumSq_apply (x : FVec Ideal S1024x64 .f32) (u : Fin 1024) :
    Host.reduceAdd (F := Ideal) (mulf x x) (constant (F := Ideal) S_ .f32 0x00000000#32)
        reducesTo_S1024x64_S1024_d1 h_S_ (ix1 u)
      = VQ.sqn (fun u' d => x (ix2 u' d)) u := by
  have hR : S1024x64.Reduces [1] S1024 := by decide
  simp only [Host.reduceAdd, Ideal.hostReduceAdd_def]
  rw [Ideal.hostReduceAdd_single reducesTo_S1024x64_S1024_d1 hR]
  -- the sum starts from the f32 zero, which is the extended real 0
  rw [show (constant (F := Ideal) S_ .f32 0x00000000#32) (Shape.Idx.first h_S_) = 0 from Ideal.ofBits_zero_f32, zero_add]
  -- term k of the row sum is the square of the entry (u, k)
  show ∑ k : Fin 64, mulf x x (hR.lift (ix1 u) k) = ∑ d : Fin 64, x (ix2 u d) * x (ix2 u d)
  refine Finset.sum_congr rfl fun k _ => ?_
  have hk : hR.lift (ix1 u) k = ix2 u k :=
    funext fun a => Fin.ext (by match a with | ⟨0, _⟩ => rfl | ⟨1, _⟩ => rfl)
  rw [hk, mulf_apply]

/-- The codewords' squared norms: entry u is the sum over d of the codebook's entry (u, d) squared. -/
theorem V_main_v5_apply (c : Dev nD) (u : Fin 1024) :
    V (F := Ideal) m c main_v5 (ix1 u) = VQ.sqn (fun u' d => m ((c : Thread nD τ).loc main_arg4) (ix2 u' d)) u := by
  -- the host squares the codebook entrywise and sums each row from zero
  have e : (V (F := Ideal) m c main_v5 : S1024.Idx → EReal) =
      Host.reduceAdd (F := Ideal)
        (mulf (m ((c : Thread nD τ).loc main_arg4) : FVec Ideal S1024x64 .f32) (m ((c : Thread nD τ).loc main_arg4)))
        (constant (F := Ideal) S_ .f32 0x00000000#32) reducesTo_S1024x64_S1024_d1 h_S_ := by
    show StableHlo.after hostOps0 (fun b => m (c, b)) (Proc.devRef .tc main_v5) = _
    after_results
  rw [e]
  exact rowSumSq_apply _ u

end Cert.KernelIdeal.KHost

end
-- ==== Proof.KBlocks.lean ====
/-
  From blocks to arrays. The region runs the body at 16 grid points; point t stages rows 512·t … 512·t + 511 of the
  flattened inputs and of the given words, and the whole transposed weights, bias, transposed codebook and squared
  norms; what it writes back into the two 8192 × 1 output arrays at row 512·t + p is the body's result at row p of its
  blocks. So each output array, after the region, holds at row r the row quantity of row r of the arguments.
-/
import proofs.«421140_j13005160973101_2_alg».proof.Proof.KBody
import proofs.«421140_j13005160973101_2_alg».proof.Proof.KHost
import Idealize.ShloMosaic.Lib.Pipeline.Value

set_option maxRecDepth 16384

noncomputable section

open scoped BigOperators

namespace Cert.KernelIdeal.KBlocks

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.KHost

variable (m : (ℓ : Loc nD τ sig) → Buf (Elt Ideal) ℓ)

/-! ## The arguments by rows -/

/-- Row `r` of the inputs. -/
def xrow (c : Dev nD) (r : Fin 8192) : Fin 512 → EReal :=
  fun h => m ((c : Thread nD τ).loc main_arg0) (ix4 (rb r) (rt r) (rn r) h)
/-- The weight matrix, output feature first. -/
def wmat (c : Dev nD) : Fin 512 → Fin 512 → EReal := fun o h => m ((c : Thread nD τ).loc main_arg2) (ix2 o h)
/-- The bias. -/
def bias (c : Dev nD) : Fin 512 → EReal := fun o => m ((c : Thread nD τ).loc main_arg3) (ix1 o)
/-- The codebook, codeword first. -/
def cbk (c : Dev nD) : Fin 1024 → Fin 64 → EReal := fun u d => m ((c : Thread nD τ).loc main_arg4) (ix2 u d)
/-- Row `r`'s eight given words. -/
def crow (c : Dev nD) (r : Fin 8192) : Fin 8 → BitVec 32 :=
  fun k => m ((c : Thread nD τ).loc main_arg1) (ix4 (rb r) (rt r) (rn r) k)

/-- Row `r`'s log-probability result as the kernel adds it up. -/
def lpOf (c : Dev nD) (r : Fin 8192) : EReal :=
  VQ.acc8 (VQ.lpTerm (xrow m c r) (wmat m c) (bias m c) (cbk m c) (VQ.sqn (cbk m c)) (crow m c r))
/-- Row `r`'s entropy result as the kernel adds it up. -/
def entOf (c : Dev nD) (r : Fin 8192) : EReal :=
  VQ.acc8 (VQ.entTerm (xrow m c r) (wmat m c) (bias m c) (cbk m c) (VQ.sqn (cbk m c)))

/-- The first output array after the region. -/
def G6 (c : Dev nD) : S8192x1.Idx → EReal := fun i => lpOf m c ⟨(i 0).val, idx2_lt0 i⟩
/-- The second output array after the region. -/
def G7 (c : Dev nD) : S8192x1.Idx → EReal := fun i => entOf m c ⟨(i 0).val, idx2_lt0 i⟩

/-! ## The index maps, decided over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 16 := by
  have h : t.val < cfg0.N := t.isLt
  have hN : cfg0.N = 16 := N_0
  omega

/-- The row of the flattened arrays that row `p` of point `t`'s block is. -/
abbrev rowAt (t : Fin cfg0.N) (p : Fin 512) : Fin 8192 := ⟨t.val * 512 + p.val, by have := t_lt t; have := p.isLt; omega⟩

/-! ## The input blocks at a point, read at an index -/

theorem iblk0_apply (c : Dev nD) (t : Fin cfg0.N) (p h : Fin 512) :
    iblk m c 0 t (ix2 p h) = xrow m c (rowAt t p) h := by
  obtain ⟨e0, e1, -⟩ := idx_facts t
  show V m c main_v0 (((cfg0.win 0).blk t).view.emb (ix2 p h)) = _
  have e : ((cfg0.win 0).blk t).view.emb (ix2 p h) = ix2 (rowAt t p) h := by
    funext a; apply Fin.ext
    match a with
    | ⟨0, _⟩ => show win0_0.index t (0 : Fin 2) * 512 + 1 * p.val = t.val * 512 + p.val; rw [e0]; omega
    | ⟨1, _⟩ => show win0_0.index t (1 : Fin 2) * 512 + 1 * h.val = h.val; rw [e1]; omega
  rw [e, V_main_v0_apply]
  rfl

theorem iblk1_apply (c : Dev nD) (t : Fin cfg0.N) (p : Fin 512) (k : Fin 8) :
    iblk m c 1 t (ix2 p k) = crow m c (rowAt t p) k := by
  obtain ⟨-, -, e0, e1, -⟩ := idx_facts t
  show V m c main_v1 (((cfg0.win 1).blk t).view.emb (ix2 p k)) = _
  have e : ((cfg0.win 1).blk t).view.emb (ix2 p k) = ix2 (rowAt t p) k := by
    funext a; apply Fin.ext
    match a with
    | ⟨0, _⟩ => show win0_1.index t (0 : Fin 2) * 512 + 1 * p.val = t.val * 512 + p.val; rw [e0]; omega
    | ⟨1, _⟩ => show win0_1.index t (1 : Fin 2) * 8 + 1 * k.val = k.val; rw [e1]; omega
  rw [e, V_main_v1_apply]
  rfl

theorem iblk2_apply (c : Dev nD) (t : Fin cfg0.N) (h o : Fin 512) :
    iblk m c 2 t (ix2 h o) = wmat m c o h := by
  obtain ⟨-, -, -, -, e0, e1, -⟩ := idx_facts t
  show V m c main_v2 (((cfg0.win 2).blk t).view.emb (ix2 h o)) = _
  have e : ((cfg0.win 2).blk t).view.emb (ix2 h o) = ix2 h o := by
    funext a; apply Fin.ext
    match a with
    | ⟨0, _⟩ => show win0_2.index t (0 : Fin 2) * 512 + 1 * h.val = h.val; rw [e0]; omega
    | ⟨1, _⟩ => show win0_2.index t (1 : Fin 2) * 512 + 1 * o.val = o.val; rw [e1]; omega
  rw [e, V_main_v2_apply]
  rfl

theorem iblk3_apply (c : Dev nD) (t : Fin cfg0.N) (o : Fin 512) :
    iblk m c 3 t (ix1 o) = bias m c o := by
  obtain ⟨-, -, -, -, -, -, e0, -⟩ := idx_facts t
  show V m c main_arg3 (((cfg0.win 3).blk t).view.emb (ix1 o)) = _
  have e : ((cfg0.win 3).blk t).view.emb (ix1 o) = ix1 o := by
    funext a; apply Fin.ext
    match a with
    | ⟨0, _⟩ => show win0_3.index t (0 : Fin 1) * 512 + 1 * o.val = o.val; rw [e0]; omega
  rw [e, V_main_arg3]
  rfl

theorem iblk4_apply (c : Dev nD) (t : Fin cfg0.N) (d : Fin 64) (u : Fin 1024) :
    iblk m c 4 t (ix2 d u) = cbk m c u d := by
  obtain ⟨-, -, -, -, -, -, -, e0, e1, -⟩ := idx_facts t
  show V m c main_v3 (((cfg0.win 4).blk t).view.emb (ix2 d u)) = _
  have e : ((cfg0.win 4).blk t).view.emb (ix2 d u) = ix2 d u := by
    funext a; apply Fin.ext
    match a with
    | ⟨0, _⟩ => show win0_4.index t (0 : Fin 2) * 64 + 1 * d.val = d.val; rw [e0]; omega
    | ⟨1, _⟩ => show win0_4.index t (1 : Fin 2) * 1024 + 1 * u.val = u.val; rw [e1]; omega
  rw [e, V_main_v3_apply]
  rfl

theorem iblk5_apply (c : Dev nD) (t : Fin cfg0.N) (u : Fin 1024) :
    iblk m c 5 t (ix1 u) = VQ.sqn (cbk m c) u := by
  obtain ⟨-, -, -, -, -, -, -, -, -, e0, -⟩ := idx_facts t
  show V m c main_v5 (((cfg0.win 5).blk t).view.emb (ix1 u)) = _
  have e : ((cfg0.win 5).blk t).view.emb (ix1 u) = ix1 u := by
    funext a; apply Fin.ext
    match a with
    | ⟨0, _⟩ => show win0_5.index t (0 : Fin 1) * 1024 + 1 * u.val = u.val; rw [e0]; omega
  rw [e, V_main_v5_apply]
  rfl

/-! ## What point `t` writes back -/

theorem flushed6_eq (c : Dev nD) (t : Fin cfg0.N) :
    (dats m 0 c).flushed 6 t = ((cfg0.win 6).blk t).view.read (Elt Ideal) (G6 m c) := by
  obtain ⟨-, -, -, -, -, -, -, -, -, -, e0, e1, -⟩ := idx_facts t
  show (cfg0.win 6).cut (grid0.coords t) ((dats m 0 c).after 6 t) = _
  rw [after0_6]
  funext j
  obtain ⟨p, q, rfl⟩ : ∃ (p : Fin 512) (q : Fin 1), j = ix2 p q := ⟨j 0, j 1, eq_ix2 j⟩
  obtain rfl : q = 0 := Subsingleton.elim _ _
  show out0_6 (iblk m c 0 t) (iblk m c 1 t) (iblk m c 2 t) (iblk m c 3 t) (iblk m c 4 t) (iblk m c 5 t) (ix2 p (0 : Fin 1))
    = G6 m c (((cfg0.win 6).blk t).view.emb (ix2 p (0 : Fin 1)))
  refine (KBody.out6_apply (iblk m c 0 t) (iblk m c 1 t) (iblk m c 2 t) (iblk m c 3 t) (iblk m c 4 t) (iblk m c 5 t) p).trans ?_
  have hx : (fun h => iblk m c 0 t (ix2 p h)) = xrow m c (rowAt t p) := funext fun h => iblk0_apply m c t p h
  have hw : (fun o h => iblk m c 2 t (ix2 h o)) = wmat m c := funext fun o => funext fun h => iblk2_apply m c t h o
  have hb : (fun o => iblk m c 3 t (ix1 o)) = bias m c := funext fun o => iblk3_apply m c t o
  have hcb : (fun u d => iblk m c 4 t (ix2 d u)) = cbk m c := funext fun u => funext fun d => iblk4_apply m c t d u
  have hc2 : (fun u => iblk m c 5 t (ix1 u)) = VQ.sqn (cbk m c) := funext fun u => iblk5_apply m c t u
  have hcm : (fun k => iblk m c 1 t (ix2 p k)) = crow m c (rowAt t p) := funext fun k => iblk1_apply m c t p k
  rw [hx, hw, hb, hcb, hc2, hcm]
  show lpOf m c (rowAt t p) = lpOf m c _
  refine congrArg (lpOf m c) (Fin.ext ?_)
  show t.val * 512 + p.val = win0_6.index t (0 : Fin 2) * 512 + 1 * p.val
  rw [e0]; omega

theorem flushed7_eq (c : Dev nD) (t : Fin cfg0.N) :
    (dats m 0 c).flushed 7 t = ((cfg0.win 7).blk t).view.read (Elt Ideal) (G7 m c) := by
  obtain ⟨-, -, -, -, -, -, -, -, -, -, -, -, e0, e1⟩ := idx_facts t
  show (cfg0.win 7).cut (grid0.coords t) ((dats m 0 c).after 7 t) = _
  rw [after0_7]
  funext j
  obtain ⟨p, q, rfl⟩ : ∃ (p : Fin 512) (q : Fin 1), j = ix2 p q := ⟨j 0, j 1, eq_ix2 j⟩
  obtain rfl : q = 0 := Subsingleton.elim _ _
  show out0_7 (iblk m c 0 t) (iblk m c 1 t) (iblk m c 2 t) (iblk m c 3 t) (iblk m c 4 t) (iblk m c 5 t) (ix2 p (0 : Fin 1))
    = G7 m c (((cfg0.win 7).blk t).view.emb (ix2 p (0 : Fin 1)))
  refine (KBody.out7_apply (iblk m c 0 t) (iblk m c 1 t) (iblk m c 2 t) (iblk m c 3 t) (iblk m c 4 t) (iblk m c 5 t) p).trans ?_
  have hx : (fun h => iblk m c 0 t (ix2 p h)) = xrow m c (rowAt t p) := funext fun h => iblk0_apply m c t p h
  have hw : (fun o h => iblk m c 2 t (ix2 h o)) = wmat m c := funext fun o => funext fun h => iblk2_apply m c t h o
  have hb : (fun o => iblk m c 3 t (ix1 o)) = bias m c := funext fun o => iblk3_apply m c t o
  have hcb : (fun u d => iblk m c 4 t (ix2 d u)) = cbk m c := funext fun u => funext fun d => iblk4_apply m c t d u
  have hc2 : (fun u => iblk m c 5 t (ix1 u)) = VQ.sqn (cbk m c) := funext fun u => iblk5_apply m c t u
  rw [hx, hw, hb, hcb, hc2]
  show entOf m c (rowAt t p) = entOf m c _
  refine congrArg (entOf m c) (Fin.ext ?_)
  show t.val * 512 + p.val = win0_7.index t (0 : Fin 2) * 512 + 1 * p.val
  rw [e0]; omega

/-! ## The blocks cover the arrays -/

theorem mem_blk6 (t : Fin cfg0.N) (i : S8192x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v6_0).slice (win0_6.rect t)).set ↔ _
  rw [View.set_slice_whole, Rect.mem_set_unit]
  exact Iff.rfl

theorem mem_blk7 (t : Fin cfg0.N) (i : S8192x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v6_1).slice (win0_7.rect t)).set ↔ _
  rw [View.set_slice_whole, Rect.mem_set_unit]
  exact Iff.rfl

/-- Row r lies in the block of point r / 512. -/
theorem cover6 (i : S8192x1.Idx) : ∃ t : Fin cfg0.N, (cfg0.win 6).flush t = true ∧ i ∈ ((cfg0.win 6).blk t).view.set := by
  have hi0 : (i 0).val < 8192 := idx2_lt0 i
  have hi1 : (i 1).val < 1 := idx2_lt1 i
  have hN : cfg0.N = 16 := N_0
  let t : Fin cfg0.N := ⟨(i 0).val / 512, by rw [hN]; omega⟩
  obtain ⟨-, -, -, -, -, -, -, -, -, -, e0, e1, -⟩ := idx_facts t
  refine ⟨t, flush0_6 t, ?_⟩
  rw [mem_blk6]
  intro a
  match a with
  | ⟨0, _⟩ =>
    show win0_6.index t (0 : Fin 2) * 512 ≤ (i 0).val ∧ (i 0).val < win0_6.index t (0 : Fin 2) * 512 + 512
    rw [e0]; show (i 0).val / 512 * 512 ≤ (i 0).val ∧ (i 0).val < (i 0).val / 512 * 512 + 512; omega
  | ⟨1, _⟩ =>
    show win0_6.index t (1 : Fin 2) * 1 ≤ (i 1).val ∧ (i 1).val < win0_6.index t (1 : Fin 2) * 1 + 1
    rw [e1]; omega

theorem cover7 (i : S8192x1.Idx) : ∃ t : Fin cfg0.N, (cfg0.win 7).flush t = true ∧ i ∈ ((cfg0.win 7).blk t).view.set := by
  have hi0 : (i 0).val < 8192 := idx2_lt0 i
  have hi1 : (i 1).val < 1 := idx2_lt1 i
  have hN : cfg0.N = 16 := N_0
  let t : Fin cfg0.N := ⟨(i 0).val / 512, by rw [hN]; omega⟩
  obtain ⟨-, -, -, -, -, -, -, -, -, -, -, -, e0, e1⟩ := idx_facts t
  refine ⟨t, flush0_7 t, ?_⟩
  rw [mem_blk7]
  intro a
  match a with
  | ⟨0, _⟩ =>
    show win0_7.index t (0 : Fin 2) * 512 ≤ (i 0).val ∧ (i 0).val < win0_7.index t (0 : Fin 2) * 512 + 512
    rw [e0]; show (i 0).val / 512 * 512 ≤ (i 0).val ∧ (i 0).val < (i 0).val / 512 * 512 + 512; omega
  | ⟨1, _⟩ =>
    show win0_7.index t (1 : Fin 2) * 1 ≤ (i 1).val ∧ (i 1).val < win0_7.index t (1 : Fin 2) * 1 + 1
    rw [e1]; omega

/-! ## The two output arrays after the region -/

theorem final6 (c : Dev nD) : (dats m 0 c).arrAt 6 cfg0.N = G6 m c :=
  (dats m 0 c).arrAt_eq_of_cover 6 (G6 m c) (fun t _ => flushed6_eq m c t) cover6

theorem final7 (c : Dev nD) : (dats m 0 c).arrAt 7 cfg0.N = G7 m c :=
  (dats m 0 c).arrAt_eq_of_cover 7 (G7 m c) (fun t _ => flushed7_eq m c t) cover7

end Cert.KernelIdeal.KBlocks

end
-- ==== Proof.KTail.lean ====
/-
  The kernel program's three results. After the region the host reshapes the two 8192 × 1 output arrays to
  16 × 64 × 8, and forms the third result from the arguments alone: the given words (a negative word moved up by
  1024) select codebook rows, and the selected rows are reshaped to 8192 × 512. So the program ends with its
  results at these three functions of its arguments, and its arguments unchanged.
-/
import proofs.«421140_j13005160973101_2_alg».proof.Proof.Gen.KernelIdeal.Frame
import Idealize.ShloMosaic.Lib.StableHlo.Run
import Idealize.ShloMosaic.PureOps.Ideal

set_option maxRecDepth 16384

noncomputable section

namespace Cert.KernelIdeal.KTail

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The codebook rows the given words select, reshaped: the first result. The word array `cm` and the codebook
    `cb` are the two arguments it depends on. -/
def hardOf (cm : IVec S16x64x8x8 32) (cb : FVec Ideal S1024x64 .f32) : FVec Ideal S8192x512 .f32 :=
  shapeCast S8192x512
    (Host.gather gather_S1024x64_S16x64x8x8x1_S16x64x8x8x64_4_0_n_n_0_4_164 cb
      (broadcastInDim S16x64x8x8x1 ![0, 1, 2, 3] bcast_S16x64x8x8_S16x64x8x8x1_0_1_2_3
        (select (cmpi .slt cm (broadcastInDim S16x64x8x8 ![] bcast_S_S16x64x8x8 (constantI S_ 32 0#32)))
          (addi cm (broadcastInDim S16x64x8x8 ![] bcast_S_S16x64x8x8 (constantI S_ 32 1024#32))) cm)))
    shapeCasts_S16x64x8x8x64_S8192x512

/-- The first result. -/
def K0 (c : Dev nD) : FVec Ideal S8192x512 .f32 :=
  hardOf (m ((c : Thread nD τ).loc main_arg1)) (m ((c : Thread nD τ).loc main_arg4))
/-- A window's array, after the region, holds what the library computes for it. -/
theorem arr6 (c : Dev nD) :
    Pipeline.withArrays (cfgs 0).spec c (V0 m c) (fun w => (dats m 0 c).arrAt w (cfgs 0).N) (Proc.devRef .tc main_v6_0) = (dats m 0 c).arrAt 6 cfg0.N :=
  Pipeline.withArrays_arr spec0 launch0.win.arr_inj c (V0 m c) (fun w => (dats m 0 c).arrAt w (cfgs 0).N) 6

theorem arr7 (c : Dev nD) :
    Pipeline.withArrays (cfgs 0).spec c (V0 m c) (fun w => (dats m 0 c).arrAt w (cfgs 0).N) (Proc.devRef .tc main_v6_1) = (dats m 0 c).arrAt 7 cfg0.N :=
  Pipeline.withArrays_arr spec0 launch0.win.arr_inj c (V0 m c) (fun w => (dats m 0 c).arrAt w (cfgs 0).N) 7

/-- The two arguments the tail reads are no window's array and no host operation before the region wrote them. -/
theorem keep1 (c : Dev nD) :
    Pipeline.withArrays (cfgs 0).spec c (V0 m c) (fun w => (dats m 0 c).arrAt w (cfgs 0).N) (Proc.devRef .tc main_arg1) = m ((c : Thread nD τ).loc main_arg1) :=
  (Pipeline.withArrays_of_ne _ c (V0 m c) _ main_arg1 (by exact (by decide : ∀ w, Pipeline.arrRef spec0 w ≠ main_arg1))).trans
    (V_main_arg1 m c)

theorem keep4 (c : Dev nD) :
    Pipeline.withArrays (cfgs 0).spec c (V0 m c) (fun w => (dats m 0 c).arrAt w (cfgs 0).N) (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)

/-- The second result is the reshaped first output array. -/
theorem tail_v7 (c : Dev nD) :
    Pipeline.afterTail₀ cfgs (dats m) 0 (V0 m) [hostOps1] c main_v7
      = shapeCast S16x64x8 ((dats m 0 c).arrAt 6 cfg0.N) shapeCasts_S8192x1_S16x64x8 := by
  unfold Pipeline.afterTail₀
  show StableHlo.after hostOps1 _ (Proc.devRef .tc main_v7) = _
  after_results
  rw [arr6 m c]
  rfl

/-- The third result is the reshaped second output array. -/
theorem tail_v8 (c : Dev nD) :
    Pipeline.afterTail₀ cfgs (dats m) 0 (V0 m) [hostOps1] c main_v8
      = shapeCast S16x64x8 ((dats m 0 c).arrAt 7 cfg0.N) shapeCasts_S8192x1_S16x64x8 := by
  unfold Pipeline.afterTail₀
  show StableHlo.after hostOps1 _ (Proc.devRef .tc main_v8) = _
  after_results
  rw [arr7 m c]
  rfl

/-- The first result is the selected codebook rows, reshaped. -/
theorem tail_v16 (c : Dev nD) :
    Pipeline.afterTail₀ cfgs (dats m) 0 (V0 m) [hostOps1] c main_v16 = K0 m c := by
  unfold Pipeline.afterTail₀
  show StableHlo.after hostOps1 _ (Proc.devRef .tc main_v16) = _
  after_results
  rw [keep4 m c, keep1 m c]
  rfl

/-- The kernel program's run: its three results named, its arguments unchanged. -/
theorem run : θ_run defs (onTc (τ := τ) (main (F := Ideal))) ⟨m, fun _ => 0, ρ⟩ fun r => ∀ c : Dev nD,
      r.2.mem ((c.tc : Thread nD τ).loc main_v16) = K0 m c
      ∧ r.2.mem ((c.tc : Thread nD τ).loc main_v7) = shapeCast S16x64x8 ((dats m 0 c).arrAt 6 cfg0.N) shapeCasts_S8192x1_S16x64x8
      ∧ r.2.mem ((c.tc : Thread nD τ).loc main_v8) = shapeCast S16x64x8 ((dats m 0 c).arrAt 7 cfg0.N) shapeCasts_S8192x1_S16x64x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v16 (Pipeline.mem_restRefs_of main_v16 (by decide) (by decide))).trans (tail_v16 m c),
      ((h c).2 main_v7 (Pipeline.mem_restRefs_of main_v7 (by decide) (by decide))).trans (tail_v7 m c),
      ((h c).2 main_v8 (Pipeline.mem_restRefs_of main_v8 (by decide) (by decide))).trans (tail_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KTail

end
-- ==== Proof.RefLogp.lean ====
/-
  The reference's log-probabilities read at an index: at (b, t, n, k, v) the stage that the log-softmax returns is the
  specification's log-probability of codeword v for slot k of row (b, t, n) — the row's features from the input row,
  the weight matrix and the bias; the logits against the codebook and its rows' squared norms; shifted by the
  largest logit and normalised.
-/
import proofs.«421140_j13005160973101_2_alg».proof.Proof.RefRead
import proofs.«421140_j13005160973101_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefIdx

open Cert.ReferenceIdeal Cert.ReferenceIdeal.Gen Cert.ReferenceIdeal.ReadP
open Idealize.ShloMosaic Idealize.ShloMosaic.ValueIdx Idealize.ShloMosaic.TcCoe Idealize.SL.Sem Idealize.ShloMosaic.StableHlo

/-! ### Index equations of the feature stage -/

/-- The reshape reads (b, t, n, k, d) at feature 64·k + d of row (b, t, n). -/
private theorem idx_v5_ix (b : Fin 16) (t : Fin 64) (n : Fin 8) (k : Fin 8) (d : Fin 64) :
    idx_main_v5 (ix5 b t n k d) = ix4 b t n (VQ.col k d) := by
  have hb := b.isLt; have ht := t.isLt; have hn := n.isLt; have hk := k.isLt; have hd := d.isLt
  funext a
  apply Fin.ext
  match a with
  | ⟨0, _⟩ => show ((((b.val * 64 + t.val) * 8 + n.val) * 8 + k.val) * 64 + d.val) / 262144 = b.val; omega
  | ⟨1, _⟩ => show ((((b.val * 64 + t.val) * 8 + n.val) * 8 + k.val) * 64 + d.val) / 4096 % 64 = t.val; omega
  | ⟨2, _⟩ => show ((((b.val * 64 + t.val) * 8 + n.val) * 8 + k.val) * 64 + d.val) / 512 % 8 = n.val; omega
  | ⟨3, _⟩ => show ((((b.val * 64 + t.val) * 8 + n.val) * 8 + k.val) * 64 + d.val) % 512 = k.val * 64 + d.val; omega

private theorem lidx_v0_ix (b : Fin 16) (t : Fin 64) (n : Fin 8) (o h : Fin 512) :
    lidx_main_v0 (ix4 b t n o) h = ix4 b t n h :=
  funext fun a => Fin.ext (by match a with | ⟨0, _⟩ => rfl | ⟨1, _⟩ => rfl | ⟨2, _⟩ => rfl | ⟨3, _⟩ => rfl)

private theorem ridx_v0_ix (b : Fin 16) (t : Fin 64) (n : Fin 8) (o h : Fin 512) :
    ridx_main_v0 (ix4 b t n o) h = ix2 o h :=
  funext fun a => Fin.ext (by match a with | ⟨0, _⟩ => rfl | ⟨1, _⟩ => rfl)

private theorem idx_v2_v1_ix (b : Fin 16) (t : Fin 64) (n : Fin 8) (o : Fin 512) :
    idx_main_v1 (idx_main_v2 (ix4 b t n o)) = ix1 o :=
  funext fun a => Fin.ext (by match a with | ⟨0, _⟩ => rfl)

/-- A feature of row (b, t, n): the value before the reshape, at (b, t, n, o). -/
private theorem feat_apply (x0 : (⟨S16x64x8x512, .f32⟩ : BufTy).Contents (Elt Ideal)) (x2 : (⟨S512x512, .f32⟩ : BufTy).Contents (Elt Ideal)) (x3 : (⟨S512, .f32⟩ : BufTy).Contents (Elt Ideal))
    (b : Fin 16) (t : Fin 64) (n : Fin 8) (o : Fin 512) :
    val_main_v4 (F := Ideal) x0 x2 x3 (ix4 b t n o) = VQ.feat (fun h => x0 (ix4 b t n h)) (fun o h => x2 (ix2 o h)) (fun o => x3 (ix1 o)) o := by
  rw [val_main_v4_apply, val_main_v3_apply, val_main_v0_apply, val_main_v2_apply, val_main_v1_apply, idx_v2_v1_ix]
  simp only [lidx_v0_ix, ridx_v0_ix]
  rfl

/-- The slot vector of row (b, t, n), slot k: the reshaped features at (b, t, n, k, d). -/
theorem latent_apply (x0 : (⟨S16x64x8x512, .f32⟩ : BufTy).Contents (Elt Ideal)) (x2 : (⟨S512x512, .f32⟩ : BufTy).Contents (Elt Ideal)) (x3 : (⟨S512, .f32⟩ : BufTy).Contents (Elt Ideal))
    (b : Fin 16) (t : Fin 64) (n : Fin 8) (k : Fin 8) (d : Fin 64) :
    val_main_v5 (F := Ideal) x0 x2 x3 (ix5 b t n k d) = VQ.slot (fun h => x0 (ix4 b t n h)) (fun o h => x2 (ix2 o h)) (fun o => x3 (ix1 o)) k d := by
  rw [val_main_v5_apply, idx_v5_ix, feat_apply]
  rfl

/-! ### Index equations of the logit stage -/

private theorem idx_v12_v8_v7_ix (b : Fin 16) (t : Fin 64) (n : Fin 8) (k : Fin 8) (v : Fin 1024) (d : Fin 64) :
    idx_main_v7 (idx_main_v8 (idx_main_v12 (ix5 b t n k v))) d = ix5 b t n k d :=
  funext fun a => Fin.ext (by match a with | ⟨0, _⟩ => rfl | ⟨1, _⟩ => rfl | ⟨2, _⟩ => rfl | ⟨3, _⟩ => rfl | ⟨4, _⟩ => rfl)

private theorem idx_v13_v11_v10_ix (b : Fin 16) (t : Fin 64) (n : Fin 8) (k : Fin 8) (v : Fin 1024) (d : Fin 64) :
    idx_main_v10 (idx_main_v11 (idx_main_v13 (ix5 b t n k v))) d = ix2 v d :=
  funext fun a => Fin.ext (by match a with | ⟨0, _⟩ => rfl | ⟨1, _⟩ => rfl)

private theorem lidx_v15_ix (b : Fin 16) (t : Fin 64) (n : Fin 8) (k : Fin 8) (v : Fin 1024) (d : Fin 64) :
    lidx_main_v15 (ix5 b t n k v) d = ix5 b t n k d :=
  funext fun a => Fin.ext (by match a with | ⟨0, _⟩ => rfl | ⟨1, _⟩ => rfl | ⟨2, _⟩ => rfl | ⟨3, _⟩ => rfl | ⟨4, _⟩ => rfl)

private theorem ridx_v15_ix (b : Fin 16) (t : Fin 64) (n : Fin 8) (k : Fin 8) (v : Fin 1024) (d : Fin 64) :
    ridx_main_v15 (ix5 b t n k v) d = ix2 v d :=
  funext fun a => Fin.ext (by match a with | ⟨0, _⟩ => rfl | ⟨1, _⟩ => rfl)

/-- The slot vector's squared norm, broadcast along the codewords: the sum starts from the zero word. -/
private theorem sql_apply (x0 : (⟨S16x64x8x512, .f32⟩ : BufTy).Contents (Elt Ideal)) (x2 : (⟨S512x512, .f32⟩ : BufTy).Contents (Elt Ideal)) (x3 : (⟨S512, .f32⟩ : BufTy).Contents (Elt Ideal))
    (b : Fin 16) (t : Fin 64) (n : Fin 8) (k : Fin 8) (v : Fin 1024) :
    val_main_v12 (F := Ideal) x0 x2 x3 (ix5 b t n k v)
      = ∑ d : Fin 64, VQ.slot (fun h => x0 (ix4 b t n h)) (fun o h => x2 (ix2 o h)) (fun o => x3 (ix1 o)) k d
          * VQ.slot (fun h => x0 (ix4 b t n h)) (fun o h => x2 (ix2 o h)) (fun o => x3 (ix1 o)) k d := by
  rw [val_main_v12_apply, val_main_v8_apply, val_main_v7_apply, val_main_cst_apply, Ideal.ofBits_def, Ideal.ofBits_zero_f32, zero_add]
  refine Finset.sum_congr rfl fun d _ => ?_
  rw [val_main_v6_apply, idx_v12_v8_v7_ix, latent_apply, Ideal.mulf_def]

/-- The codewords' squared norms, broadcast along the rows and slots: the sum starts from the zero word. -/
private theorem sqc_apply (x4 : (⟨S1024x64, .f32⟩ : BufTy).Contents (Elt Ideal))
    (b : Fin 16) (t : Fin 64) (n : Fin 8) (k : Fin 8) (v : Fin 1024) :
    val_main_v13 (F := Ideal) x4 (ix5 b t n k v) = VQ.sqn (fun u d => x4 (ix2 u d)) v := by
  rw [val_main_v13_apply, val_main_v11_apply, val_main_v10_apply, val_main_cst_0_apply, Ideal.ofBits_def, Ideal.ofBits_zero_f32, zero_add]
  unfold VQ.sqn
  refine Finset.sum_congr rfl fun d _ => ?_
  rw [val_main_v9_apply, idx_v13_v11_v10_ix, Ideal.mulf_def]

/-- The cross term: the slot vector against codeword v. -/
private theorem cross_apply (x0 : (⟨S16x64x8x512, .f32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (b : Fin 16) (t : Fin 64) (n : Fin 8) (k : Fin 8) (v : Fin 1024) :
    val_main_v15 (F := Ideal) x0 x2 x3 x4 (ix5 b t n k v)
      = ∑ d : Fin 64, VQ.slot (fun h => x0 (ix4 b t n h)) (fun o h => x2 (ix2 o h)) (fun o => x3 (ix1 o)) k d * x4 (ix2 v d) := by
  rw [val_main_v15_apply]
  refine Finset.sum_congr rfl fun d _ => ?_
  rw [lidx_v15_ix, ridx_v15_ix, latent_apply]

/-- The logits (before the shift) at (b, t, n, k, v). -/
theorem logit_apply (x0 : (⟨S16x64x8x512, .f32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (b : Fin 16) (t : Fin 64) (n : Fin 8) (k : Fin 8) (v : Fin 1024) :
    val_main_v22 (F := Ideal) x0 x2 x3 x4 (ix5 b t n k v)
      = VQ.logit (VQ.slot (fun h => x0 (ix4 b t n h)) (fun o h => x2 (ix2 o h)) (fun o => x3 (ix1 o)) k) (fun u d => x4 (ix2 u d)) (VQ.sqn (fun u d => x4 (ix2 u d))) v := by
  rw [val_main_v22_apply, val_main_v21_apply, val_main_v20_apply, val_main_v18_apply, val_main_v14_apply, val_main_v17_apply,
    val_main_v16_apply, val_main_cst_1_apply, val_main_v19_apply, val_main_cst_2_apply, sql_apply, sqc_apply, cross_apply]
  simp only [Ideal.ofBits_def, Ideal.ofBits_zero_f32, Ideal.hostNegf_def, Ideal.negf_def, Ideal.hostUnary_sqrt_def, Ideal.maximumf_def,
    Ideal.subf_def, Ideal.addf_def, Ideal.mulf_def]
  rfl

/-! ### The log-softmax stage -/

/-- The reduced index (b, t, n, k) with codeword v put back on the last axis is (b, t, n, k, v). -/
private theorem lift_ix5 (h : S16x64x8x8x1024.Reduces [4] S16x64x8x8) (b : Fin 16) (t : Fin 64) (n : Fin 8) (k : Fin 8)
    (v : Fin (S16x64x8x8x1024.size 4)) :
    h.lift (ix4 b t n k) v = ix5 b t n k (⟨v.val, v.isLt⟩ : Fin 1024) := by
  funext c; apply Fin.ext
  fin_cases c <;> rfl

/-- The word of −∞ is the bottom of the extended reals. -/
private theorem negInf_eq_bot : Ideal.ofBits .f32 0xFF800000#32 = (⊥ : EReal) := by
  simp [Ideal.ofBits, Ideal.ieee]

/-- The max-reduce of the logits over the codewords, at (b, t, n, k): the fold of max from −∞. -/
private theorem top_apply (x0 : (⟨S16x64x8x512, .f32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (b : Fin 16) (t : Fin 64) (n : Fin 8) (k : Fin 8) :
    val_main_call0_v0 (F := Ideal) x0 x2 x3 x4 (ix4 b t n k)
      = VQ.top (fun v => val_main_v22 (F := Ideal) x0 x2 x3 x4 (ix5 b t n k v)) := by
  have h : S16x64x8x8x1024.Reduces [4] S16x64x8x8 := by decide
  unfold val_main_call0_v0
  rw [Host.reduce_eq_fold_single FloatOps.maximumf _ _ reducesTo_S16x64x8x8x1024_S16x64x8x8_d4 h h_S_,
    val_main_call0_cst_apply, Ideal.ofBits_def, negInf_eq_bot]
  have hf : (val_main_v22 (F := Ideal) x0 x2 x3 x4 ∘ h.lift (ix4 b t n k))
      = fun v : Fin 1024 => val_main_v22 (F := Ideal) x0 x2 x3 x4 (ix5 b t n k v) :=
    funext fun v => congrArg (val_main_v22 (F := Ideal) x0 x2 x3 x4) (lift_ix5 h b t n k v)
  unfold VQ.top
  exact congrArg (fun f => Finset.fold max (⊥ : EReal) f (Finset.univ : Finset (Fin 1024))) hf

private theorem idx_c0v4_v3_ix (b : Fin 16) (t : Fin 64) (n : Fin 8) (k : Fin 8) (v : Fin 1024) :
    idx_main_call0_v3 (idx_main_call0_v4 (ix5 b t n k v)) = ix4 b t n k :=
  funext fun a => Fin.ext (by match a with | ⟨0, _⟩ => rfl | ⟨1, _⟩ => rfl | ⟨2, _⟩ => rfl | ⟨3, _⟩ => rfl)

private theorem idx_c0v10_v8_ix (b : Fin 16) (t : Fin 64) (n : Fin 8) (k : Fin 8) (v : Fin 1024) :
    idx_main_call0_v8 (idx_main_call0_v10 (ix5 b t n k v)) = ix4 b t n k :=
  funext fun a => Fin.ext (by match a with | ⟨0, _⟩ => rfl | ⟨1, _⟩ => rfl | ⟨2, _⟩ => rfl | ⟨3, _⟩ => rfl)

private theorem idx_c0v7_ix (b : Fin 16) (t : Fin 64) (n : Fin 8) (k : Fin 8) (u : Fin 1024) :
    idx_main_call0_v7 (ix4 b t n k) u = ix5 b t n k u :=
  funext fun a => Fin.ext (by match a with | ⟨0, _⟩ => rfl | ⟨1, _⟩ => rfl | ⟨2, _⟩ => rfl | ⟨3, _⟩ => rfl | ⟨4, _⟩ => rfl)

/-- The logits of row (b, t, n), slot k, as the specification's function of the codeword. -/
private theorem logit_row (x0 : (⟨S16x64x8x512, .f32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (b : Fin 16) (t : Fin 64) (n : Fin 8) (k : Fin 8) :
    (fun v => val_main_v22 (F := Ideal) x0 x2 x3 x4 (ix5 b t n k v))
      = VQ.logit (VQ.slot (fun h => x0 (ix4 b t n h)) (fun o h => x2 (ix2 o h)) (fun o => x3 (ix1 o)) k) (fun u d => x4 (ix2 u d)) (VQ.sqn (fun u d => x4 (ix2 u d))) :=
  funext fun v => logit_apply x0 x2 x3 x4 b t n k v

/-- The shift: the largest logit, broadcast along the codewords; the extra maximum with −∞ changes nothing. -/
private theorem shift_apply (x0 : (⟨S16x64x8x512, .f32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (b : Fin 16) (t : Fin 64) (n : Fin 8) (k : Fin 8) (v : Fin 1024) :
    val_main_call0_v4 (F := Ideal) x0 x2 x3 x4 (ix5 b t n k v)
      = VQ.top (VQ.logit (VQ.slot (fun h => x0 (ix4 b t n h)) (fun o h => x2 (ix2 o h)) (fun o => x3 (ix1 o)) k) (fun u d => x4 (ix2 u d)) (VQ.sqn (fun u d => x4 (ix2 u d)))) := by
  rw [val_main_call0_v4_apply, val_main_call0_v3_apply, idx_c0v4_v3_ix, val_main_call0_v2_apply, val_main_call0_v1_apply,
    val_main_call0_cst_0_apply, Ideal.ofBits_def, negInf_eq_bot, top_apply, logit_row, Ideal.maximumf_def]
  exact max_eq_right bot_le

/-- The shifted logit at (b, t, n, k, v). -/
private theorem shifted_apply (x0 : (⟨S16x64x8x512, .f32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (b : Fin 16) (t : Fin 64) (n : Fin 8) (k : Fin 8) (v : Fin 1024) :
    val_main_call0_v5 (F := Ideal) x0 x2 x3 x4 (ix5 b t n k v)
      = VQ.logit (VQ.slot (fun h => x0 (ix4 b t n h)) (fun o h => x2 (ix2 o h)) (fun o => x3 (ix1 o)) k) (fun u d => x4 (ix2 u d)) (VQ.sqn (fun u d => x4 (ix2 u d))) v
        - VQ.top (VQ.logit (VQ.slot (fun h => x0 (ix4 b t n h)) (fun o h => x2 (ix2 o h)) (fun o => x3 (ix1 o)) k) (fun u d => x4 (ix2 u d)) (VQ.sqn (fun u d => x4 (ix2 u d)))) := by
  rw [val_main_call0_v5_apply, logit_apply, shift_apply, Ideal.subf_def]

/-- The log-probabilities at (b, t, n, k, v). -/
theorem logp_apply (x0 : (⟨S16x64x8x512, .f32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (b : Fin 16) (t : Fin 64) (n : Fin 8) (k : Fin 8) (v : Fin 1024) :
    val_main_v23 (F := Ideal) x0 x2 x3 x4 (ix5 b t n k v)
      = VQ.logp (VQ.logit (VQ.slot (fun h => x0 (ix4 b t n h)) (fun o h => x2 (ix2 o h)) (fun o => x3 (ix1 o)) k) (fun u d => x4 (ix2 u d)) (VQ.sqn (fun u d => x4 (ix2 u d)))) v := by
  rw [val_main_v23_apply, shifted_apply, val_main_call0_v10_apply, val_main_call0_v9_apply, val_main_call0_v8_apply, idx_c0v10_v8_ix,
    val_main_call0_v7_apply, val_main_call0_cst_1_apply, Ideal.ofBits_def, Ideal.ofBits_zero_f32, zero_add,
    Ideal.subf_def, Ideal.hostUnary_log_def]
  unfold VQ.logp
  congr 2
  refine Finset.sum_congr rfl fun u _ => ?_
  rw [idx_c0v7_ix, val_main_call0_v6_apply, shifted_apply, Ideal.hostUnary_exp_def]

end Cert.ReferenceIdeal.RefIdx

end
-- ==== Proof.RefResults.lean ====
/-
  The reference's two scalar results per row, read at (b, t, n): the sum over the 8 slots of the log-probability
  at the slot's given codeword — the gather along the codeword axis reads, for a word in [0, 1024), exactly that
  entry, and the out-of-range fill is never selected — and the sum over the slots of the entropy terms.
-/
import proofs.«421140_j13005160973101_2_alg».proof.Proof.RefLogp
import Idealize.ShloMosaic.Lib.ValueIdxRank6
import Idealize.ShloMosaic.Lib.Affine

noncomputable section

open scoped BigOperators

namespace Cert.ReferenceIdeal.RefIdx

open Cert.ReferenceIdeal Cert.ReferenceIdeal.Gen Cert.ReferenceIdeal.ReadP
open Idealize.ShloMosaic Idealize.ShloMosaic.ValueIdx Idealize.ShloMosaic.TcCoe Idealize.SL.Sem Idealize.ShloMosaic.StableHlo

/-! ## Words in range -/

/-- A word whose signed value is not negative is left alone by "add 1024 when negative". -/
theorem norm_id (w : BitVec 32) (h0 : 0 ≤ w.toInt) :
    Scalar.select (IntOp.cmpi .slt w 0#32) (IntOp.addi w 1024#32) w = w := by
  unfold Scalar.select
  rw [if_neg]
  intro h
  have h1 := IntOp.cmpi_slt.1 h
  have h00 : (0#32 : BitVec 32).toInt = 0 := by decide
  omega

/-- A word whose signed value is in [0, 1024) passes the range test 0 ≤ w ≤ 1023. -/
theorem mask_one (w : BitVec 32) (h : 0 ≤ w.toInt ∧ w.toInt < 1024) :
    IntOp.andi (IntOp.cmpi .sge w 0#32) (IntOp.cmpi .sle w 1023#32) = 1#1 := by
  have h00 : (0#32 : BitVec 32).toInt = 0 := by decide
  have h01 : (1023#32 : BitVec 32).toInt = 1023 := by decide
  rw [IntOp.andi_eq_one]
  exact ⟨IntOp.cmpi_sge.2 (by omega), IntOp.cmpi_sle.2 (by omega)⟩

/-- A 32-bit word whose signed value is not negative has that value as its unsigned one. -/
theorem toInt_eq_toNat_of_nonneg (w : BitVec 32) (h0 : 0 ≤ w.toInt) : w.toInt = (w.toNat : Int) := by
  have hlt : w.toNat < 2 ^ 32 := w.isLt
  rw [BitVec.toInt_eq_toNat_cond] at h0 ⊢
  split at h0 <;> rename_i hc
  · rw [if_pos hc]
  · exfalso; omega

/-- A left fold by "and" from 1 over a list of 1s is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hf => by
    rw [List.foldl_cons]
    refine foldl_andi_ones f l _ ?_ (fun n hn => hf n (List.mem_cons_of_mem _ hn))
    rw [hi, hf a (List.mem_cons_self ..)]
    rfl

/-! ## The given words, normalised, and the range mask -/

/-- In range, the normalised word at any index is the given word at the index the broadcast reads. -/
theorem v4_apply (x1 : (⟨S16x64x8x8, .i32⟩ : BufTy).Contents (Elt Ideal)) (hr : ∀ i, 0 ≤ (x1 i).toInt ∧ (x1 i).toInt < 1024) (i : S16x64x8x8x1.Idx) :
    val_main_call1_v4 (F := Ideal) x1 i = x1 (idx_main_v24 i) := by
  rw [val_main_call1_v4_apply, val_main_call1_v1_apply, val_main_call1_v3_apply, val_main_call1_v0_apply,
    val_main_call1_v2_apply, val_main_call1_c_apply, val_main_call1_c_0_apply, val_main_v24_apply]
  exact norm_id _ (hr _).1

/-- Every element of the reshaped index array is one of the given words. -/
theorem v5_mem (x1 : (⟨S16x64x8x8, .i32⟩ : BufTy).Contents (Elt Ideal)) (hr : ∀ i, 0 ≤ (x1 i).toInt ∧ (x1 i).toInt < 1024) (i : S16x64x8x8x1x1.Idx) :
    ∃ j, val_main_call1_v5 (F := Ideal) x1 i = x1 j := ⟨_, v4_apply x1 hr _⟩

/-- In range, the range test holds at every index. -/
theorem v11_one (x1 : (⟨S16x64x8x8, .i32⟩ : BufTy).Contents (Elt Ideal)) (hr : ∀ i, 0 ≤ (x1 i).toInt ∧ (x1 i).toInt < 1024) (i : S16x64x8x8x1x1.Idx) :
    val_main_call1_v11 (F := Ideal) x1 i = 1#1 := by
  rw [val_main_call1_v11_apply, val_main_call1_v7_apply, val_main_call1_v10_apply, val_main_call1_v6_apply,
    val_main_call1_v9_apply, val_main_call1_v8_apply, val_main_call1_c_2_apply, val_main_call1_c_1_apply]
  obtain ⟨j, hj⟩ := v5_mem x1 hr i
  rw [hj]
  exact mask_one _ (hr j)

/-- In range, the mask (the range test folded by "and" over the unit axis, from 1) is 1 everywhere. -/
theorem v12_one (x1 : (⟨S16x64x8x8, .i32⟩ : BufTy).Contents (Elt Ideal)) (hr : ∀ i, 0 ≤ (x1 i).toInt ∧ (x1 i).toInt < 1024) (j : S16x64x8x8x1.Idx) :
    val_main_call1_v12 (F := Ideal) x1 j = 1#1 := by
  unfold val_main_call1_v12
  rw [Host.reduce_eq_foldl]
  exact foldl_andi_ones _ _ _ rfl (fun i _ => v11_one x1 hr i)

/-! ## The gather along the codeword axis, read at an element

Its dimension numbers batch over the four leading axes and collapse the last one, whose start index is the index
array's element at the same (b, t, n, k), read signed and clamped into [0, 1023]. -/

theorem gather_axis0 {w : Nat} (idx : IVec S16x64x8x8x1x1 w) (b : Fin 16) (t : Fin 64) (n : Fin 8) (k : Fin 8) :
    (gather_S16x64x8x8x1024_S16x64x8x8x1x1_S16x64x8x8x1_n_4_0123_0123_4_5_11111.operandIdx (ix5 b t n k (0 : Fin 1)) idx 0).val = b.val := by
  show gather_S16x64x8x8x1024_S16x64x8x8x1x1_S16x64x8x8x1_n_4_0123_0123_4_5_11111.start _ idx 0 + gather_S16x64x8x8x1024_S16x64x8x8x1x1_S16x64x8x8x1_n_4_0123_0123_4_5_11111.batchCoord _ 0 + gather_S16x64x8x8x1024_S16x64x8x8x1x1_S16x64x8x8x1_n_4_0123_0123_4_5_11111.offCoord _ 0 = _
  rw [GatherDims.start_batching _ _ _ _ (show (0 : Fin S16x64x8x8x1024.rank) ∈ gather_S16x64x8x8x1024_S16x64x8x8x1x1_S16x64x8x8x1_n_4_0123_0123_4_5_11111.operandBatchingDims by decide),
    GatherDims.offCoord_eq_zero _ _ _ (fun h => ((GatherDims.mem_sKept _ _).mp h).2 (by decide)),
    Nat.zero_add, Nat.add_zero]
  unfold GatherDims.batchCoord
  rw [dif_pos (show (0 : Fin S16x64x8x8x1024.rank) ∈ gather_S16x64x8x8x1024_S16x64x8x8x1x1_S16x64x8x8x1_n_4_0123_0123_4_5_11111.operandBatchingDims by decide)]
  rfl

theorem gather_axis1 {w : Nat} (idx : IVec S16x64x8x8x1x1 w) (b : Fin 16) (t : Fin 64) (n : Fin 8) (k : Fin 8) :
    (gather_S16x64x8x8x1024_S16x64x8x8x1x1_S16x64x8x8x1_n_4_0123_0123_4_5_11111.operandIdx (ix5 b t n k (0 : Fin 1)) idx 1).val = t.val := by
  show gather_S16x64x8x8x1024_S16x64x8x8x1x1_S16x64x8x8x1_n_4_0123_0123_4_5_11111.start _ idx 1 + gather_S16x64x8x8x1024_S16x64x8x8x1x1_S16x64x8x8x1_n_4_0123_0123_4_5_11111.batchCoord _ 1 + gather_S16x64x8x8x1024_S16x64x8x8x1x1_S16x64x8x8x1_n_4_0123_0123_4_5_11111.offCoord _ 1 = _
  rw [GatherDims.start_batching _ _ _ _ (show (1 : Fin S16x64x8x8x1024.rank) ∈ gather_S16x64x8x8x1024_S16x64x8x8x1x1_S16x64x8x8x1_n_4_0123_0123_4_5_11111.operandBatchingDims by decide),
    GatherDims.offCoord_eq_zero _ _ _ (fun h => ((GatherDims.mem_sKept _ _).mp h).2 (by decide)),
    Nat.zero_add, Nat.add_zero]
  unfold GatherDims.batchCoord
  rw [dif_pos (show (1 : Fin S16x64x8x8x1024.rank) ∈ gather_S16x64x8x8x1024_S16x64x8x8x1x1_S16x64x8x8x1_n_4_0123_0123_4_5_11111.operandBatchingDims by decide)]
  rfl

theorem gather_axis2 {w : Nat} (idx : IVec S16x64x8x8x1x1 w) (b : Fin 16) (t : Fin 64) (n : Fin 8) (k : Fin 8) :
    (gather_S16x64x8x8x1024_S16x64x8x8x1x1_S16x64x8x8x1_n_4_0123_0123_4_5_11111.operandIdx (ix5 b t n k (0 : Fin 1)) idx 2).val = n.val := by
  show gather_S16x64x8x8x1024_S16x64x8x8x1x1_S16x64x8x8x1_n_4_0123_0123_4_5_11111.start _ idx 2 + gather_S16x64x8x8x1024_S16x64x8x8x1x1_S16x64x8x8x1_n_4_0123_0123_4_5_11111.batchCoord _ 2 + gather_S16x64x8x8x1024_S16x64x8x8x1x1_S16x64x8x8x1_n_4_0123_0123_4_5_11111.offCoord _ 2 = _
  rw [GatherDims.start_batching _ _ _ _ (show (2 : Fin S16x64x8x8x1024.rank) ∈ gather_S16x64x8x8x1024_S16x64x8x8x1x1_S16x64x8x8x1_n_4_0123_0123_4_5_11111.operandBatchingDims by decide),
    GatherDims.offCoord_eq_zero _ _ _ (fun h => ((GatherDims.mem_sKept _ _).mp h).2 (by decide)),
    Nat.zero_add, Nat.add_zero]
  unfold GatherDims.batchCoord
  rw [dif_pos (show (2 : Fin S16x64x8x8x1024.rank) ∈ gather_S16x64x8x8x1024_S16x64x8x8x1x1_S16x64x8x8x1_n_4_0123_0123_4_5_11111.operandBatchingDims by decide)]
  rfl

theorem gather_axis3 {w : Nat} (idx : IVec S16x64x8x8x1x1 w) (b : Fin 16) (t : Fin 64) (n : Fin 8) (k : Fin 8) :
    (gather_S16x64x8x8x1024_S16x64x8x8x1x1_S16x64x8x8x1_n_4_0123_0123_4_5_11111.operandIdx (ix5 b t n k (0 : Fin 1)) idx 3).val = k.val := by
  show gather_S16x64x8x8x1024_S16x64x8x8x1x1_S16x64x8x8x1_n_4_0123_0123_4_5_11111.start _ idx 3 + gather_S16x64x8x8x1024_S16x64x8x8x1x1_S16x64x8x8x1_n_4_0123_0123_4_5_11111.batchCoord _ 3 + gather_S16x64x8x8x1024_S16x64x8x8x1x1_S16x64x8x8x1_n_4_0123_0123_4_5_11111.offCoord _ 3 = _
  rw [GatherDims.start_batching _ _ _ _ (show (3 : Fin S16x64x8x8x1024.rank) ∈ gather_S16x64x8x8x1024_S16x64x8x8x1x1_S16x64x8x8x1_n_4_0123_0123_4_5_11111.operandBatchingDims by decide),
    GatherDims.offCoord_eq_zero _ _ _ (fun h => ((GatherDims.mem_sKept _ _).mp h).2 (by decide)),
    Nat.zero_add, Nat.add_zero]
  unfold GatherDims.batchCoord
  rw [dif_pos (show (3 : Fin S16x64x8x8x1024.rank) ∈ gather_S16x64x8x8x1024_S16x64x8x8x1x1_S16x64x8x8x1_n_4_0123_0123_4_5_11111.operandBatchingDims by decide)]
  rfl

theorem gather_axis4 {w : Nat} (idx : IVec S16x64x8x8x1x1 w) (b : Fin 16) (t : Fin 64) (n : Fin 8) (k : Fin 8) :
    (gather_S16x64x8x8x1024_S16x64x8x8x1x1_S16x64x8x8x1_n_4_0123_0123_4_5_11111.operandIdx (ix5 b t n k (0 : Fin 1)) idx 4).val
      = min (idx (ix6 b t n k (0 : Fin 1) (0 : Fin 1))).toInt.toNat 1023 := by
  show gather_S16x64x8x8x1024_S16x64x8x8x1x1_S16x64x8x8x1_n_4_0123_0123_4_5_11111.start _ idx 4 + gather_S16x64x8x8x1024_S16x64x8x8x1x1_S16x64x8x8x1_n_4_0123_0123_4_5_11111.batchCoord _ 4 + gather_S16x64x8x8x1024_S16x64x8x8x1x1_S16x64x8x8x1_n_4_0123_0123_4_5_11111.offCoord _ 4 = _
  rw [GatherDims.batchCoord_eq_zero _ _ _ (by decide),
    GatherDims.offCoord_eq_zero _ _ _ (fun h => ((GatherDims.mem_sKept _ _).mp h).1 (by decide))]
  simp only [Nat.add_zero]
  unfold GatherDims.start
  rw [dif_pos (show (4 : Fin S16x64x8x8x1024.rank) ∈ gather_S16x64x8x8x1024_S16x64x8x8x1x1_S16x64x8x8x1_n_4_0123_0123_4_5_11111.startIndexMap by decide)]
  have hsi : gather_S16x64x8x8x1024_S16x64x8x8x1x1_S16x64x8x8x1_n_4_0123_0123_4_5_11111.siIdx (ix5 b t n k (0 : Fin 1))
      ⟨List.idxOf (4 : Fin S16x64x8x8x1024.rank) gather_S16x64x8x8x1024_S16x64x8x8x1x1_S16x64x8x8x1_n_4_0123_0123_4_5_11111.startIndexMap,
        List.idxOf_lt_length_iff.2 (by decide)⟩ = ix6 b t n k (0 : Fin 1) (0 : Fin 1) := by
    funext c; refine Fin.ext ?_
    match c with
    | ⟨0, _⟩ => rfl
    | ⟨1, _⟩ => rfl
    | ⟨2, _⟩ => rfl
    | ⟨3, _⟩ => rfl
    | ⟨4, _⟩ => rfl
    | ⟨5, _⟩ => rfl
  rw [hsi]
  rfl

/-- THE GATHER READ AT (b, t, n, k, 0): the operand at (b, t, n, k, s), s the index array's element at (b, t, n, k, 0, 0)
    read signed and clamped into [0, 1023]. -/
theorem gather_last_apply {α : Type} {w : Nat} (y : S16x64x8x8x1024.Idx → α) (idx : IVec S16x64x8x8x1x1 w)
    (b : Fin 16) (t : Fin 64) (n : Fin 8) (k : Fin 8) :
    Host.gather gather_S16x64x8x8x1024_S16x64x8x8x1x1_S16x64x8x8x1_n_4_0123_0123_4_5_11111 y idx (ix5 b t n k (0 : Fin 1))
      = y (ix5 b t n k (⟨min (idx (ix6 b t n k (0 : Fin 1) (0 : Fin 1))).toInt.toNat 1023, by omega⟩ : Fin 1024)) := by
  unfold Host.gather
  refine congrArg y (funext fun a => Fin.ext ?_)
  match a with
  | ⟨0, _⟩ => exact gather_axis0 idx b t n k
  | ⟨1, _⟩ => exact gather_axis1 idx b t n k
  | ⟨2, _⟩ => exact gather_axis2 idx b t n k
  | ⟨3, _⟩ => exact gather_axis3 idx b t n k
  | ⟨4, _⟩ => exact gather_axis4 idx b t n k

/-! ## The first result: the log-probability at the given word, summed over the slots -/

/-- The reshaped index array at (b, t, n, k, 0, 0) is, in range, the given word at (b, t, n, k). -/
theorem v5_apply (x1 : (⟨S16x64x8x8, .i32⟩ : BufTy).Contents (Elt Ideal)) (hr : ∀ i, 0 ≤ (x1 i).toInt ∧ (x1 i).toInt < 1024) (b : Fin 16) (t : Fin 64) (n : Fin 8) (k : Fin 8) :
    val_main_call1_v5 (F := Ideal) x1 (ix6 b t n k (0 : Fin 1) (0 : Fin 1)) = x1 (ix4 b t n k) := by
  unfold val_main_call1_v5
  rw [shapeCast_apply _ shapeCasts_S16x64x8x8x1_S16x64x8x8x1x1 (ix6 b t n k (0 : Fin 1) (0 : Fin 1)) (ix5 b t n k (0 : Fin 1))
    (by rw [Shape.rowMajor_val_five, Shape.rowMajor_val_six]
        show (((b.val * 64 + t.val) * 8 + n.val) * 8 + k.val) * 1 + 0
          = ((((b.val * 64 + t.val) * 8 + n.val) * 8 + k.val) * 1 + 0) * 1 + 0
        omega),
    v4_apply x1 hr]
  exact congrArg x1 (funext fun a => Fin.ext (by match a with | ⟨0, _⟩ => rfl | ⟨1, _⟩ => rfl | ⟨2, _⟩ => rfl | ⟨3, _⟩ => rfl))

/-- The reshape that drops the unit axis reads (b, t, n, k) at (b, t, n, k, 0). -/
theorem idx_v26_ix (b : Fin 16) (t : Fin 64) (n : Fin 8) (k : Fin 8) :
    idx_main_v26 (ix4 b t n k) = ix5 b t n k (0 : Fin 1) := by
  have hb := b.isLt; have ht := t.isLt; have hn := n.isLt; have hk := k.isLt
  funext a; refine Fin.ext ?_
  match a with
  | ⟨0, _⟩ => show (((b.val * 64 + t.val) * 8 + n.val) * 8 + k.val) / 4096 = b.val; omega
  | ⟨1, _⟩ => show (((b.val * 64 + t.val) * 8 + n.val) * 8 + k.val) / 64 % 64 = t.val; omega
  | ⟨2, _⟩ => show (((b.val * 64 + t.val) * 8 + n.val) * 8 + k.val) / 8 % 8 = n.val; omega
  | ⟨3, _⟩ => show (((b.val * 64 + t.val) * 8 + n.val) * 8 + k.val) / 1 % 8 = k.val; omega
  | ⟨4, _⟩ => rfl

/-- The row sum at (b, t, n) runs over (b, t, n, k). -/
theorem idx_v27_ix (b : Fin 16) (t : Fin 64) (n : Fin 8) (k : Fin 8) :
    idx_main_v27 (ix3 b t n) k = ix4 b t n k :=
  funext fun a => Fin.ext (by match a with | ⟨0, _⟩ => rfl | ⟨1, _⟩ => rfl | ⟨2, _⟩ => rfl | ⟨3, _⟩ => rfl)

/-- The selected log-probability of slot k of row (b, t, n): in range the mask takes the gathered entry, which is the
    log-probability of the given codeword. -/
theorem v25_apply (x0 : (⟨S16x64x8x512, .f32⟩ : BufTy).Contents (Elt Ideal)) (x1 : (⟨S16x64x8x8, .i32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (hr : ∀ i, 0 ≤ (x1 i).toInt ∧ (x1 i).toInt < 1024) (b : Fin 16) (t : Fin 64) (n : Fin 8) (k : Fin 8) :
    val_main_v25 (F := Ideal) x0 x1 x2 x3 x4 (ix5 b t n k (0 : Fin 1))
      = VQ.lpTerm (fun h => x0 (ix4 b t n h)) (fun o h => x2 (ix2 o h)) (fun o => x3 (ix1 o)) (fun u d => x4 (ix2 u d)) (VQ.sqn (fun u d => x4 (ix2 u d)))
          (fun k' => x1 (ix4 b t n k')) k := by
  have h0 := (hr (ix4 b t n k)).1
  have h1 := (hr (ix4 b t n k)).2
  have hI := toInt_eq_toNat_of_nonneg _ h0
  have hlt : (x1 (ix4 b t n k)).toNat < 1024 := by omega
  have hmin : min (x1 (ix4 b t n k)).toInt.toNat 1023 = (x1 (ix4 b t n k)).toNat := by omega
  rw [val_main_v25_apply, v12_one x1 hr, select_one]
  unfold val_main_call1_v13
  rw [gather_last_apply]
  unfold VQ.lpTerm
  rw [VQ.pick_of_lt _ _ hlt, ← logp_apply]
  refine congrArg _ (congrArg (ix5 b t n k) (Fin.ext ?_))
  show min (val_main_call1_v5 (F := Ideal) x1 (ix6 b t n k (0 : Fin 1) (0 : Fin 1))).toInt.toNat 1023 = _
  rw [v5_apply x1 hr]
  exact hmin

/-- The log-probability result at row (b, t, n), the given words in range. -/
theorem v27_apply (x0 : (⟨S16x64x8x512, .f32⟩ : BufTy).Contents (Elt Ideal)) (x1 : (⟨S16x64x8x8, .i32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (hr : ∀ i, 0 ≤ (x1 i).toInt ∧ (x1 i).toInt < 1024) (b : Fin 16) (t : Fin 64) (n : Fin 8) :
    val_main_v27 (F := Ideal) x0 x1 x2 x3 x4 (ix3 b t n)
      = ∑ k : Fin 8, VQ.lpTerm (fun h => x0 (ix4 b t n h)) (fun o h => x2 (ix2 o h)) (fun o => x3 (ix1 o)) (fun u d => x4 (ix2 u d)) (VQ.sqn (fun u d => x4 (ix2 u d)))
          (fun k' => x1 (ix4 b t n k')) k := by
  rw [val_main_v27_apply, val_main_cst_3_apply]
  simp only [idx_v27_ix, val_main_v26_apply, idx_v26_ix, v25_apply x0 x1 x2 x3 x4 hr, Ideal.ofBits_def, Ideal.ofBits_zero_f32, zero_add]

/-! ## The second result: the entropy, summed over the slots -/

/-- The row sum at (b, t, n) runs over (b, t, n, k). -/
theorem idx_v32_ix (b : Fin 16) (t : Fin 64) (n : Fin 8) (k : Fin 8) :
    idx_main_v32 (ix3 b t n) k = ix4 b t n k :=
  funext fun a => Fin.ext (by match a with | ⟨0, _⟩ => rfl | ⟨1, _⟩ => rfl | ⟨2, _⟩ => rfl | ⟨3, _⟩ => rfl)

/-- The sum over the codewords at (b, t, n, k) runs over (b, t, n, k, v). -/
theorem idx_v30_ix (b : Fin 16) (t : Fin 64) (n : Fin 8) (k : Fin 8) (v : Fin 1024) :
    idx_main_v30 (ix4 b t n k) v = ix5 b t n k v :=
  funext fun a => Fin.ext (by match a with | ⟨0, _⟩ => rfl | ⟨1, _⟩ => rfl | ⟨2, _⟩ => rfl | ⟨3, _⟩ => rfl | ⟨4, _⟩ => rfl)

/-- The entropy of slot k of row (b, t, n): minus the sum over the codewords of p · log p. -/
theorem v31_apply (x0 : (⟨S16x64x8x512, .f32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (b : Fin 16) (t : Fin 64) (n : Fin 8) (k : Fin 8) :
    val_main_v31 (F := Ideal) x0 x2 x3 x4 (ix4 b t n k)
      = VQ.entTerm (fun h => x0 (ix4 b t n h)) (fun o h => x2 (ix2 o h)) (fun o => x3 (ix1 o)) (fun u d => x4 (ix2 u d)) (VQ.sqn (fun u d => x4 (ix2 u d))) k := by
  rw [val_main_v31_apply, val_main_v30_apply, val_main_cst_4_apply]
  simp only [idx_v30_ix, val_main_v29_apply, val_main_v28_apply, logp_apply, Ideal.ofBits_def, Ideal.ofBits_zero_f32,
    Ideal.hostNegf_def, Ideal.negf_def, Ideal.mulf_def, Ideal.hostUnary_exp_def, zero_add]
  rfl

/-- The entropy result at row (b, t, n). -/
theorem v32_apply (x0 : (⟨S16x64x8x512, .f32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (b : Fin 16) (t : Fin 64) (n : Fin 8) :
    val_main_v32 (F := Ideal) x0 x2 x3 x4 (ix3 b t n)
      = ∑ k : Fin 8, VQ.entTerm (fun h => x0 (ix4 b t n h)) (fun o h => x2 (ix2 o h)) (fun o => x3 (ix1 o)) (fun u d => x4 (ix2 u d)) (VQ.sqn (fun u d => x4 (ix2 u d))) k := by
  rw [val_main_v32_apply, val_main_cst_5_apply]
  simp only [idx_v32_ix, v31_apply, Ideal.ofBits_def, Ideal.ofBits_zero_f32, zero_add]

end Cert.ReferenceIdeal.RefIdx

end
-- ==== Proof.SpecReal.lean ====
/-
  Which of the row quantities are real numbers (neither infinity), and the one cancellation that needs it:
  tanh of any extended real is real; sums, products, differences, maxima against 0, roots of non-negative reals,
  exponentials of reals and logarithms of positive reals are real; so the logits, the log-probabilities and the
  probabilities of a slot are real as soon as the codebook is; and for real a, b: a + (b − a) = b.
-/
import proofs.«421140_j13005160973101_2_alg».proof.Proof.Spec

noncomputable section

open scoped BigOperators

namespace Cert.VQ

open Idealize.ShloMosaic

/-- An extended real that is a real number. -/
def IsReal (a : EReal) : Prop := ∃ r : ℝ, a = (r : EReal)

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.neg {a : EReal} (ha : IsReal a) : IsReal (-a) := by
  obtain ⟨x, rfl⟩ := ha
  exact ⟨-x, (EReal.coe_neg x).symm⟩

theorem IsReal.zero : IsReal 0 := ⟨0, rfl⟩

/-- A finite sum of real numbers is real. -/
theorem IsReal.sum {ι : Type} (s : Finset ι) (f : ι → EReal) (hf : ∀ i ∈ s, IsReal (f i)) : IsReal (∑ i ∈ s, f i) := by
  classical
  induction s using Finset.induction_on with
  | empty =>
    rw [Finset.sum_empty]
    exact IsReal.zero
  | insert a s ha ih =>
    rw [Finset.sum_insert ha]
    exact (hf a (Finset.mem_insert_self a s)).add (ih (fun i hi => hf i (Finset.mem_insert_of_mem hi)))

/-- The embedding of the reals commutes with finite sums. -/
theorem coe_sum_real {ι : Type} (s : Finset ι) (f : ι → ℝ) :
    (∑ i ∈ s, ((f i : ℝ) : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The embedding of the reals commutes with the maximum of two numbers. -/
theorem coe_max_real (x y : ℝ) : max (x : EReal) (y : EReal) = ((max x y : ℝ) : EReal) :=
  (EReal.coe_strictMono.monotone.map_max).symm

/-- The factor 2 is the real number 2. -/
theorem two_real : IsReal two := by
  refine ⟨2, ?_⟩
  simp [two, Ideal.ofBits, Ideal.ieee]
  rw [← EReal.coe_mul]
  norm_num

/-- tanh of any extended real is real: −1 at −∞, 1 at +∞, the real tanh in between. -/
theorem tanh_real (a : EReal) : IsReal (Ideal.tanh a) := by
  induction a using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- A feature is always real: tanh sends both infinities to ±1. -/
theorem feat_real (xr : Fin 512 → EReal) (W : Fin 512 → Fin 512 → EReal) (bb : Fin 512 → EReal) (o : Fin 512) :
    IsReal (feat xr W bb o) := by
  unfold feat
  exact tanh_real _

theorem slot_real (xr : Fin 512 → EReal) (W : Fin 512 → Fin 512 → EReal) (bb : Fin 512 → EReal) (k : Fin 8) (d : Fin 64) :
    IsReal (slot xr W bb k d) := feat_real xr W bb (col k d)

theorem sqn_real (c : Fin 1024 → Fin 64 → EReal) (hc : ∀ v d, IsReal (c v d)) (v : Fin 1024) : IsReal (sqn c v) := by
  unfold sqn
  exact IsReal.sum _ _ (fun d _ => (hc v d).mul (hc v d))

/-- The root of a real number clipped below at 0 is real: the clipped number is a non-negative real. -/
theorem sqrt_max_zero_real {a : EReal} (ha : IsReal a) : IsReal (Ideal.sqrt (max a 0)) := by
  obtain ⟨x, rfl⟩ := ha
  rw [← EReal.coe_zero, coe_max_real, Ideal.sqrt_coe, if_neg (not_lt.mpr (le_max_right x 0))]
  exact ⟨_, rfl⟩

/-- Logits of a real slot vector against real codewords are real. -/
theorem logit_real (l : Fin 64 → EReal) (c : Fin 1024 → Fin 64 → EReal) (c2 : Fin 1024 → EReal)
    (hl : ∀ d, IsReal (l d)) (hc : ∀ v d, IsReal (c v d)) (hc2 : ∀ v, IsReal (c2 v)) (v : Fin 1024) :
    IsReal (logit l c c2 v) := by
  unfold logit
  refine (sqrt_max_zero_real ?_).neg
  refine IsReal.sub (IsReal.add (IsReal.sum _ _ (fun d _ => (hl d).mul (hl d))) (hc2 v)) ?_
  exact two_real.mul (IsReal.sum _ _ (fun d _ => (hl d).mul (hc v d)))

/-- The fold of max from −∞ over any set of real logits is −∞ (the empty set) or real. -/
theorem fold_max_bot_or_real (g : Fin 1024 → EReal) (hg : ∀ v, IsReal (g v)) (s : Finset (Fin 1024)) :
    s.fold max ⊥ g = ⊥ ∨ IsReal (s.fold max ⊥ g) := by
  induction s using Finset.induction_on with
  | empty => exact Or.inl Finset.fold_empty
  | insert a s ha ih =>
    right
    rw [Finset.fold_insert ha]
    rcases ih with h | h
    · rw [h, max_bot_right]
      exact hg a
    · obtain ⟨x, hx⟩ := hg a
      obtain ⟨y, hy⟩ := h
      rw [hx, hy, coe_max_real]
      exact ⟨_, rfl⟩

/-- The maximum of 1024 real logits is real. -/
theorem top_real (g : Fin 1024 → EReal) (hg : ∀ v, IsReal (g v)) : IsReal (top g) := by
  unfold top
  rcases fold_max_bot_or_real g hg Finset.univ with h | h
  · exfalso
    have h0 : g 0 ≤ (Finset.univ : Finset (Fin 1024)).fold max ⊥ g :=
      (Finset.le_fold_max (g 0)).mpr (Or.inr ⟨0, Finset.mem_univ _, le_rfl⟩)
    rw [h] at h0
    obtain ⟨x, hx⟩ := hg 0
    rw [hx] at h0
    exact EReal.coe_ne_bot x (le_bot_iff.mp h0)
  · exact h

/-- The logarithm of a positive real is real. -/
theorem log_real_of_pos {r : ℝ} (h : 0 < r) : IsReal (Ideal.log (r : EReal)) :=
  ⟨Real.log r, by rw [Ideal.log_coe, if_neg (not_le.mpr h)]⟩

/-- Log-probabilities of real logits are real: the shifted exponentials are positive reals, so is their sum. -/
theorem logp_real (g : Fin 1024 → EReal) (hg : ∀ v, IsReal (g v)) (v : Fin 1024) : IsReal (logp g v) := by
  have hd : ∀ u, ∃ x : ℝ, g u - top g = (x : EReal) := fun u => (hg u).sub (top_real g hg)
  choose x hx using hd
  unfold logp
  refine IsReal.sub ⟨x v, hx v⟩ ?_
  have hs : (∑ u : Fin 1024, Ideal.exp (g u - top g)) = ((∑ u : Fin 1024, Real.exp (x u) : ℝ) : EReal) := by
    rw [← coe_sum_real]
    refine Finset.sum_congr rfl (fun u _ => ?_)
    rw [hx u, Ideal.exp_coe]
  rw [hs]
  exact log_real_of_pos (Finset.sum_pos (fun u _ => Real.exp_pos (x u)) Finset.univ_nonempty)

/-- The exponential of a real number is real. -/
theorem exp_real {a : EReal} (ha : IsReal a) : IsReal (Ideal.exp a) := by
  obtain ⟨x, rfl⟩ := ha
  exact ⟨Real.exp x, Ideal.exp_coe x⟩

/-- For real numbers, adding back what was taken off: a + (b − a) = b. On the extended reals this fails at the
    infinities, which is why the two facts above are needed. -/
theorem add_sub_cancel_real {a b : EReal} (ha : IsReal a) (hb : IsReal b) : a + (b - a) = b := by
  obtain ⟨x, rfl⟩ := ha
  obtain ⟨y, rfl⟩ := hb
  rw [← EReal.coe_sub, ← EReal.coe_add, add_sub_cancel]

end Cert.VQ

end
-- ==== Proof.RefHard.lean ====
/-
  The reference's first result is the gathered codewords themselves: it forms soft + (hard − soft), where hard is
  the codebook row the given word selects and soft the probability-weighted average of the codebook; with a real
  codebook both are real numbers (the probabilities are exponentials of real log-probabilities, soft a finite sum of
  real products, hard a codebook entry), so the sum is hard.
-/
import proofs.«421140_j13005160973101_2_alg».proof.Proof.RefLogp
import proofs.«421140_j13005160973101_2_alg».proof.Proof.SpecReal

noncomputable section

open scoped BigOperators

namespace Cert.ReferenceIdeal.RefIdx

open Cert.ReferenceIdeal Cert.ReferenceIdeal.Gen Cert.ReferenceIdeal.ReadP
open Idealize.ShloMosaic Idealize.ShloMosaic.ValueIdx Idealize.ShloMosaic.TcCoe Idealize.SL.Sem Idealize.ShloMosaic.StableHlo

/-- The left operand of the weighted average is read along the codeword axis: at (b, t, n, k, d) and codeword v it
    is the probability at (b, t, n, k, v). -/
theorem lidx_v40_ix (b : Fin 16) (t : Fin 64) (n : Fin 8) (k : Fin 8) (d : Fin 64) (v : Fin 1024) :
    lidx_main_v40 (ix5 b t n k d) v = ix5 b t n k v :=
  funext fun a => Fin.ext (by
    match a with
    | ⟨0, _⟩ => rfl
    | ⟨1, _⟩ => rfl
    | ⟨2, _⟩ => rfl
    | ⟨3, _⟩ => rfl
    | ⟨4, _⟩ => rfl)

/-- The gathered entry is an entry of the codebook (whichever row the word selects), so it is real. -/
theorem hard_real (x1 : (⟨S16x64x8x8, .i32⟩ : BufTy).Contents (Elt Ideal)) (x4 : (⟨S1024x64, .f32⟩ : BufTy).Contents (Elt Ideal))
    (hc : ∀ i, ∃ r : ℝ, x4 i = (r : EReal)) (i : S16x64x8x8x64.Idx) :
    VQ.IsReal (val_main_v39 (F := Ideal) x1 x4 i) := by
  unfold val_main_v39 Host.gather
  exact hc _

/-- A probability is real: the exponential of a log-probability of real logits. -/
theorem prob_real (x0 : (⟨S16x64x8x512, .f32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (hc : ∀ i, ∃ r : ℝ, x4 i = (r : EReal))
    (b : Fin 16) (t : Fin 64) (n : Fin 8) (k : Fin 8) (v : Fin 1024) :
    VQ.IsReal (val_main_v28 (F := Ideal) x0 x2 x3 x4 (ix5 b t n k v)) := by
  rw [val_main_v28_apply, logp_apply, Ideal.hostUnary_exp_def]
  refine VQ.exp_real (VQ.logp_real _ (fun u => ?_) v)
  exact VQ.logit_real _ _ _ (fun e => VQ.slot_real _ _ _ k e) (fun u e => hc (ix2 u e))
    (fun u => VQ.sqn_real _ (fun w e => hc (ix2 w e)) u) u

/-- The probability-weighted average of the codebook is real: a finite sum of products of real numbers. -/
theorem soft_real (x0 : (⟨S16x64x8x512, .f32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (hc : ∀ i, ∃ r : ℝ, x4 i = (r : EReal))
    (b : Fin 16) (t : Fin 64) (n : Fin 8) (k : Fin 8) (d : Fin 64) :
    VQ.IsReal (val_main_v40 (F := Ideal) x0 x2 x3 x4 (ix5 b t n k d)) := by
  rw [val_main_v40_apply]
  refine VQ.IsReal.sum _ _ (fun v _ => ?_)
  rw [lidx_v40_ix]
  exact (prob_real x0 x2 x3 x4 hc b t n k v).mul (hc _)

/-- The straight-through sum is the gathered codeword, entry by entry, when the codebook is real. -/
theorem v42_eq (x0 : (⟨S16x64x8x512, .f32⟩ : BufTy).Contents (Elt Ideal)) (x1 : (⟨S16x64x8x8, .i32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (hc : ∀ i, ∃ r : ℝ, x4 i = (r : EReal)) :
    val_main_v42 (F := Ideal) x0 x1 x2 x3 x4 = val_main_v39 (F := Ideal) x1 x4 := by
  funext i
  obtain ⟨b, t, n, k, d, rfl⟩ : ∃ (b : Fin 16) (t : Fin 64) (n : Fin 8) (k : Fin 8) (d : Fin 64), i = ix5 b t n k d :=
    ⟨i 0, i 1, i 2, i 3, i 4, eq_ix5 i⟩
  rw [val_main_v42_apply, val_main_v41_apply, Ideal.addf_def, Ideal.subf_def]
  exact VQ.add_sub_cancel_real (soft_real x0 x2 x3 x4 hc _ _ _ _ _) (hard_real x1 x4 hc _)

/-- So the first result is the reshaped gather. -/
theorem v43_eq (x0 : (⟨S16x64x8x512, .f32⟩ : BufTy).Contents (Elt Ideal)) (x1 : (⟨S16x64x8x8, .i32⟩ : BufTy).Contents (Elt Ideal)) (x2 : (⟨S512x512, .f32⟩ : BufTy).Contents (Elt Ideal)) (x3 : (⟨S512, .f32⟩ : BufTy).Contents (Elt Ideal)) (x4 : (⟨S1024x64, .f32⟩ : BufTy).Contents (Elt Ideal))
    (hc : ∀ i, ∃ r : ℝ, x4 i = (r : EReal)) :
    val_main_v43 (F := Ideal) x0 x1 x2 x3 x4
      = shapeCast S8192x512 (val_main_v39 (F := Ideal) x1 x4) shapeCasts_S16x64x8x8x64_S8192x512 := by
  unfold val_main_v43
  rw [v42_eq x0 x1 x2 x3 x4 hc]

end Cert.ReferenceIdeal.RefIdx

end
-- ==== Proof.Bridge.lean ====
/-
  The two programs' results are the same functions of the arguments.

  First result: the reference forms soft + (hard − soft); with a real codebook that is hard, the reshaped selected
  codebook rows, which is what the kernel program computes on the host. Second and third results: at row
  (b, t, n) — row (b·64 + t)·8 + n of the flattened arrays — the kernel adds the eight slots' terms one after
  the other onto zero and the reference sums them; the terms are the same row quantities, the given words being
  in range.
-/
import proofs.«421140_j13005160973101_2_alg».proof.Proof.KBlocks
import proofs.«421140_j13005160973101_2_alg».proof.Proof.KTail
import proofs.«421140_j13005160973101_2_alg».proof.Proof.RefResults
import proofs.«421140_j13005160973101_2_alg».proof.Proof.RefHard

set_option maxRecDepth 16384

noncomputable section

open scoped BigOperators

namespace Cert.Bridge

open Idealize.ShloMosaic Idealize.ShloMosaic.ValueIdx Idealize.ShloMosaic.TcCoe Idealize.SL.Sem
open Cert.KernelIdeal.KBlocks Cert.KernelIdeal.KHost Cert.KernelIdeal.KTail

/-- Row (b·64 + t)·8 + n of the flattened arrays. -/
abbrev rowOf (b : Fin 16) (t : Fin 64) (n : Fin 8) : Fin 8192 :=
  ⟨(b.val * 64 + t.val) * 8 + n.val, by have := b.isLt; have := t.isLt; have := n.isLt; omega⟩

theorem rb_rowOf (b : Fin 16) (t : Fin 64) (n : Fin 8) : rb (rowOf b t n) = b :=
  Fin.ext (by show ((b.val * 64 + t.val) * 8 + n.val) / 512 = b.val; have := t.isLt; have := n.isLt; omega)
theorem rt_rowOf (b : Fin 16) (t : Fin 64) (n : Fin 8) : rt (rowOf b t n) = t :=
  Fin.ext (by show ((b.val * 64 + t.val) * 8 + n.val) / 8 % 64 = t.val; have := t.isLt; have := n.isLt; omega)
theorem rn_rowOf (b : Fin 16) (t : Fin 64) (n : Fin 8) : rn (rowOf b t n) = n :=
  Fin.ext (by show ((b.val * 64 + t.val) * 8 + n.val) % 8 = n.val; have := n.isLt; omega)

variable (m : (ℓ : Loc Cert.KernelIdeal.nD Cert.KernelIdeal.τ Cert.KernelIdeal.sig) → Buf (Elt Ideal) ℓ)

/-- A reshaped 8192 × 1 array at (b, t, n) is the array at row (b·64 + t)·8 + n. -/
theorem reshape_apply (G : Cert.KernelIdeal.S8192x1.Idx → EReal) (b : Fin 16) (t : Fin 64) (n : Fin 8) :
    shapeCast Cert.KernelIdeal.S16x64x8 G Cert.KernelIdeal.Gen.shapeCasts_S8192x1_S16x64x8 (ix3 b t n) = G (ix2 (rowOf b t n) (0 : Fin 1)) := by
  refine shapeCast_apply G _ (ix3 b t n) (ix2 (rowOf b t n) (0 : Fin 1)) ?_
  rw [Shape.rowMajor_val_two, Shape.rowMajor_val_three]
  show ((b.val * 64 + t.val) * 8 + n.val) * 1 + 0 = (b.val * 64 + t.val) * 8 + n.val
  omega

/-- The kernel's row of inputs at row (b·64 + t)·8 + n is the argument's row (b, t, n). -/
theorem xrow_rowOf (c : Dev Cert.KernelIdeal.nD) (b : Fin 16) (t : Fin 64) (n : Fin 8) :
    xrow m c (rowOf b t n) = fun h => m ((c : Thread Cert.KernelIdeal.nD Cert.KernelIdeal.τ).loc Cert.KernelIdeal.main_arg0) (ix4 b t n h) := by
  funext h; unfold xrow; rw [rb_rowOf, rt_rowOf, rn_rowOf]

theorem crow_rowOf (c : Dev Cert.KernelIdeal.nD) (b : Fin 16) (t : Fin 64) (n : Fin 8) :
    crow m c (rowOf b t n) = fun k => m ((c : Thread Cert.KernelIdeal.nD Cert.KernelIdeal.τ).loc Cert.KernelIdeal.main_arg1) (ix4 b t n k) := by
  funext k; unfold crow; rw [rb_rowOf, rt_rowOf, rn_rowOf]

/-- The second result: the kernel's reshaped log-probability array is the reference's stage, the words in range. -/
theorem k1_eq (c : Dev Cert.KernelIdeal.nD)
    (hr : ∀ i, 0 ≤ (m ((c : Thread Cert.KernelIdeal.nD Cert.KernelIdeal.τ).loc Cert.KernelIdeal.main_arg1) i).toInt ∧ (m ((c : Thread Cert.KernelIdeal.nD Cert.KernelIdeal.τ).loc Cert.KernelIdeal.main_arg1) i).toInt < 1024) :
    shapeCast Cert.KernelIdeal.S16x64x8 (G6 m c) Cert.KernelIdeal.Gen.shapeCasts_S8192x1_S16x64x8
      = Cert.ReferenceIdeal.ReadP.val_main_v27 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) := by
  funext i
  obtain ⟨b, t, n, rfl⟩ : ∃ (b : Fin 16) (t : Fin 64) (n : Fin 8), i = ix3 b t n := ⟨i 0, i 1, i 2, eq_ix3 i⟩
  rw [reshape_apply, Cert.ReferenceIdeal.RefIdx.v27_apply _ _ _ _ _ hr]
  show lpOf m c (rowOf b t n) = _
  unfold lpOf
  rw [VQ.acc8_eq_sum, xrow_rowOf, crow_rowOf]
  rfl

/-- The third result likewise. -/
theorem k2_eq (c : Dev Cert.KernelIdeal.nD) :
    shapeCast Cert.KernelIdeal.S16x64x8 (G7 m c) Cert.KernelIdeal.Gen.shapeCasts_S8192x1_S16x64x8
      = Cert.ReferenceIdeal.ReadP.val_main_v32 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) := by
  funext i
  obtain ⟨b, t, n, rfl⟩ : ∃ (b : Fin 16) (t : Fin 64) (n : Fin 8), i = ix3 b t n := ⟨i 0, i 1, i 2, eq_ix3 i⟩
  rw [reshape_apply, Cert.ReferenceIdeal.RefIdx.v32_apply]
  show entOf m c (rowOf b t n) = _
  unfold entOf
  rw [VQ.acc8_eq_sum, xrow_rowOf]
  rfl

/-- The first result: the reference's stage is the reshaped selected codebook rows, the codebook real. -/
theorem k0_eq (c : Dev Cert.KernelIdeal.nD)
    (hc : ∀ i, ∃ r : ℝ, m ((c : Thread Cert.KernelIdeal.nD Cert.KernelIdeal.τ).loc Cert.KernelIdeal.main_arg4) i = (r : EReal)) :
    K0 m c
      = Cert.ReferenceIdeal.ReadP.val_main_v43 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) := by
  rw [Cert.ReferenceIdeal.RefIdx.v43_eq _ _ _ _ _ hc]
  rfl

end Cert.Bridge

end
-- ==== Proof.lean ====
/-
  The certificate: the kernel program (a row projection, tanh, distances to 1024 codewords, a log-softmax, the
  log-probability of each slot's given codeword and the slots' entropies, in one region over 16 blocks of 512 rows,
  with the straight-through codewords gathered on the host) against its reference, over the extended reals, under
  the precondition that the float inputs are finite and every given codeword number lies in [0, 1024).

  The three frames: the two kernel programs' are the generated frame certificates; the reference's is its run with
  the results dropped. The idealization rewrote nothing, so the preservation claim is trivial. The algebraic claim:
  both programs run; the kernel's results are named off its frame run (the two output arrays row by row, the third
  result from the host operations after the region), the reference's are its stage functions of the arguments, and
  the two agree — the first because soft + (hard − soft) is hard for a real codebook, the other two because the
  same eight row terms are added, the given words being in range.
-/
import proofs.«421140_j13005160973101_2_alg».proof.Defs
import proofs.«421140_j13005160973101_2_alg».proof.Proof.Gen.Kernel
import proofs.«421140_j13005160973101_2_alg».proof.Proof.Gen.Kernel.Skeleton
import proofs.«421140_j13005160973101_2_alg».proof.Proof.Gen.Kernel.Launch
import proofs.«421140_j13005160973101_2_alg».proof.Proof.Gen.Kernel.Points
import proofs.«421140_j13005160973101_2_alg».proof.Proof.Gen.Kernel.Frame
import proofs.«421140_j13005160973101_2_alg».proof.Proof.Gen.KernelIdeal
import proofs.«421140_j13005160973101_2_alg».proof.Proof.Gen.KernelIdeal.Skeleton
import proofs.«421140_j13005160973101_2_alg».proof.Proof.Gen.KernelIdeal.Launch
import proofs.«421140_j13005160973101_2_alg».proof.Proof.Gen.KernelIdeal.Points
import proofs.«421140_j13005160973101_2_alg».proof.Proof.Gen.KernelIdeal.Frame
import proofs.«421140_j13005160973101_2_alg».proof.Proof.Gen.ReferenceIdeal
import proofs.«421140_j13005160973101_2_alg».proof.Proof.Gen.Pre_finite_inputs
import proofs.«421140_j13005160973101_2_alg».proof.Proof.RefRun
import proofs.«421140_j13005160973101_2_alg».proof.Proof.RefRead
import proofs.«421140_j13005160973101_2_alg».proof.Proof.Spec
import proofs.«421140_j13005160973101_2_alg».proof.Proof.RefStages
import proofs.«421140_j13005160973101_2_alg».proof.Proof.PreDecode
import proofs.«421140_j13005160973101_2_alg».proof.Proof.Bridge
import Idealize.ShloMosaic.Adequacy
import Idealize.ShloMosaic.Init

noncomputable section

namespace Cert.Proof

open Idealize.ShloMosaic Idealize.SL.Sem Idealize.ShloMosaic.TcCoe

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2.2)
    (Cert.ReferenceIdeal.Stages.run (F := Ideal) m ρ)

/-- The idealization rewrote no operation. -/
theorem preserves : Cert.preserves_Kernel_KernelIdeal := trivial

/-- Both programs run from memories agreeing on the arguments and end with the same three results. -/
theorem algebraic : Cert.algebraic_KernelIdeal_ReferenceIdeal := by
  intro m ρ m' ρ' hpre hagree
  refine ⟨fun c => Cert.KernelIdeal.KTail.K0 m c,
    fun c => shapeCast Cert.KernelIdeal.S16x64x8 (Cert.KernelIdeal.KBlocks.G6 m c) Cert.KernelIdeal.Gen.shapeCasts_S8192x1_S16x64x8,
    fun c => shapeCast Cert.KernelIdeal.S16x64x8 (Cert.KernelIdeal.KBlocks.G7 m c) Cert.KernelIdeal.Gen.shapeCasts_S8192x1_S16x64x8, ?_, ?_⟩
  · refine (θ_run Cert.KernelIdeal.defs _ _).mono
      (fun _ h c => ⟨(h c).1, (h c).2.1.trans ?_, (h c).2.2.1.trans ?_, (h c).2.2.2⟩) (Cert.KernelIdeal.KTail.run m ρ)
    · rw [Cert.KernelIdeal.KBlocks.final6]
    · rw [Cert.KernelIdeal.KBlocks.final7]
  · refine (θ_run Cert.ReferenceIdeal.defs _ _).mono
      (fun _ h c => ⟨(h c).1.trans ?_, (h c).2.1.trans ?_, (h c).2.2.1.trans ?_, (h c).2.2.2⟩)
      (Cert.ReferenceIdeal.Stages.run (F := Ideal) m' ρ')
    · rw [(hagree c).1, (hagree c).2.1, (hagree c).2.2.1, (hagree c).2.2.2.1, (hagree c).2.2.2.2]
      exact (Cert.Bridge.k0_eq m c (fun i => Cert.PreDecode.codebook_real _ _ _ _ _ (hpre c) i)).symm
    · rw [(hagree c).1, (hagree c).2.1, (hagree c).2.2.1, (hagree c).2.2.2.1, (hagree c).2.2.2.2]
      exact (Cert.Bridge.k1_eq m c (fun i => Cert.PreDecode.comms_range _ _ _ _ _ (hpre c) i)).symm
    · rw [(hagree c).1, (hagree c).2.2.1, (hagree c).2.2.2.1, (hagree c).2.2.2.2]
      exact (Cert.Bridge.k2_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
